-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S32 : Shape := ⟨1, ![32]⟩
abbrev S_ : Shape := ⟨0, ![]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel

variable [Facts]

def fn {F : FTy → Type} [FloatOps F] (main_arg0 : FVec F S64x128x64x64 .f32) (main_arg1 : IVec S32 32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  main_v3
-- ==== Kernel.lean ====
abbrev S64x128x64x64 : Shape := ⟨4, ![64, 128, 64, 64]⟩
abbrev S32 : Shape := ⟨1, ![32]⟩
abbrev S64x524288 : Shape := ⟨2, ![64, 524288]⟩
abbrev S64x1 : Shape := ⟨2, ![64, 1]⟩
abbrev S8x524288 : Shape := ⟨2, ![8, 524288]⟩
abbrev S8x1 : Shape := ⟨2, ![8, 1]⟩
abbrev S8x8192 : Shape := ⟨2, ![8, 8192]⟩
abbrev S8 : Shape := ⟨1, ![8]⟩
abbrev S_ : Shape := ⟨0, ![]⟩
abbrev S16 : Shape := ⟨1, ![16]⟩
abbrev S64x1x1 : Shape := ⟨3, ![64, 1, 1]⟩
abbrev S1x1x16 : Shape := ⟨3, ![1, 1, 16]⟩
abbrev S64x1x16 : Shape := ⟨3, ![64, 1, 16]⟩
abbrev S32x32768 : Shape := ⟨2, ![32, 32768]⟩
abbrev S32x1 : Shape := ⟨2, ![32, 1]⟩

abbrev nBuf : Space → Nat
  | .hbm => 156
  | .vmem => 17
  | .smem => 0
  | _ => 0

abbrev hbmTy0_0 (i : Nat) : BufTy := match i % 128 with
  | 0 => ⟨S64x128x64x64, .f32⟩
  | 1 => ⟨S32, .i32⟩
  | 2 => ⟨S64x524288, .f32⟩
  | 3 => ⟨S64x1, .f32⟩
  | 4 => ⟨S64x1, .f32⟩
  | 5 => ⟨S_, .f32⟩
  | 6 => ⟨S64x1, .f32⟩
  | 7 => ⟨S64x1, .f32⟩
  | 8 => ⟨S_, .f32⟩
  | 9 => ⟨S64x1, .f32⟩
  | 10 => ⟨S64x1, .f32⟩
  | 11 => ⟨S_, .f32⟩
  | 12 => ⟨S64x1, .f32⟩
  | 13 => ⟨S64x1, .f32⟩
  | 14 => ⟨S64x1, .f32⟩
  | 15 => ⟨S_, .i32⟩
  | 16 => ⟨S_, .i32⟩
  | 17 => ⟨S_, .f32⟩
  | 18 => ⟨S64x1, .f32⟩
  | 19 => ⟨S64x1, .f32⟩
  | 20 => ⟨S_, .f32⟩
  | 21 => ⟨S64x1, .f32⟩
  | 22 => ⟨S64x1, .f32⟩
  | 23 => ⟨S_, .f32⟩
  | 24 => ⟨S64x1, .f32⟩
  | 25 => ⟨S64x1, .f32⟩
  | 26 => ⟨S_, .f32⟩
  | 27 => ⟨S64x1, .f32⟩
  | 28 => ⟨S64x1, .f32⟩
  | 29 => ⟨S64x1, .i32⟩
  | 30 => ⟨S16, .i32⟩
  | 31 => ⟨S_, .i32⟩
  | 32 => ⟨S16, .i32⟩
  | 33 => ⟨S16, .i32⟩
  | 34 => ⟨S64x1x1, .i32⟩
  | 35 => ⟨S1x1x16, .i32⟩
  | 36 => ⟨S64x1x16, .i32⟩
  | 37 => ⟨S64x1x16, .i32⟩
  | 38 => ⟨S64x1x16, .i1⟩
  | 39 => ⟨S64x1x16, .i32⟩
  | 40 => ⟨S_, .i32⟩
  | 41 => ⟨S64x1, .i32⟩
  | 42 => ⟨S_, .i32⟩
  | 43 => ⟨S64x1, .i32⟩
  | 44 => ⟨S64x1, .i32⟩
  | 45 => ⟨S_, .i32⟩
  | 46 => ⟨S64x1, .i32⟩
  | 47 => ⟨S64x1, .i32⟩
  | 48 => ⟨S_, .i32⟩
  | 49 => ⟨S64x1, .i32⟩
  | 50 => ⟨S64x1, .i32⟩
  | 51 => ⟨S64x1, .i32⟩
  | 52 => ⟨S_, .i32⟩
  | 53 => ⟨S64x1, .i32⟩
  | 54 => ⟨S64x1, .i32⟩
  | 55 => ⟨S_, .i32⟩
  | 56 => ⟨S64x1, .i32⟩
  | 57 => ⟨S64x1, .i32⟩
  | 58 => ⟨S_, .i32⟩
  | 59 => ⟨S64x1, .i32⟩
  | 60 => ⟨S64x1, .i1⟩
  | 61 => ⟨S_, .i32⟩
  | 62 => ⟨S64x1, .i32⟩
  | 63 => ⟨S64x1, .i32⟩
  | 64 => ⟨S64x1, .i32⟩
  | 65 => ⟨S64x1x1, .i32⟩
  | 66 => ⟨S64x1, .i32⟩
  | 67 => ⟨S_, .i32⟩
  | 68 => ⟨S64x1, .i32⟩
  | 69 => ⟨S64x1, .i32⟩
  | 70 => ⟨S_, .i32⟩
  | 71 => ⟨S_, .i32⟩
  | 72 => ⟨S64x1, .i32⟩
  | 73 => ⟨S64x1, .i32⟩
  | 74 => ⟨S64x1, .i32⟩
  | 75 => ⟨S_, .i32⟩
  | 76 => ⟨S64x1, .i32⟩
  | 77 => ⟨S64x1, .i1⟩
  | 78 => ⟨S64x1, .i32⟩
  | 79 => ⟨S64x1, .i32⟩
  | 80 => ⟨S_, .i32⟩
  | 81 => ⟨S64x1, .i32⟩
  | 82 => ⟨S64x1, .i1⟩
  | 83 => ⟨S64x1, .i1⟩
  | 84 => ⟨S_, .i32⟩
  | 85 => ⟨S64x1, .i32⟩
  | 86 => ⟨S64x1, .i32⟩
  | 87 => ⟨S64x1, .i32⟩
  | 88 => ⟨S_, .i32⟩
  | 89 => ⟨S64x1, .i32⟩
  | 90 => ⟨S64x1, .i32⟩
  | 91 => ⟨S64x1, .i32⟩
  | 92 => ⟨S_, .i32⟩
  | 93 => ⟨S64x1, .i32⟩
  | 94 => ⟨S64x1, .i1⟩
  | 95 => ⟨S_, .i32⟩
  | 96 => ⟨S64x1, .i32⟩
  | 97 => ⟨S64x1, .i32⟩
  | 98 => ⟨S_, .i32⟩
  | 99 => ⟨S64x1, .i32⟩
  | 100 => ⟨S64x1, .i32⟩
  | 101 => ⟨S64x1, .i32⟩
  | 102 => ⟨S_, .i32⟩
  | 103 => ⟨S64x1, .i32⟩
  | 104 => ⟨S64x1, .i32⟩
  | 105 => ⟨S_, .i32⟩
  | 106 => ⟨S64x1, .i32⟩
  | 107 => ⟨S64x1, .i1⟩
  | 108 => ⟨S_, .i32⟩
  | 109 => ⟨S64x1, .i32⟩
  | 110 => ⟨S64x1, .i32⟩
  | 111 => ⟨S64x1, .i32⟩
  | 112 => ⟨S64x1, .i32⟩
  | 113 => ⟨S_, .i32⟩
  | 114 => ⟨S64x1, .i32⟩
  | 115 => ⟨S64x1, .i32⟩
  | 116 => ⟨S64x1, .i32⟩
  | 117 => ⟨S64x1, .i32⟩
  | 118 => ⟨S_, .i32⟩
  | 119 => ⟨S64x1, .i32⟩
  | 120 => ⟨S64x1, .i1⟩
  | 121 => ⟨S_, .i32⟩
  | 122 => ⟨S_, .i32⟩
  | 123 => ⟨S64x1, .i32⟩
  | 124 => ⟨S64x1, .i32⟩
  | 125 => ⟨S_, .i32⟩
  | 126 => ⟨S_, .i32⟩
  | 127 => ⟨S_, .i32⟩
  | _ => ⟨S64x128x64x64, .f32⟩

abbrev hbmTy0_1 (i : Nat) : BufTy := match i % 128 with
  | 0 => ⟨S64x1, .i32⟩
  | 1 => ⟨S64x1, .i32⟩
  | 2 => ⟨S_, .i32⟩
  | 3 => ⟨S64x1, .i32⟩
  | 4 => ⟨S64x1, .i32⟩
  | 5 => ⟨S64x1, .f32⟩
  | 6 => ⟨S_, .f32⟩
  | 7 => ⟨S64x1, .f32⟩
  | 8 => ⟨S64x1, .f32⟩
  | 9 => ⟨S_, .f32⟩
  | 10 => ⟨S64x1, .f32⟩
  | 11 => ⟨S64x1, .f32⟩
  | 12 => ⟨S64x1, .f32⟩
  | 13 => ⟨S_, .i32⟩
  | 14 => ⟨S_, .i32⟩
  | 15 => ⟨S_, .f32⟩
  | 16 => ⟨S64x1, .f32⟩
  | 17 => ⟨S64x1, .f32⟩
  | 18 => ⟨S_, .f32⟩
  | 19 => ⟨S64x1, .f32⟩
  | 20 => ⟨S64x1, .f32⟩
  | 21 => ⟨S_, .f32⟩
  | 22 => ⟨S64x1, .f32⟩
  | 23 => ⟨S64x1, .f32⟩
  | 24 => ⟨S64x524288, .f32⟩
  | 25 => ⟨S64x524288, .i32⟩
  | 26 => ⟨S64x128x64x64, .f32⟩
  | 27 => ⟨S64x128x64x64, .i32⟩
  | _ => ⟨S64x128x64x64, .f32⟩

abbrev hbmTy (i : Nat) : BufTy := match i / 128 with
  | 0 => hbmTy0_0 i
  | 1 => hbmTy0_1 i
  | _ => ⟨S64x128x64x64, .f32⟩

abbrev bufTy : (tb : Table) → Fin (tcTables nBuf tb) → BufTy
  | .hbm, ⟨i, _⟩ => hbmTy i
  | .local _ .vmem, ⟨0, _⟩ => ⟨S8x524288, .f32⟩
  | .local _ .vmem, ⟨1, _⟩ => ⟨S8x524288, .f32⟩
  | .local _ .vmem, ⟨2, _⟩ => ⟨S8x1, .f32⟩
  | .local _ .vmem, ⟨3, _⟩ => ⟨S8x1, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S32x32768, .f32⟩
  | .local _ .vmem, ⟨8, _⟩ => ⟨S32x32768, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S32x32768, .f32⟩
  | .local _ .vmem, ⟨14, _⟩ => ⟨S32x32768, .f32⟩
  | .local _ .vmem, ⟨15, _⟩ => ⟨S32x32768, .i32⟩
  | .local _ .vmem, ⟨16, _⟩ => ⟨S32x32768, .i32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_10 : Ref sig .tc := ⟨.hbm, 52, rfl⟩
abbrev main_v32 : Ref sig .tc := ⟨.hbm, 53, rfl⟩
abbrev main_v33 : Ref sig .tc := ⟨.hbm, 54, rfl⟩
abbrev main_c_11 : Ref sig .tc := ⟨.hbm, 55, rfl⟩
abbrev main_v34 : Ref sig .tc := ⟨.hbm, 56, rfl⟩
abbrev main_v35 : Ref sig .tc := ⟨.hbm, 57, rfl⟩
abbrev main_c_12 : Ref sig .tc := ⟨.hbm, 58, rfl⟩
abbrev main_v36 : Ref sig .tc := ⟨.hbm, 59, rfl⟩
abbrev main_v37 : Ref sig .tc := ⟨.hbm, 60, rfl⟩
abbrev main_c_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_14 : Ref sig .tc := ⟨.hbm, 67, rfl⟩
abbrev main_v43 : Ref sig .tc := ⟨.hbm, 68, rfl⟩
abbrev main_v44 : Ref sig .tc := ⟨.hbm, 69, rfl⟩
abbrev main_c_15 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v45 : Ref sig .tc := ⟨.hbm, 87, rfl⟩
abbrev main_c_16 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_17 : Ref sig .tc := ⟨.hbm, 92, rfl⟩
abbrev main_v49 : Ref sig .tc := ⟨.hbm, 93, rfl⟩
abbrev main_v50 : Ref sig .tc := ⟨.hbm, 94, rfl⟩
abbrev main_c_18 : Ref sig .tc := ⟨.hbm, 95, rfl⟩
abbrev main_v51 : Ref sig .tc := ⟨.hbm, 96, rfl⟩
abbrev main_v52 : Ref sig .tc := ⟨.hbm, 97, rfl⟩
abbrev main_c_19 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_20 : Ref sig .tc := ⟨.hbm, 102, rfl⟩
abbrev main_v56 : Ref sig .tc := ⟨.hbm, 103, rfl⟩
abbrev main_v57 : Ref sig .tc := ⟨.hbm, 104, rfl⟩
abbrev main_c_21 : Ref sig .tc := ⟨.hbm, 105, rfl⟩
abbrev main_v58 : Ref sig .tc := ⟨.hbm, 106, rfl⟩
abbrev main_v59 : Ref sig .tc := ⟨.hbm, 107, rfl⟩
abbrev main_c_22 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_23 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_24 : Ref sig .tc := ⟨.hbm, 118, rfl⟩
abbrev main_v68 : Ref sig .tc := ⟨.hbm, 119, rfl⟩
abbrev main_v69 : Ref sig .tc := ⟨.hbm, 120, rfl⟩
abbrev main_c_25 : Ref sig .tc := ⟨.hbm, 121, rfl⟩
abbrev main_call4_v0 : Ref sig .tc := ⟨.hbm, 122, rfl⟩
abbrev main_call4_v1 : Ref sig .tc := ⟨.hbm, 123, rfl⟩
abbrev main_v70 : Ref sig .tc := ⟨.hbm, 124, rfl⟩
abbrev main_c_26 : Ref sig .tc := ⟨.hbm, 125, rfl⟩
abbrev main_c_27 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v71 : Ref sig .tc := ⟨.hbm, 132, rfl⟩
abbrev main_v72 : Ref sig .tc := ⟨.hbm, 133, rfl⟩
abbrev main_cst_28 : Ref sig .tc := ⟨.hbm, 134, rfl⟩
abbrev main_v73 : Ref sig .tc := ⟨.hbm, 135, rfl⟩
abbrev main_v74 : Ref sig .tc := ⟨.hbm, 136, rfl⟩
abbrev main_cst_29 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_c_30 : Ref sig .tc := ⟨.hbm, 141, rfl⟩
abbrev main_c_31 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_v78 : Ref sig .tc := ⟨.hbm, 148, rfl⟩
abbrev main_cst_32 : Ref sig .tc := ⟨.hbm, 149, rfl⟩
abbrev main_v79 : Ref sig .tc := ⟨.hbm, 150, rfl⟩
abbrev main_v80 : Ref sig .tc := ⟨.hbm, 151, rfl⟩
abbrev main_v81_0 : Ref sig .tc := ⟨.hbm, 152, rfl⟩
abbrev main_v81_1 : Ref sig .tc := ⟨.hbm, 153, rfl⟩
abbrev main_v82 : Ref sig .tc := ⟨.hbm, 154, rfl⟩
abbrev main_v83 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_mult1 (k0_t1 : Fin k0_t1_loop.trips) : BitVec 32 :=
  let c0_i32_23 : BitVec 32 := 0#32
  let c0_i32 : BitVec 32 := 0#32
  let c1_i32 : BitVec 32 := 1#32
  let arg5 : BitVec 32 := Scf.iv c0_i32 c1_i32 k0_t1
  let c1_i32_22 : BitVec 32 := 1#32
  let v25 : BitVec 32 := Scalar.muli arg5 c1_i32_22
  let v26 : BitVec 32 := Scalar.addi c0_i32_23 v25
  let c8192_i32 : BitVec 32 := 8192#32
  let v27 : BitVec 32 := Scalar.muli v26 c8192_i32
  v27
def k0_off1 (k0_t1 : Fin k0_t1_loop.trips) : Fin 2 → Nat :=
  let c0_24 : Index := 0#32
  let c0_i32_23 : BitVec 32 := 0#32
  let c0_i32 : BitVec 32 := 0#32
  let c1_i32 : BitVec 32 := 1#32
  let arg5 : BitVec 32 := Scf.iv c0_i32 c1_i32 k0_t1
  let c1_i32_22 : BitVec 32 := 1#32
  let v25 : BitVec 32 := Scalar.muli arg5 c1_i32_22
  let v26 : BitVec 32 := Scalar.addi c0_i32_23 v25
  let c8192_i32 : BitVec 32 := 8192#32
  let v27 : BitVec 32 := Scalar.muli v26 c8192_i32
  let v28 : BitVec 32 := v27
  let v29 : Index := Scalar.indexCast v28
  ![0, v29.toNat]
@[reducible] def k0_t2_loop : Scf.Loop 32 :=
  let c0_i32_14 : BitVec 32 := 0#32
  let c64_i32_15 : BitVec 32 := 64#32
  let v22 : BitVec 32 := Scalar.addi c0_i32_14 c64_i32_15
  let c1_i32_16 : BitVec 32 := 1#32
  ⟨c0_i32_14, v22, c1_i32_16⟩
def k0_mult2 (k0_t2 : Fin k0_t2_loop.trips) : BitVec 32 :=
  let c0_i32_23 : BitVec 32 := 0#32
  let c0_i32_14 : BitVec 32 := 0#32
  let c1_i32_16 : BitVec 32 := 1#32
  let arg5 : BitVec 32 := Scf.iv c0_i32_14 c1_i32_16 k0_t2
  let c1_i32_22 : BitVec 32 := 1#32
  let v25 : BitVec 32 := Scalar.muli arg5 c1_i32_22
  let v26 : BitVec 32 := Scalar.addi c0_i32_23 v25
  let c8192_i32 : BitVec 32 := 8192#32
  let v27 : BitVec 32 := Scalar.muli v26 c8192_i32
  v27
def k0_off2 (k0_t2 : Fin k0_t2_loop.trips) : Fin 2 → Nat :=
  let c0_24 : Index := 0#32
  let c0_i32_23 : BitVec 32 := 0#32
  let c0_i32_14 : BitVec 32 := 0#32
  let c1_i32_16 : BitVec 32 := 1#32
  let arg5 : BitVec 32 := Scf.iv c0_i32_14 c1_i32_16 k0_t2
  let c1_i32_22 : BitVec 32 := 1#32
  let v25 : BitVec 32 := Scalar.muli arg5 c1_i32_22
  let v26 : BitVec 32 := Scalar.addi c0_i32_23 v25
  let c8192_i32 : BitVec 32 := 8192#32
  let v27 : BitVec 32 := Scalar.muli v26 c8192_i32
  let v28 : BitVec 32 := v27
  let v29 : Index := Scalar.indexCast v28
  ![0, v29.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S32x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S32x32768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x32768 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S64x128x64x64_S64x524288 : S64x128x64x64.ShapeCasts S64x524288
  inb_S8x1_S8x1_0_0 : ∀ a, (![0, 0] : Fin 2 → Nat) a + S8x1.size a ≤ S8x1.size a
  h_S8x1 : 0 < S8x1.numel
  shapeCasts_S8x1_S8x1 : S8x1.ShapeCasts S8x1
  h_S8x8192 : 0 < S8x8192.numel
  shapeCasts_S8x8192_S8x8192 : S8x8192.ShapeCasts S8x8192
  reduces_S8x8192_S8 : S8x8192.Reduces [1] S8
  shapeCasts_S8_S8x1 : S8.ShapeCasts S8x1
  broadcasts_S8x1_S8x8192 : S8x1.Broadcasts S8x8192
  bcast_S_S64x1 : S_.BroadcastsInDim S64x1 (![] : Fin 0 → Fin S64x1.rank)
  bcast_S_S16 : S_.BroadcastsInDim S16 (![] : Fin 0 → Fin S16.rank)
  bcast_S64x1_S64x1x1_0_1 : S64x1.BroadcastsInDim S64x1x1 (![0, 1] : Fin 2 → Fin S64x1x1.rank)
  bcast_S16_S1x1x16_2 : S16.BroadcastsInDim S1x1x16 (![2] : Fin 1 → Fin S1x1x16.rank)
  bcast_S64x1x1_S64x1x16_0_1_2 : S64x1x1.BroadcastsInDim S64x1x16 (![0, 1, 2] : Fin 3 → Fin S64x1x16.rank)
  bcast_S1x1x16_S64x1x16_0_1_2 : S1x1x16.BroadcastsInDim S64x1x16 (![0, 1, 2] : Fin 3 → Fin S64x1x16.rank)
  natLt_1_32 : 1 < 32
  reducesTo_S64x1x16_S64x1_d2 : S64x1x16.ReducesTo [2] S64x1
  h_S_ : 0 < S_.numel
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  shapeCasts_S64x524288_S64x128x64x64 : S64x524288.ShapeCasts S64x128x64x64
  gather_S32_S64x1x1_S64x1_n_0_n_n_0_2_1_wf : GatherDims.WF S32 S64x1x1 S64x1 [] [0] [] [0] [] 2 ![1]
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S8x8192.size a ≤ S8x524288.size a
  k0_t2_ok : k0_t2_loop.OK
  k0_mult2_dvd : ∀ k0_t2 : Fin k0_t2_loop.trips, 8192 ∣ (k0_mult2 k0_t2).toNat
  k0_off2_inb : ∀ k0_t2 : Fin k0_t2_loop.trips, ∀ a, (k0_off2 k0_t2) a + S8x8192.size a ≤ S8x524288.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x524288.size a ≤ S64x524288.size a
  hwx0_0 : ∀ i : grid0.Coords, EltTy.bits .f32 = 32 ∨ (Rect.block (s := S64x524288) S8x524288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S64x1.size a
  hwx0_1 : ∀ i : grid0.Coords, EltTy.bits .f32 = 32 ∨ (Rect.block (s := S64x1) S8x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32768.size a ≤ S64x524288.size a
  hwx1_0 : ∀ i : grid1.Coords, EltTy.bits .f32 = 32 ∨ (Rect.block (s := S64x524288) S32x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S64x1.size a
  hwx1_1 : ∀ i : grid1.Coords, EltTy.bits .f32 = 32 ∨ (Rect.block (s := S64x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S64x1.size a
  hwx1_2 : ∀ i : grid1.Coords, EltTy.bits .f32 = 32 ∨ (Rect.block (s := S64x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x32768.size a ≤ S64x524288.size a
  hwx1_3 : ∀ i : grid1.Coords, EltTy.bits .f32 = 32 ∨ (Rect.block (s := S64x524288) S32x32768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x32768.size a ≤ S64x524288.size a
  hwx1_4 : ∀ i : grid1.Coords, EltTy.bits .i32 = 32 ∨ (Rect.block (s := S64x524288) S32x32768.size (cc1_transform_4 i) (hinb1_4 i)).WholeWords (EltTy.packing .i32)

variable [Facts₀]

def gather_S32_S64x1x1_S64x1_n_0_n_n_0_2_1 : GatherDims S32 S64x1x1 S64x1 where
  offsetDims := []
  collapsedSliceDims := [0]
  operandBatchingDims := []
  startIndicesBatchingDims := []
  startIndexMap := [0]
  indexVectorDim := 2
  sliceSizes := ![1]
  wf := gather_S32_S64x1x1_S64x1_n_0_n_n_0_2_1_wf

abbrev win0_0 : Pipeline.Window sig grid0 :=
  Pipeline.Window.ofSpec (Memref.whole main_v0) S8x524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S32x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S32x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v81_0) S32x32768.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v81_1) S32x32768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x128x64x64 : Shape := ⟨4, ![64, 128, 64, 64]⟩
abbrev S32 : Shape := ⟨1, ![32]⟩
abbrev S_ : Shape := ⟨0, ![]⟩
abbrev S64 : Shape := ⟨1, ![64]⟩
abbrev S64x1x1x1 : Shape := ⟨4, ![64, 1, 1, 1]⟩
abbrev S16 : Shape := ⟨1, ![16]⟩
abbrev S64x1x1x1x1 : Shape := ⟨5, ![64, 1, 1, 1, 1]⟩
abbrev S1x1x1x1x16 : Shape := ⟨5, ![1, 1, 1, 1, 16]⟩
abbrev S64x1x1x1x16 : Shape := ⟨5, ![64, 1, 1, 1, 16]⟩

abbrev nBuf : Space → Nat
  | .hbm => 215
  | .vmem => 0
  | .smem => 0
  | _ => 0

abbrev hbmTy0_0 (i : Nat) : BufTy := match i % 128 with
  | 0 => ⟨S64x128x64x64, .f32⟩
  | 1 => ⟨S32, .i32⟩
  | 2 => ⟨S_, .f32⟩
  | 3 => ⟨S64, .f32⟩
  | 4 => ⟨S64x1x1x1, .f32⟩
  | 5 => ⟨S_, .f32⟩
  | 6 => ⟨S64x1x1x1, .f32⟩
  | 7 => ⟨S64x1x1x1, .f32⟩
  | 8 => ⟨S_, .f32⟩
  | 9 => ⟨S64x1x1x1, .f32⟩
  | 10 => ⟨S64x1x1x1, .f32⟩
  | 11 => ⟨S64x1x1x1, .f32⟩
  | 12 => ⟨S_, .i32⟩
  | 13 => ⟨S_, .i32⟩
  | 14 => ⟨S_, .f32⟩
  | 15 => ⟨S64x1x1x1, .f32⟩
  | 16 => ⟨S64x1x1x1, .f32⟩
  | 17 => ⟨S_, .f32⟩
  | 18 => ⟨S64x1x1x1, .f32⟩
  | 19 => ⟨S64x1x1x1, .f32⟩
  | 20 => ⟨S_, .f32⟩
  | 21 => ⟨S64x1x1x1, .f32⟩
  | 22 => ⟨S64x1x1x1, .f32⟩
  | 23 => ⟨S64x128x64x64, .f32⟩
  | 24 => ⟨S64x128x64x64, .f32⟩
  | 25 => ⟨S64x128x64x64, .f32⟩
  | 26 => ⟨S_, .f32⟩
  | 27 => ⟨S64, .f32⟩
  | 28 => ⟨S64x1x1x1, .f32⟩
  | 29 => ⟨S_, .f32⟩
  | 30 => ⟨S64x1x1x1, .f32⟩
  | 31 => ⟨S64x1x1x1, .f32⟩
  | 32 => ⟨S_, .f32⟩
  | 33 => ⟨S64x1x1x1, .f32⟩
  | 34 => ⟨S64x1x1x1, .f32⟩
  | 35 => ⟨S64x1x1x1, .f32⟩
  | 36 => ⟨S_, .i32⟩
  | 37 => ⟨S_, .i32⟩
  | 38 => ⟨S_, .f32⟩
  | 39 => ⟨S64x1x1x1, .f32⟩
  | 40 => ⟨S64x1x1x1, .f32⟩
  | 41 => ⟨S_, .f32⟩
  | 42 => ⟨S64x1x1x1, .f32⟩
  | 43 => ⟨S64x1x1x1, .f32⟩
  | 44 => ⟨S_, .f32⟩
  | 45 => ⟨S64x1x1x1, .f32⟩
  | 46 => ⟨S64x1x1x1, .f32⟩
  | 47 => ⟨S_, .f32⟩
  | 48 => ⟨S64x1x1x1, .f32⟩
  | 49 => ⟨S64x1x1x1, .f32⟩
  | 50 => ⟨S64x1x1x1, .i32⟩
  | 51 => ⟨S16, .i32⟩
  | 52 => ⟨S_, .i32⟩
  | 53 => ⟨S16, .i32⟩
  | 54 => ⟨S16, .i32⟩
  | 55 => ⟨S64x1x1x1x1, .i32⟩
  | 56 => ⟨S1x1x1x1x16, .i32⟩
  | 57 => ⟨S64x1x1x1x16, .i32⟩
  | 58 => ⟨S64x1x1x1x16, .i32⟩
  | 59 => ⟨S64x1x1x1x16, .i1⟩
  | 60 => ⟨S64x1x1x1x16, .i32⟩
  | 61 => ⟨S_, .i32⟩
  | 62 => ⟨S64x1x1x1, .i32⟩
  | 63 => ⟨S_, .i32⟩
  | 64 => ⟨S64x1x1x1, .i32⟩
  | 65 => ⟨S64x1x1x1, .i32⟩
  | 66 => ⟨S_, .i32⟩
  | 67 => ⟨S64x1x1x1, .i32⟩
  | 68 => ⟨S64x1x1x1, .i32⟩
  | 69 => ⟨S_, .i32⟩
  | 70 => ⟨S64x1x1x1, .i32⟩
  | 71 => ⟨S64x1x1x1, .i32⟩
  | 72 => ⟨S64x1x1x1, .i32⟩
  | 73 => ⟨S_, .i32⟩
  | 74 => ⟨S64x1x1x1, .i32⟩
  | 75 => ⟨S64x1x1x1, .i32⟩
  | 76 => ⟨S_, .i32⟩
  | 77 => ⟨S64x1x1x1, .i32⟩
  | 78 => ⟨S64x1x1x1, .i32⟩
  | 79 => ⟨S_, .i32⟩
  | 80 => ⟨S64x1x1x1, .i32⟩
  | 81 => ⟨S64x1x1x1, .i1⟩
  | 82 => ⟨S_, .i32⟩
  | 83 => ⟨S64x1x1x1, .i32⟩
  | 84 => ⟨S64x1x1x1, .i32⟩
  | 85 => ⟨S64x1x1x1, .i32⟩
  | 86 => ⟨S64x1x1x1x1, .i32⟩
  | 87 => ⟨S64x1x1x1, .i32⟩
  | 88 => ⟨S_, .i32⟩
  | 89 => ⟨S64x1x1x1, .i32⟩
  | 90 => ⟨S64x1x1x1, .i32⟩
  | 91 => ⟨S_, .i32⟩
  | 92 => ⟨S_, .i32⟩
  | 93 => ⟨S64x1x1x1, .i32⟩
  | 94 => ⟨S64x1x1x1, .i32⟩
  | 95 => ⟨S64x1x1x1, .i32⟩
  | 96 => ⟨S_, .i32⟩
  | 97 => ⟨S64x1x1x1, .i32⟩
  | 98 => ⟨S64x1x1x1, .i1⟩
  | 99 => ⟨S64x1x1x1, .i32⟩
  | 100 => ⟨S64x1x1x1, .i32⟩
  | 101 => ⟨S_, .i32⟩
  | 102 => ⟨S64x1x1x1, .i32⟩
  | 103 => ⟨S64x1x1x1, .i1⟩
  | 104 => ⟨S64x1x1x1, .i1⟩
  | 105 => ⟨S_, .i32⟩
  | 106 => ⟨S64x1x1x1, .i32⟩
  | 107 => ⟨S64x1x1x1, .i32⟩
  | 108 => ⟨S64x1x1x1, .i32⟩
  | 109 => ⟨S_, .i32⟩
  | 110 => ⟨S64x1x1x1, .i32⟩
  | 111 => ⟨S64x1x1x1, .i32⟩
  | 112 => ⟨S64x1x1x1, .i32⟩
  | 113 => ⟨S_, .i32⟩
  | 114 => ⟨S64x1x1x1, .i32⟩
  | 115 => ⟨S64x1x1x1, .i1⟩
  | 116 => ⟨S_, .i32⟩
  | 117 => ⟨S64x1x1x1, .i32⟩
  | 118 => ⟨S64x1x1x1, .i32⟩
  | 119 => ⟨S_, .i32⟩
  | 120 => ⟨S64x1x1x1, .i32⟩
  | 121 => ⟨S64x1x1x1, .i32⟩
  | 122 => ⟨S64x1x1x1, .i32⟩
  | 123 => ⟨S_, .i32⟩
  | 124 => ⟨S64x1x1x1, .i32⟩
  | 125 => ⟨S64x1x1x1, .i32⟩
  | 126 => ⟨S_, .i32⟩
  | 127 => ⟨S64x1x1x1, .i32⟩
  | _ => ⟨S64x128x64x64, .f32⟩

abbrev hbmTy0_1 (i : Nat) : BufTy := match i % 128 with
  | 0 => ⟨S64x1x1x1, .i1⟩
  | 1 => ⟨S_, .i32⟩
  | 2 => ⟨S64x1x1x1, .i32⟩
  | 3 => ⟨S64x1x1x1, .i32⟩
  | 4 => ⟨S64x1x1x1, .i32⟩
  | 5 => ⟨S64x1x1x1, .i32⟩
  | 6 => ⟨S_, .i32⟩
  | 7 => ⟨S64x1x1x1, .i32⟩
  | 8 => ⟨S64x1x1x1, .i32⟩
  | 9 => ⟨S64x1x1x1, .i32⟩
  | 10 => ⟨S64x1x1x1, .i32⟩
  | 11 => ⟨S_, .i32⟩
  | 12 => ⟨S64x1x1x1, .i32⟩
  | 13 => ⟨S64x1x1x1, .i1⟩
  | 14 => ⟨S_, .i32⟩
  | 15 => ⟨S_, .i32⟩
  | 16 => ⟨S64x1x1x1, .i32⟩
  | 17 => ⟨S64x1x1x1, .i32⟩
  | 18 => ⟨S_, .i32⟩
  | 19 => ⟨S_, .i32⟩
  | 20 => ⟨S_, .i32⟩
  | 21 => ⟨S64x1x1x1, .i32⟩
  | 22 => ⟨S64x1x1x1, .i32⟩
  | 23 => ⟨S_, .i32⟩
  | 24 => ⟨S64x1x1x1, .i32⟩
  | 25 => ⟨S64x1x1x1, .i32⟩
  | 26 => ⟨S64x1x1x1, .f32⟩
  | 27 => ⟨S_, .f32⟩
  | 28 => ⟨S64x1x1x1, .f32⟩
  | 29 => ⟨S64x1x1x1, .f32⟩
  | 30 => ⟨S_, .f32⟩
  | 31 => ⟨S64x1x1x1, .f32⟩
  | 32 => ⟨S64x1x1x1, .f32⟩
  | 33 => ⟨S64x1x1x1, .f32⟩
  | 34 => ⟨S_, .i32⟩
  | 35 => ⟨S_, .i32⟩
  | 36 => ⟨S_, .f32⟩
  | 37 => ⟨S64x1x1x1, .f32⟩
  | 38 => ⟨S64x1x1x1, .f32⟩
  | 39 => ⟨S_, .f32⟩
  | 40 => ⟨S64x1x1x1, .f32⟩
  | 41 => ⟨S64x1x1x1, .f32⟩
  | 42 => ⟨S_, .f32⟩
  | 43 => ⟨S64x1x1x1, .f32⟩
  | 44 => ⟨S64x1x1x1, .f32⟩
  | 45 => ⟨S64x128x64x64, .f32⟩
  | 46 => ⟨S64x128x64x64, .f32⟩
  | 47 => ⟨S64x128x64x64, .f32⟩
  | 48 => ⟨S64x128x64x64, .f32⟩
  | 49 => ⟨S_, .f32⟩
  | 50 => ⟨S64x128x64x64, .f32⟩
  | 51 => ⟨S64x128x64x64, .f32⟩
  | 52 => ⟨S64x128x64x64, .f32⟩
  | 53 => ⟨S_, .i32⟩
  | 54 => ⟨S_, .i32⟩
  | 55 => ⟨S_, .f32⟩
  | 56 => ⟨S64x128x64x64, .f32⟩
  | 57 => ⟨S64x128x64x64, .f32⟩
  | 58 => ⟨S_, .f32⟩
  | 59 => ⟨S64x128x64x64, .f32⟩
  | 60 => ⟨S64x128x64x64, .f32⟩
  | 61 => ⟨S_, .f32⟩
  | 62 => ⟨S64x128x64x64, .f32⟩
  | 63 => ⟨S64x128x64x64, .f32⟩
  | 64 => ⟨S64x128x64x64, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S64x128x64x64, .i32⟩
  | 72 => ⟨S64x128x64x64, .i32⟩
  | 73 => ⟨S_, .i32⟩
  | 74 => ⟨S64x128x64x64, .i32⟩
  | 75 => ⟨S64x128x64x64, .i1⟩
  | 76 => ⟨S_, .i32⟩
  | 77 => ⟨S64x128x64x64, .i32⟩
  | 78 => ⟨S64x128x64x64, .i1⟩
  | 79 => ⟨S_, .i32⟩
  | 80 => ⟨S_, .i1⟩
  | 81 => ⟨S64x128x64x64, .i1⟩
  | 82 => ⟨S64x128x64x64, .i1⟩
  | 83 => ⟨S64x128x64x64, .i1⟩
  | 84 => ⟨S64x128x64x64, .i32⟩
  | 85 => ⟨S64x128x64x64, .i32⟩
  | 86 => ⟨S64x128x64x64, .i32⟩
  | _ => ⟨S64x128x64x64, .f32⟩

abbrev hbmTy (i : Nat) : BufTy := match i / 128 with
  | 0 => hbmTy0_0 i
  | 1 => hbmTy0_1 i
  | _ => ⟨S64x128x64x64, .f32⟩

abbrev bufTy : (tb : Table) → Fin (tcTables nBuf tb) → BufTy
  | .hbm, ⟨i, _⟩ => hbmTy i
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_c_8 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_9 : Ref sig .tc := ⟨.hbm, 44, rfl⟩
abbrev main_v21 : Ref sig .tc := ⟨.hbm, 45, rfl⟩
abbrev main_v22 : Ref sig .tc := ⟨.hbm, 46, rfl⟩
abbrev main_cst_10 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_11 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_c_14 : Ref sig .tc := ⟨.hbm, 66, rfl⟩
abbrev main_v38 : Ref sig .tc := ⟨.hbm, 67, rfl⟩
abbrev main_v39 : Ref sig .tc := ⟨.hbm, 68, rfl⟩
abbrev main_c_15 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_16 : Ref sig .tc := ⟨.hbm, 73, rfl⟩
abbrev main_v43 : Ref sig .tc := ⟨.hbm, 74, rfl⟩
abbrev main_v44 : Ref sig .tc := ⟨.hbm, 75, rfl⟩
abbrev main_c_17 : Ref sig .tc := ⟨.hbm, 76, rfl⟩
abbrev main_v45 : Ref sig .tc := ⟨.hbm, 77, rfl⟩
abbrev main_v46 : Ref sig .tc := ⟨.hbm, 78, rfl⟩
abbrev main_c_18 : Ref sig .tc := ⟨.hbm, 79, rfl⟩
abbrev main_v47 : Ref sig .tc := ⟨.hbm, 80, rfl⟩
abbrev main_v48 : Ref sig .tc := ⟨.hbm, 81, rfl⟩
abbrev main_c_19 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_20 : Ref sig .tc := ⟨.hbm, 88, rfl⟩
abbrev main_v54 : Ref sig .tc := ⟨.hbm, 89, rfl⟩
abbrev main_v55 : Ref sig .tc := ⟨.hbm, 90, rfl⟩
abbrev main_c_21 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_c : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_0 : Ref sig .tc := ⟨.hbm, 105, rfl⟩
abbrev main_call2_v12 : Ref sig .tc := ⟨.hbm, 106, rfl⟩
abbrev main_call2_v13 : Ref sig .tc := ⟨.hbm, 107, rfl⟩
abbrev main_v56 : Ref sig .tc := ⟨.hbm, 108, rfl⟩
abbrev main_c_22 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_c_23 : Ref sig .tc := ⟨.hbm, 113, rfl⟩
abbrev main_v60 : Ref sig .tc := ⟨.hbm, 114, rfl⟩
abbrev main_v61 : Ref sig .tc := ⟨.hbm, 115, rfl⟩
abbrev main_c_24 : Ref sig .tc := ⟨.hbm, 116, rfl⟩
abbrev main_v62 : Ref sig .tc := ⟨.hbm, 117, rfl⟩
abbrev main_v63 : Ref sig .tc := ⟨.hbm, 118, rfl⟩
abbrev main_c_25 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_c_26 : Ref sig .tc := ⟨.hbm, 123, rfl⟩
abbrev main_v67 : Ref sig .tc := ⟨.hbm, 124, rfl⟩
abbrev main_v68 : Ref sig .tc := ⟨.hbm, 125, rfl⟩
abbrev main_c_27 : Ref sig .tc := ⟨.hbm, 126, rfl⟩
abbrev main_v69 : Ref sig .tc := ⟨.hbm, 127, rfl⟩
abbrev main_v70 : Ref sig .tc := ⟨.hbm, 128, rfl⟩
abbrev main_c_28 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_29 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_c_30 : Ref sig .tc := ⟨.hbm, 139, rfl⟩
abbrev main_v79 : Ref sig .tc := ⟨.hbm, 140, rfl⟩
abbrev main_v80 : Ref sig .tc := ⟨.hbm, 141, rfl⟩
abbrev main_c_31 : Ref sig .tc := ⟨.hbm, 142, rfl⟩
abbrev main_call5_v0 : Ref sig .tc := ⟨.hbm, 143, rfl⟩
abbrev main_call5_v1 : Ref sig .tc := ⟨.hbm, 144, rfl⟩
abbrev main_v81 : Ref sig .tc := ⟨.hbm, 145, rfl⟩
abbrev main_c_32 : Ref sig .tc := ⟨.hbm, 146, rfl⟩
abbrev main_c_33 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_v82 : Ref sig .tc := ⟨.hbm, 153, rfl⟩
abbrev main_v83 : Ref sig .tc := ⟨.hbm, 154, rfl⟩
abbrev main_cst_34 : Ref sig .tc := ⟨.hbm, 155, rfl⟩
abbrev main_v84 : Ref sig .tc := ⟨.hbm, 156, rfl⟩
abbrev main_v85 : Ref sig .tc := ⟨.hbm, 157, rfl⟩
abbrev main_cst_35 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_c_36 : Ref sig .tc := ⟨.hbm, 162, rfl⟩
abbrev main_c_37 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v89 : Ref sig .tc := ⟨.hbm, 169, rfl⟩
abbrev main_cst_38 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_cst_39 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_c_40 : Ref sig .tc := ⟨.hbm, 181, rfl⟩
abbrev main_c_41 : Ref sig .tc := ⟨.hbm, 182, rfl⟩
abbrev main_call8_v0 : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_v99 : Ref sig .tc := ⟨.hbm, 188, rfl⟩
abbrev main_cst_42 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_c_43 : Ref sig .tc := ⟨.hbm, 193, rfl⟩
abbrev main_call9_v0 : Ref sig .tc := ⟨.hbm, 194, rfl⟩
abbrev main_call9_c : Ref sig .tc := ⟨.hbm, 195, rfl⟩
abbrev main_call9_v1 : Ref sig .tc := ⟨.hbm, 196, rfl⟩
abbrev main_call9_c_0 : Ref sig .tc := ⟨.hbm, 197, rfl⟩
abbrev main_call9_v2 : Ref sig .tc := ⟨.hbm, 198, rfl⟩
abbrev main_call9_v3 : Ref sig .tc := ⟨.hbm, 199, rfl⟩
abbrev main_call9_v4 : Ref sig .tc := ⟨.hbm, 200, rfl⟩
abbrev main_call9_c_1 : Ref sig .tc := ⟨.hbm, 201, rfl⟩
abbrev main_call9_v5 : Ref sig .tc := ⟨.hbm, 202, rfl⟩
abbrev main_call9_v6 : Ref sig .tc := ⟨.hbm, 203, rfl⟩
abbrev main_call9_c_2 : Ref sig .tc := ⟨.hbm, 204, rfl⟩
abbrev main_call9_v7 : Ref sig .tc := ⟨.hbm, 205, rfl⟩
abbrev main_call9_v8 : Ref sig .tc := ⟨.hbm, 206, rfl⟩
abbrev main_call9_c_3 : Ref sig .tc := ⟨.hbm, 207, rfl⟩
abbrev main_call9_v9 : Ref sig .tc := ⟨.hbm, 208, rfl⟩
abbrev main_call9_v10 : Ref sig .tc := ⟨.hbm, 209, rfl⟩
abbrev main_call9_v11 : Ref sig .tc := ⟨.hbm, 210, rfl⟩
abbrev main_call9_v12 : Ref sig .tc := ⟨.hbm, 211, rfl⟩
abbrev main_call9_v13 : Ref sig .tc := ⟨.hbm, 212, rfl⟩
abbrev main_call9_v14 : Ref sig .tc := ⟨.hbm, 213, rfl⟩
abbrev main_v103 : Ref sig .tc := ⟨.hbm, 214, rfl⟩

abbrev nD : Nat := 1
abbrev τ : Topo := Topo.v7x

variable {F : FTy → Type} [FloatOps F]

class Facts₀ : Prop where
  reducesTo_S64x128x64x64_S64_d1_2_3 : S64x128x64x64.ReducesTo [1, 2, 3] S64
  h_S_ : 0 < S_.numel
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x128x64x64_0_1_2_3 : S64x1x1x1.BroadcastsInDim S64x128x64x64 (![0, 1, 2, 3] : Fin 4 → Fin S64x128x64x64.rank)
  bcast_S_S16 : S_.BroadcastsInDim S16 (![] : Fin 0 → Fin S16.rank)
  bcast_S64x1x1x1_S64x1x1x1x1_0_1_2_3 : S64x1x1x1.BroadcastsInDim S64x1x1x1x1 (![0, 1, 2, 3] : Fin 4 → Fin S64x1x1x1x1.rank)
  bcast_S16_S1x1x1x1x16_4 : S16.BroadcastsInDim S1x1x1x1x16 (![4] : Fin 1 → Fin S1x1x1x1x16.rank)
  bcast_S64x1x1x1x1_S64x1x1x1x16_0_1_2_3_4 : S64x1x1x1x1.BroadcastsInDim S64x1x1x1x16 (![0, 1, 2, 3, 4] : Fin 5 → Fin S64x1x1x1x16.rank)
  bcast_S1x1x1x1x16_S64x1x1x1x16_0_1_2_3_4 : S1x1x1x1x16.BroadcastsInDim S64x1x1x1x16 (![0, 1, 2, 3, 4] : Fin 5 → Fin S64x1x1x1x16.rank)
  natLt_1_32 : 1 < 32
  reducesTo_S64x1x1x1x16_S64x1x1x1_d4 : S64x1x1x1x16.ReducesTo [4] S64x1x1x1
  bcast_S_S64x128x64x64 : S_.BroadcastsInDim S64x128x64x64 (![] : Fin 0 → Fin S64x128x64x64.rank)
  gather_S32_S64x1x1x1x1_S64x1x1x1_n_0_n_n_0_4_1_wf : GatherDims.WF S32 S64x1x1x1x1 S64x1x1x1 [] [0] [] [0] [] 4 ![1]

variable [Facts₀]

def gather_S32_S64x1x1x1x1_S64x1x1x1_n_0_n_n_0_4_1 : GatherDims S32 S64x1x1x1x1 S64x1x1x1 where
  offsetDims := []
  collapsedSliceDims := [0]
  operandBatchingDims := []
  startIndicesBatchingDims := []
  startIndexMap := [0]
  indexVectorDim := 4
  sliceSizes := ![1]
  wf := gather_S32_S64x1x1x1x1_S64x1x1x1_n_0_n_n_0_4_1_wf

class Facts : Prop extends Facts₀ where

variable [Facts]
-- ==== Proof.KHostFn.lean ====
/-
  The host arithmetic between the two regions, as one pure function: from the per-row sums of squared deviations
  (a 64 × 1 array of floats) and the 32-entry table to the per-row quantised inverse standard deviation.

  One binding per host operation, in the program's order, each outlined function's operations in place at its call:
    the variance V·2⁻¹⁹ clamped at 0 from below and floor-quantised to 8 fractional bits within [-32768, 32767]/256;
    its integer word w = ⌊variance·256⌋; the position e of w's leading bit (counted as the number of powers
    2⁰ … 2¹⁵ not above w, less one, at least 0); w normalised to bit 15 and its next five bits taken as the table
    index (a negative index wrapped by 32); the table entry, corrected by 46340/2¹⁵ ≈ 1/√2 where 24 - e is odd,
    shifted by 15 - ⌊(24 - e)/2⌋ (to the right where that is at least 0, else to the left), saturated to 65535
    where w = 0, clipped to [0, 65535]; that integer over 256, floor-quantised to 8 fractional bits again.

  The chain is cut into five parts, each taking the values still needed at its head and ending in the next part:
  unfolding them gives back the one chain.
-/
import proofs.«400612_j57930518889080_3_alg».proof.Proof.Gen.KernelIdeal

noncomputable section

namespace Cert.KernelIdeal.KH

open Idealize.ShloMosaic Cert.KernelIdeal Cert.KernelIdeal.Gen

/-- Saturated to 65535 where w = 0; clipped to [0, 65535]; to a float, over 256; ⌊·256⌋ clipped to [-32768, 32767], over 256: the quantised inverse standard deviation. -/
def hostK_e {F : FTy → Type} [FloatOps F] (main_v14 : IVec S64x1 32) (main_v67 : IVec S64x1 32) : FVec F S64x1 .f32 :=
  let main_c_24 : IVec S_ 32 := constantI S_ 32 0#32
  let main_v68 : IVec S64x1 32 := broadcastInDim S64x1 ![] bcast_S_S64x1 main_c_24
  let main_v69 : IVec S64x1 1 := cmpi .eq main_v14 main_v68
  let main_c_25 : IVec S_ 32 := constantI S_ 32 65535#32
  let main_call4_v0 : IVec S_ 32 := id main_c_25
  let main_call4_v1 : IVec S64x1 32 := broadcastInDim S64x1 ![] bcast_S_S64x1 main_call4_v0
  let main_v70 : IVec S64x1 32 := select main_v69 main_call4_v1 main_v67
  let main_c_26 : IVec S_ 32 := constantI S_ 32 0#32
  let main_c_27 : IVec S_ 32 := constantI S_ 32 65535#32
  let main_call5_v0 : IVec S_ 32 := id main_c_26
  let main_call5_v1 : IVec S64x1 32 := broadcastInDim S64x1 ![] bcast_S_S64x1 main_call5_v0
  let main_call5_v2 : IVec S64x1 32 := maxsi main_call5_v1 main_v70
  let main_call5_v3 : IVec S_ 32 := id main_c_27
  let main_call5_v4 : IVec S64x1 32 := broadcastInDim S64x1 ![] bcast_S_S64x1 main_call5_v3
  let main_v71 : IVec S64x1 32 := minsi main_call5_v4 main_call5_v2
  let main_v72 : FVec F S64x1 .f32 := sitofp .f32 main_v71
  let main_cst_28 : FVec F S_ .f32 := constant S_ .f32 0x43800000#32
  let main_v73 : FVec F S64x1 .f32 := broadcastInDim S64x1 ![] bcast_S_S64x1 main_cst_28
  let main_v74 : FVec F S64x1 .f32 := Host.divf main_v72 main_v73
  let main_cst_29 : FVec F S_ .f32 := constant S_ .f32 0x43800000#32
  let main_v75 : FVec F S64x1 .f32 := broadcastInDim S64x1 ![] bcast_S_S64x1 main_cst_29
  let main_v76 : FVec F S64x1 .f32 := mulf main_v74 main_v75
  let main_v77 : FVec F S64x1 .f32 := Host.floor main_v76
  let main_c_30 : IVec S_ 32 := constantI S_ 32 4294934528#32
  let main_c_31 : IVec S_ 32 := constantI S_ 32 32767#32
  let main_call6_v0 : FVec F S_ .f32 := sitofp .f32 main_c_30
  let main_call6_v1 : FVec F S64x1 .f32 := broadcastInDim S64x1 ![] bcast_S_S64x1 main_call6_v0
  let main_call6_v2 : FVec F S64x1 .f32 := maximumf main_call6_v1 main_v77
  let main_call6_v3 : FVec F S_ .f32 := sitofp .f32 main_c_31
  let main_call6_v4 : FVec F S64x1 .f32 := broadcastInDim S64x1 ![] bcast_S_S64x1 main_call6_v3
  let main_v78 : FVec F S64x1 .f32 := minimumf main_call6_v4 main_call6_v2
  let main_cst_32 : FVec F S_ .f32 := constant S_ .f32 0x43800000#32
  let main_v79 : FVec F S64x1 .f32 := broadcastInDim S64x1 ![] bcast_S_S64x1 main_cst_32
  let main_v80 : FVec F S64x1 .f32 := Host.divf main_v78 main_v79
  main_v80

/-- Where 24 - e is odd the table entry times 46340 shifted down by 15 (the factor 1/√2), else the entry; shifted by 15 less the halved exponent: to the right where that is at least 0, to the left by its negation otherwise. -/
def hostK_d {F : FTy → Type} [FloatOps F] (main_v14 : IVec S64x1 32) (main_v42 : IVec S64x1 32) (main_v44 : IVec S64x1 32) (main_v45 : IVec S64x1 32) : FVec F S64x1 .f32 :=
  let main_c_16 : IVec S_ 32 := constantI S_ 32 2#32
  let main_v46 : IVec S64x1 32 := broadcastInDim S64x1 ![] bcast_S_S64x1 main_c_16
  let main_v47 : IVec S64x1 32 := muli main_v46 main_v45
  let main_v48 : IVec S64x1 32 := subi main_v44 main_v47
  let main_c_17 : IVec S_ 32 := constantI S_ 32 1#32
  let main_v49 : IVec S64x1 32 := broadcastInDim S64x1 ![] bcast_S_S64x1 main_c_17
  let main_v50 : IVec S64x1 1 := cmpi .eq main_v48 main_v49
  let main_c_18 : IVec S_ 32 := constantI S_ 32 46340#32
  let main_v51 : IVec S64x1 32 := broadcastInDim S64x1 ![] bcast_S_S64x1 main_c_18
  let main_v52 : IVec S64x1 32 := muli main_v42 main_v51
  let main_c_19 : IVec S_ 32 := constantI S_ 32 15#32
  let main_v53 : IVec S64x1 32 := broadcastInDim S64x1 ![] bcast_S_S64x1 main_c_19
  let main_v54 : IVec S64x1 32 := Host.shrsi main_v52 main_v53
  let main_v55 : IVec S64x1 32 := select main_v50 main_v54 main_v42
  let main_c_20 : IVec S_ 32 := constantI S_ 32 15#32
  let main_v56 : IVec S64x1 32 := broadcastInDim S64x1 ![] bcast_S_S64x1 main_c_20
  let main_v57 : IVec S64x1 32 := subi main_v56 main_v45
  let main_c_21 : IVec S_ 32 := constantI S_ 32 0#32
  let main_v58 : IVec S64x1 32 := broadcastInDim S64x1 ![] bcast_S_S64x1 main_c_21
  let main_v59 : IVec S64x1 1 := cmpi .sge main_v57 main_v58
  let main_c_22 : IVec S_ 32 := constantI S_ 32 0#32
  let main_v60 : IVec S64x1 32 := broadcastInDim S64x1 ![] bcast_S_S64x1 main_c_22
  let main_v61 : IVec S64x1 32 := maxsi main_v57 main_v60
  let main_v62 : IVec S64x1 32 := Host.shrsi main_v55 main_v61
  let main_v63 : IVec S64x1 32 := negi main_v57
  let main_c_23 : IVec S_ 32 := constantI S_ 32 0#32
  let main_v64 : IVec S64x1 32 := broadcastInDim S64x1 ![] bcast_S_S64x1 main_c_23
  let main_v65 : IVec S64x1 32 := maxsi main_v63 main_v64
  let main_v66 : IVec S64x1 32 := Host.shli main_v55 main_v65
  let main_v67 : IVec S64x1 32 := select main_v59 main_v62 main_v66
  hostK_e (F := F) main_v14 main_v67

/-- The floored quotient of 24 - e by 2: the truncated quotient, less one where the signs differ and the remainder is not 0. -/
def hostK_c {F : FTy → Type} [FloatOps F] (main_v14 : IVec S64x1 32) (main_v42 : IVec S64x1 32) (main_v44 : IVec S64x1 32) (main_c_15 : IVec S_ 32) : FVec F S64x1 .f32 :=
  let main_call1_v0 : IVec S_ 32 := id main_c_15
  let main_call1_v1 : IVec S64x1 32 := broadcastInDim S64x1 ![] bcast_S_S64x1 main_call1_v0
  let main_call1_v2 : IVec S64x1 32 := Host.divsi main_v44 main_call1_v1
  let main_call1_v3 : IVec S64x1 32 := signi main_v44
  let main_call1_v4 : IVec S_ 32 := signi main_call1_v0
  let main_call1_v5 : IVec S64x1 32 := broadcastInDim S64x1 ![] bcast_S_S64x1 main_call1_v4
  let main_call1_v6 : IVec S64x1 1 := cmpi .ne main_call1_v3 main_call1_v5
  let main_call1_v7 : IVec S64x1 32 := broadcastInDim S64x1 ![] bcast_S_S64x1 main_call1_v0
  let main_call1_v8 : IVec S64x1 32 := Host.remsi main_v44 main_call1_v7
  let main_call1_c : IVec S_ 32 := constantI S_ 32 0#32
  let main_call1_v9 : IVec S64x1 32 := broadcastInDim S64x1 ![] bcast_S_S64x1 main_call1_c
  let main_call1_v10 : IVec S64x1 1 := cmpi .ne main_call1_v8 main_call1_v9
  let main_call1_v11 : IVec S64x1 1 := andi main_call1_v6 main_call1_v10
  let main_call1_c_0 : IVec S_ 32 := constantI S_ 32 1#32
  let main_call1_v12 : IVec S64x1 32 := broadcastInDim S64x1 ![] bcast_S_S64x1 main_call1_c_0
  let main_call1_v13 : IVec S64x1 32 := subi main_call1_v2 main_call1_v12
  let main_v45 : IVec S64x1 32 := select main_call1_v11 main_call1_v13 main_call1_v2
  hostK_d (F := F) main_v14 main_v42 main_v44 main_v45

/-- Over 256: the quantised variance. Times 256 and to an integer word w. The number of powers 2⁰ … 2¹⁵ not above w, less one, at least 0: the position e of w's leading bit. w shifted up to bit 15, its next five bits (a negative value wrapped by 32) the table index; the table read there; 24 - e. -/
def hostK_b {F : FTy → Type} [FloatOps F] (lut : IVec S32 32) (main_v9 : FVec F S64x1 .f32) : FVec F S64x1 .f32 :=
  let main_cst_3 : FVec F S_ .f32 := constant S_ .f32 0x43800000#32
  let main_v10 : FVec F S64x1 .f32 := broadcastInDim S64x1 ![] bcast_S_S64x1 main_cst_3
  let main_v11 : FVec F S64x1 .f32 := Host.divf main_v9 main_v10
  let main_cst_4 : FVec F S_ .f32 := constant S_ .f32 0x43800000#32
  let main_v12 : FVec F S64x1 .f32 := broadcastInDim S64x1 ![] bcast_S_S64x1 main_cst_4
  let main_v13 : FVec F S64x1 .f32 := mulf main_v11 main_v12
  let main_v14 : IVec S64x1 32 := fptosi 32 main_v13
  let main_v15 : IVec S16 32 := iotaInDim S16 32 0
  let main_c_5 : IVec S_ 32 := constantI S_ 32 1#32
  let main_v16 : IVec S16 32 := broadcastInDim S16 ![] bcast_S_S16 main_c_5
  let main_v17 : IVec S16 32 := Host.shli main_v16 main_v15
  let main_v18 : IVec S64x1x1 32 := broadcastInDim S64x1x1 ![0, 1] bcast_S64x1_S64x1x1_0_1 main_v14
  let main_v19 : IVec S1x1x16 32 := broadcastInDim S1x1x16 ![2] bcast_S16_S1x1x16_2 main_v17
  let main_v20 : IVec S64x1x16 32 := broadcastInDim S64x1x16 ![0, 1, 2] bcast_S64x1x1_S64x1x16_0_1_2 main_v18
  let main_v21 : IVec S64x1x16 32 := broadcastInDim S64x1x16 ![0, 1, 2] bcast_S1x1x16_S64x1x16_0_1_2 main_v19
  let main_v22 : IVec S64x1x16 1 := cmpi .sge main_v20 main_v21
  let main_v23 : IVec S64x1x16 32 := extui 32 main_v22 natLt_1_32
  let main_c_6 : IVec S_ 32 := constantI S_ 32 0#32
  let main_v24 : IVec S64x1 32 := Host.reduce IntOp.addi main_v23 main_c_6 reducesTo_S64x1x16_S64x1_d2 h_S_
  let main_c_7 : IVec S_ 32 := constantI S_ 32 1#32
  let main_v25 : IVec S64x1 32 := broadcastInDim S64x1 ![] bcast_S_S64x1 main_c_7
  let main_v26 : IVec S64x1 32 := subi main_v24 main_v25
  let main_c_8 : IVec S_ 32 := constantI S_ 32 0#32
  let main_v27 : IVec S64x1 32 := broadcastInDim S64x1 ![] bcast_S_S64x1 main_c_8
  let main_v28 : IVec S64x1 32 := maxsi main_v26 main_v27
  let main_c_9 : IVec S_ 32 := constantI S_ 32 15#32
  let main_v29 : IVec S64x1 32 := broadcastInDim S64x1 ![] bcast_S_S64x1 main_c_9
  let main_v30 : IVec S64x1 32 := subi main_v29 main_v28
  let main_v31 : IVec S64x1 32 := Host.shli main_v14 main_v30
  let main_c_10 : IVec S_ 32 := constantI S_ 32 10#32
  let main_v32 : IVec S64x1 32 := broadcastInDim S64x1 ![] bcast_S_S64x1 main_c_10
  let main_v33 : IVec S64x1 32 := Host.shrsi main_v31 main_v32
  let main_c_11 : IVec S_ 32 := constantI S_ 32 31#32
  let main_v34 : IVec S64x1 32 := broadcastInDim S64x1 ![] bcast_S_S64x1 main_c_11
  let main_v35 : IVec S64x1 32 := andi main_v33 main_v34
  let main_c_12 : IVec S_ 32 := constantI S_ 32 0#32
  let main_v36 : IVec S64x1 32 := broadcastInDim S64x1 ![] bcast_S_S64x1 main_c_12
  let main_v37 : IVec S64x1 1 := cmpi .slt main_v35 main_v36
  let main_c_13 : IVec S_ 32 := constantI S_ 32 32#32
  let main_v38 : IVec S64x1 32 := broadcastInDim S64x1 ![] bcast_S_S64x1 main_c_13
  let main_v39 : IVec S64x1 32 := addi main_v35 main_v38
  let main_v40 : IVec S64x1 32 := select main_v37 main_v39 main_v35
  let main_v41 : IVec S64x1x1 32 := broadcastInDim S64x1x1 ![0, 1] bcast_S64x1_S64x1x1_0_1 main_v40
  let main_v42 : IVec S64x1 32 := Host.gather gather_S32_S64x1x1_S64x1_n_0_n_n_0_2_1 lut main_v41
  let main_c_14 : IVec S_ 32 := constantI S_ 32 24#32
  let main_v43 : IVec S64x1 32 := broadcastInDim S64x1 ![] bcast_S_S64x1 main_c_14
  let main_v44 : IVec S64x1 32 := subi main_v43 main_v28
  let main_c_15 : IVec S_ 32 := constantI S_ 32 2#32
  hostK_c (F := F) main_v14 main_v42 main_v44 main_c_15

/-- The variance: the sum scaled by 2⁻¹⁹ and clamped at 0 from below; ⌊·256⌋ clipped to [-32768, 32767] (the bounds converted from integers). -/
def hostK {F : FTy → Type} [FloatOps F] (vs : FVec F S64x1 .f32) (lut : IVec S32 32) : FVec F S64x1 .f32 :=
  let main_cst : FVec F S_ .f32 := constant S_ .f32 0x36000000#32
  let main_v2 : FVec F S64x1 .f32 := broadcastInDim S64x1 ![] bcast_S_S64x1 main_cst
  let main_v3 : FVec F S64x1 .f32 := mulf vs main_v2
  let main_cst_0 : FVec F S_ .f32 := constant S_ .f32 0x00000000#32
  let main_v4 : FVec F S64x1 .f32 := broadcastInDim S64x1 ![] bcast_S_S64x1 main_cst_0
  let main_v5 : FVec F S64x1 .f32 := maximumf main_v3 main_v4
  let main_cst_1 : FVec F S_ .f32 := constant S_ .f32 0x43800000#32
  let main_v6 : FVec F S64x1 .f32 := broadcastInDim S64x1 ![] bcast_S_S64x1 main_cst_1
  let main_v7 : FVec F S64x1 .f32 := mulf main_v5 main_v6
  let main_v8 : FVec F S64x1 .f32 := Host.floor main_v7
  let main_c : IVec S_ 32 := constantI S_ 32 4294934528#32
  let main_c_2 : IVec S_ 32 := constantI S_ 32 32767#32
  let main_call0_v0 : FVec F S_ .f32 := sitofp .f32 main_c
  let main_call0_v1 : FVec F S64x1 .f32 := broadcastInDim S64x1 ![] bcast_S_S64x1 main_call0_v0
  let main_call0_v2 : FVec F S64x1 .f32 := maximumf main_call0_v1 main_v8
  let main_call0_v3 : FVec F S_ .f32 := sitofp .f32 main_c_2
  let main_call0_v4 : FVec F S64x1 .f32 := broadcastInDim S64x1 ![] bcast_S_S64x1 main_call0_v3
  let main_v9 : FVec F S64x1 .f32 := minimumf main_call0_v4 main_call0_v2
  hostK_b (F := F) lut main_v9

end Cert.KernelIdeal.KH

end
-- ==== Proof.KHost.lean ====
/-
  The host side of the program around its two regions, read as values.

  The buffer contents at each boundary of the run are a fold of the host operations over the launch memory. Read at
  the buffers the regions take and return, that fold is:
    before region 0, the input with each batch row laid out flat;
    between the regions, the flat input and the quantised means as region 0 left them, and the quantised inverse
    standard deviations: the pure function hostK of region 0's sums of squared deviations and of the table;
    after region 1, its two results restored to the four-dimensional shape.

  The fold between the regions is walked in the five parts hostK is cut in, from the last to the first: after a part's
  operations, from any contents V, the result buffer holds the part's function of V at the buffers the part reads.
-/
import proofs.«400612_j57930518889080_3_alg».proof.Proof.Gen.KernelIdeal.Frame
import proofs.«400612_j57930518889080_3_alg».proof.Proof.KHostFn

set_option maxRecDepth 16384

noncomputable section

namespace Cert.KernelIdeal.KH

open Idealize.ShloMosaic Idealize.ShloMosaic.TcCoe Idealize.SL.Sem
open Cert.KernelIdeal Cert.KernelIdeal.Gen

variable {F : FTy → Type} [FloatOps F]

/-! ## The operations between the regions, part by part, from any contents -/

/-- The contents after the operations of hostK's first part. -/
abbrev afterA (V : Valuation τ sig (Elt F)) : Valuation τ sig (Elt F) :=
  StableHlo.after hostOps1_1 (StableHlo.after hostOps1 V)
/-- … of its second part. -/
abbrev afterB (V : Valuation τ sig (Elt F)) : Valuation τ sig (Elt F) :=
  StableHlo.after hostOps1_2 V
/-- … of its third part. -/
abbrev afterC (V : Valuation τ sig (Elt F)) : Valuation τ sig (Elt F) :=
  StableHlo.after hostOps1_3 V
/-- … of its fourth part. -/
abbrev afterD (V : Valuation τ sig (Elt F)) : Valuation τ sig (Elt F) :=
  StableHlo.after hostOps1_7 (StableHlo.after hostOps1_6 (StableHlo.after hostOps1_5 (StableHlo.after hostOps1_4 V)))
/-- … of its fifth part. -/
abbrev afterE (V : Valuation τ sig (Elt F)) : Valuation τ sig (Elt F) :=
  StableHlo.after hostOps1_14 (StableHlo.after hostOps1_13 (StableHlo.after hostOps1_12 (StableHlo.after hostOps1_11
    (StableHlo.after hostOps1_10 (StableHlo.after hostOps1_9 (StableHlo.after hostOps1_8 V))))))

/-- The last part: the result is its function of the variance word and the shifted table entry. -/
theorem e_v80 (V : Valuation τ sig (Elt F)) :
    (afterE V (Proc.devRef .tc main_v80) : FVec F S64x1 .f32)
      = hostK_e (V (Proc.devRef .tc main_v14)) (V (Proc.devRef .tc main_v67)) := by
  simp only [afterE, hostOps1_8, hostOps1_9, hostOps1_10, hostOps1_11, hostOps1_12, hostOps1_13, hostOps1_14]
  after_results_simp
  rfl

/-- The fourth part before it: the result is the fourth part's function of the variance word, the table entry, 24 - e and
    its floored half. -/
theorem d_v80 (V : Valuation τ sig (Elt F)) :
    (afterE (afterD V) (Proc.devRef .tc main_v80) : FVec F S64x1 .f32)
      = hostK_d (V (Proc.devRef .tc main_v14)) (V (Proc.devRef .tc main_v42)) (V (Proc.devRef .tc main_v44))
          (V (Proc.devRef .tc main_v45)) := by
  rw [e_v80]
  simp only [afterD, hostOps1_4, hostOps1_5, hostOps1_6, hostOps1_7]
  after_results_simp
  rfl

/-- The third part before them: of the variance word, the table entry, 24 - e and the divisor 2. -/
theorem c_v80 (V : Valuation τ sig (Elt F)) :
    (afterE (afterD (afterC V)) (Proc.devRef .tc main_v80) : FVec F S64x1 .f32)
      = hostK_c (V (Proc.devRef .tc main_v14)) (V (Proc.devRef .tc main_v42)) (V (Proc.devRef .tc main_v44))
          (V (Proc.devRef .tc main_c_15)) := by
  rw [d_v80]
  simp only [afterC, hostOps1_3]
  after_results_simp
  rfl

/-- The second part before them: of the table and the clipped ⌊variance·256⌋. -/
theorem b_v80 (V : Valuation τ sig (Elt F)) :
    (afterE (afterD (afterC (afterB V))) (Proc.devRef .tc main_v80) : FVec F S64x1 .f32)
      = hostK_b (V (Proc.devRef .tc main_arg1)) (V (Proc.devRef .tc main_v9)) := by
  rw [c_v80]
  simp only [afterB, hostOps1_2]
  after_results_simp
  rfl

/-- All five: the result is hostK of the sums of squared deviations and the table. -/
theorem a_v80 (V : Valuation τ sig (Elt F)) :
    (afterE (afterD (afterC (afterB (afterA V)))) (Proc.devRef .tc main_v80) : FVec F S64x1 .f32)
      = hostK (V (Proc.devRef .tc main_v1_1)) (V (Proc.devRef .tc main_arg1)) := by
  rw [b_v80]
  simp only [afterA, hostOps1, hostOps1_1]
  after_results_simp
  rfl

/-- No operation of the five parts writes the flat input or the quantised means. -/
theorem pass_v0 (V : Valuation τ sig (Elt F)) :
    afterE (afterD (afterC (afterB (afterA V)))) (Proc.devRef .tc main_v0) = V (Proc.devRef .tc main_v0) := by
  simp only [afterA, afterB, afterC, afterD, afterE, hostOps1, hostOps1_1, hostOps1_2, hostOps1_3, hostOps1_4, hostOps1_5,
    hostOps1_6, hostOps1_7, hostOps1_8, hostOps1_9, hostOps1_10, hostOps1_11, hostOps1_12, hostOps1_13, hostOps1_14]
  after_results_simp
theorem pass_v1_0 (V : Valuation τ sig (Elt F)) :
    afterE (afterD (afterC (afterB (afterA V)))) (Proc.devRef .tc main_v1_0) = V (Proc.devRef .tc main_v1_0) := by
  simp only [afterA, afterB, afterC, afterD, afterE, hostOps1, hostOps1_1, hostOps1_2, hostOps1_3, hostOps1_4, hostOps1_5,
    hostOps1_6, hostOps1_7, hostOps1_8, hostOps1_9, hostOps1_10, hostOps1_11, hostOps1_12, hostOps1_13, hostOps1_14]
  after_results_simp

/-! ## The run's boundaries -/

variable (m : (ℓ : Loc nD τ sig) → Buf (Elt F) ℓ) (ρ : Dev nD → PrngReg)

/-- Region 0 takes the input with each batch row laid out flat. -/
theorem V1_v0 (c : Dev nD) :
    (V1 m ρ c main_v0 : FVec F S64x524288 .f32)
      = shapeCast S64x524288 (m ((c : Thread nD τ).loc main_arg0)) shapeCasts_S64x128x64x64_S64x524288 := by
  show StableHlo.after hostOps0 (W0 m ρ c) (Proc.devRef .tc main_v0) = _
  after_results
  rfl

/-- The table at region 0's exit is the launch's: no window of region 0 is over it and the reshape does not write it. -/
theorem V2_arg1 (c : Dev nD) : V2 m ρ c main_arg1 = m ((c : Thread nD τ).loc main_arg1) := by
  show W2 m ρ c (Proc.devRef .tc main_arg1) = _
  rw [W2_of_ne m ρ c main_arg1 (by decide)]
  show StableHlo.after hostOps0 (W0 m ρ c) (Proc.devRef .tc main_arg1) = _
  after_results

/-- Region 1 takes the flat input and the quantised means as region 0 left them … -/
theorem V17_v0 (c : Dev nD) : V17 m ρ c main_v0 = V2 m ρ c main_v0 := pass_v0 (W2 m ρ c)
theorem V17_v1_0 (c : Dev nD) : V17 m ρ c main_v1_0 = V2 m ρ c main_v1_0 := pass_v1_0 (W2 m ρ c)

/-- … and the quantised inverse standard deviations: hostK of region 0's sums of squared deviations and the table. -/
theorem V17_v80 (c : Dev nD) :
    (V17 m ρ c main_v80 : FVec F S64x1 .f32)
      = hostK (V2 m ρ c main_v1_1) (m ((c : Thread nD τ).loc main_arg1)) := by
  have h := a_v80 (W2 m ρ c)
  rw [show W2 m ρ c (Proc.devRef .tc main_arg1) = m ((c : Thread nD τ).loc main_arg1) from V2_arg1 m ρ c] at h
  exact h

/-- The program's results: region 1's two results restored to the four-dimensional shape. -/
theorem W19_v82 (c : Dev nD) :
    (W19 m ρ c (Proc.devRef .tc main_v82) : FVec F S64x128x64x64 .f32)
      = shapeCast S64x128x64x64 (V18 m ρ c main_v81_0) shapeCasts_S64x524288_S64x128x64x64 := by
  show StableHlo.after hostOps2 (W18 m ρ c) (Proc.devRef .tc main_v82)
    = shapeCast S64x128x64x64 (W18 m ρ c (Proc.devRef .tc main_v81_0)) shapeCasts_S64x524288_S64x128x64x64
  generalize W18 m ρ c = V
  after_results
  rfl
theorem W19_v83 (c : Dev nD) :
    (W19 m ρ c (Proc.devRef .tc main_v83) : IVec S64x128x64x64 32)
      = shapeCast S64x128x64x64 (V18 m ρ c main_v81_1) shapeCasts_S64x524288_S64x128x64x64 := by
  show StableHlo.after hostOps2 (W18 m ρ c) (Proc.devRef .tc main_v83)
    = shapeCast S64x128x64x64 (W18 m ρ c (Proc.devRef .tc main_v81_1)) shapeCasts_S64x524288_S64x128x64x64
  generalize W18 m ρ c = V
  after_results
  rfl

end Cert.KernelIdeal.KH

end
-- ==== Proof.Spec.lean ====
/-
  The arithmetic of an integer (fixed-point) GroupNorm over f32[64, 128, 64, 64], one group per batch row, written
  once as scalar functions of extended reals and 32-bit words, and then as whole-array functions.

  Per batch row b (N = 128·64·64 = 524288 elements):
    S b   = ∑ x                       the row sum
    μ b   = Q8.4 (S b / N)            the mean, floor-quantised to 4 fractional bits and clipped to [-128, 127]/16
    V b   = ∑ (x - μ b)²              the sum of squared deviations
    σ b   = Q16.8 (isqrt (Q16.8 (V b / N)))   the fixed-point inverse square root through a 32-entry table
    out   = Q8.4 ((x - μ b) · σ b), returned as a float and as its two's-complement low byte.

  Two spellings are given: the one a kernel uses (products with the exact dyadic constants 2⁻¹⁹ and 1/16; the low
  byte by a bitwise and with 255; a clamp of the variance at 0 from below) and the one a host reference uses
  (quotients by 524288 and by 16, clip bounds converted from integers, the low byte by a floored remainder by 256).
  They denote the same functions; the lemmas joining them live in the bridge modules, not here.

  The integer routine (the fixed-point inverse square root of a variance word through the table: leading-bit count,
  normalisation, table lookup, the √2 correction for an odd exponent, the final shift, saturation at a zero variance,
  clip to [0, 65535]) and the floored remainder by 256 are functions of 32-bit words only; here they are parameters
  (isq, rem), instantiated where the arrays are read.
-/
import Idealize.ShloMosaic.PureOps.Ideal
import Idealize.ShloMosaic.Lib.ValueIdx
import Idealize.ShloMosaic.Lib.Pipeline.Value

noncomputable section

namespace Cert.GN

open Idealize.ShloMosaic Idealize.ShloMosaic.ValueIdx

/-! ## Shapes -/

/-- The input and both results: batch × channel × height × width. -/
abbrev SX : Shape := ⟨4, ![64, 128, 64, 64]⟩
/-- The same array with each batch row laid out flat. -/
abbrev S2 : Shape := ⟨2, ![64, 524288]⟩
/-- The inverse-square-root table. -/
abbrev SL : Shape := ⟨1, ![32]⟩

theorem casts_SX_S2 : SX.ShapeCasts S2 := by decide
theorem casts_S2_SX : S2.ShapeCasts SX := by decide

/-! ## The constants, as the f32 words the programs carry (each an exact dyadic or integer) -/

/-- 0 -/
def c0 : EReal := Ideal.ofBits .f32 0x00000000#32
/-- 2⁻¹⁹ = 1/524288 -/
def c2m19 : EReal := Ideal.ofBits .f32 0x36000000#32
/-- 524288 = 2¹⁹ -/
def c524288 : EReal := Ideal.ofBits .f32 0x49000000#32
/-- 16 -/
def c16 : EReal := Ideal.ofBits .f32 0x41800000#32
/-- 1/16 -/
def c1_16 : EReal := Ideal.ofBits .f32 0x3D800000#32
/-- 256 -/
def c256 : EReal := Ideal.ofBits .f32 0x43800000#32
/-- -128 and 127 as float literals (the kernel's clip bounds). -/
def cm128 : EReal := Ideal.ofBits .f32 0xC3000000#32
def c127 : EReal := Ideal.ofBits .f32 0x42FE0000#32
/-- -128, 127, -32768, 32767 as 32-bit integers converted to floats (the host's clip bounds). -/
def im128 : EReal := (((4294967168#32 : BitVec 32).toInt : ℝ) : EReal)
def i127 : EReal := (((127#32 : BitVec 32).toInt : ℝ) : EReal)
def im32768 : EReal := (((4294934528#32 : BitVec 32).toInt : ℝ) : EReal)
def i32767 : EReal := (((32767#32 : BitVec 32).toInt : ℝ) : EReal)

/-- ⌊·⌋ on the extended reals (the infinities fixed). -/
def fl (v : EReal) : EReal := Ideal.liftRound Int.floor v

/-! ## The kernel's spelling -/

/-- The Q8.4 integer part: ⌊v·16⌋ clipped to [-128, 127] with float-literal bounds. -/
def clipK (v : EReal) : EReal := min c127 (max cm128 (fl (v * c16)))
/-- The quantised mean from the row sum. -/
def muK (S : EReal) : EReal := clipK (S * c2m19) * c1_16
/-- A squared deviation. -/
def sqd (x μ : EReal) : EReal := (x - μ) * (x - μ)
/-- The host's Q16.8 floor-quantiser: ⌊v·256⌋ clipped to [-32768, 32767] (integer bounds converted), over 256. -/
def q168 (v : EReal) : EReal := Ideal.div (min i32767 (max im32768 (fl (v * c256)))) c256
/-- From the quantised variance to the quantised inverse standard deviation, through the integer routine. -/
def sigmaOfVarQ (isq : BitVec 32 → BitVec 32) (vq : EReal) : EReal :=
  q168 (Ideal.div (((isq (Ideal.fptosi 32 (vq * c256))).toInt : ℝ) : EReal) c256)
/-- The kernel's σ from the sum of squared deviations: scaled by 2⁻¹⁹, clamped at 0 from below, quantised. -/
def sigmaK (isq : BitVec 32 → BitVec 32) (V : EReal) : EReal := sigmaOfVarQ isq (q168 (max (V * c2m19) c0))
/-- The kernel's float result at one element. -/
def outFK (x μ σ : EReal) : EReal := clipK ((x - μ) * σ) * c1_16
/-- The kernel's integer result at one element: the low byte by a bitwise and. -/
def outUK (x μ σ : EReal) : BitVec 32 := Ideal.fptosi 32 (clipK ((x - μ) * σ)) &&& 255#32

/-! ## The reference's spelling -/

/-- The Q8.4 integer part with the host's converted-integer bounds. -/
def clipR (v : EReal) : EReal := min i127 (max im128 (fl (v * c16)))
/-- The quantised mean from the row sum (a host sum starts from its initial value 0). -/
def muR (S : EReal) : EReal := Ideal.div (clipR (Ideal.div (c0 + S) c524288)) c16
/-- The reference's σ from the sum of squared deviations. -/
def sigmaR (isq : BitVec 32 → BitVec 32) (V : EReal) : EReal := sigmaOfVarQ isq (q168 (Ideal.div (c0 + V) c524288))
/-- The reference's float result at one element. -/
def outFR (x μ σ : EReal) : EReal := Ideal.div (clipR ((x - μ) * σ)) c16
/-- The reference's integer result at one element: the low byte by the floored remainder. -/
def outUR (rem : BitVec 32 → BitVec 32) (x μ σ : EReal) : BitVec 32 := rem (Ideal.fptosi 32 (clipR ((x - μ) * σ)))

/-! ## Whole arrays, the kernel's spelling: over the flat rows -/

/-- Row b's sum over the flat layout. -/
def rowSum2 (x2 : FVec Ideal S2 .f32) (b : Fin 64) : EReal := ∑ j : Fin 524288, x2 (ix2 b j)
def mu2 (x2 : FVec Ideal S2 .f32) (b : Fin 64) : EReal := muK (rowSum2 x2 b)
/-- Row b's sum of squared deviations from its quantised mean. -/
def vs2 (x2 : FVec Ideal S2 .f32) (b : Fin 64) : EReal := ∑ j : Fin 524288, sqd (x2 (ix2 b j)) (mu2 x2 b)
def sg2 (isq : IVec SL 32 → BitVec 32 → BitVec 32) (x2 : FVec Ideal S2 .f32) (lut : IVec SL 32) (b : Fin 64) : EReal :=
  sigmaK (isq lut) (vs2 x2 b)
def of2 (isq : IVec SL 32 → BitVec 32 → BitVec 32) (x2 : FVec Ideal S2 .f32) (lut : IVec SL 32) : FVec Ideal S2 .f32 :=
  fun i => outFK (x2 i) (mu2 x2 (i 0)) (sg2 isq x2 lut (i 0))
def ou2 (isq : IVec SL 32 → BitVec 32 → BitVec 32) (x2 : FVec Ideal S2 .f32) (lut : IVec SL 32) : IVec S2 32 :=
  fun i => outUK (x2 i) (mu2 x2 (i 0)) (sg2 isq x2 lut (i 0))

/-- The kernel's two results as functions of its two arguments: flatten, normalise row by row, restore the shape. -/
def specF (isq : IVec SL 32 → BitVec 32 → BitVec 32) (x : FVec Ideal SX .f32) (lut : IVec SL 32) : FVec Ideal SX .f32 :=
  shapeCast SX (of2 isq (shapeCast S2 x casts_SX_S2) lut) casts_S2_SX
def specU (isq : IVec SL 32 → BitVec 32 → BitVec 32) (x : FVec Ideal SX .f32) (lut : IVec SL 32) : IVec SX 32 :=
  shapeCast SX (ou2 isq (shapeCast S2 x casts_SX_S2) lut) casts_S2_SX

/-! ## Whole arrays, the reference's spelling: over the four-dimensional index -/

/-- Batch row b's sum: over every index whose batch coordinate is b. -/
def rowSum4 (x : FVec Ideal SX .f32) (b : Fin 64) : EReal := ∑ i ∈ Finset.univ.filter (fun i : SX.Idx => (i 0).val = b.val), x i
def mu4 (x : FVec Ideal SX .f32) (b : Fin 64) : EReal := muR (rowSum4 x b)
def vs4 (x : FVec Ideal SX .f32) (b : Fin 64) : EReal :=
  ∑ i ∈ Finset.univ.filter (fun i : SX.Idx => (i 0).val = b.val), sqd (x i) (mu4 x b)
def sg4 (isq : IVec SL 32 → BitVec 32 → BitVec 32) (x : FVec Ideal SX .f32) (lut : IVec SL 32) (b : Fin 64) : EReal :=
  sigmaR (isq lut) (vs4 x b)
/-- The reference's two results. -/
def refF (isq : IVec SL 32 → BitVec 32 → BitVec 32) (x : FVec Ideal SX .f32) (lut : IVec SL 32) : FVec Ideal SX .f32 :=
  fun i => outFR (x i) (mu4 x (i 0)) (sg4 isq x lut (i 0))
def refU (isq : IVec SL 32 → BitVec 32 → BitVec 32) (rem : BitVec 32 → BitVec 32) (x : FVec Ideal SX .f32) (lut : IVec SL 32) : IVec SX 32 :=
  fun i => outUR rem (x i) (mu4 x (i 0)) (sg4 isq x lut (i 0))

end Cert.GN

end
-- ==== Proof.R0Fold.lean ====
/-
  The two accumulations of the statistics kernel, as recursions over its arithmetic.

  One grid point of the statistics kernel holds a block of 8 rows × 524288 columns. It zeroes an 8×1 accumulator,
  adds to it, 64 times, the lane sums of one 8×8192 chunk of the block (the first loop); the quantised mean is a
  pointwise function of that total. It zeroes the accumulator again and adds, 64 times, the lane sums of the squared
  deviations of one chunk from the quantised mean (the second loop). Here those two loops are the recursions
  sumAcc and devAcc over an arbitrary family of chunks; which chunk of the block trip k reads is stated where the
  block is read.
-/
import proofs.«400612_j57930518889080_3_alg».proof.Proof.Gen.KernelIdeal.Skeleton

noncomputable section

namespace Cert.KernelIdeal.R0

open Idealize.ShloMosaic Cert.KernelIdeal Cert.KernelIdeal.Gen

variable {F : FTy → Type} [FloatOps F]

/-- Column l of chunk k of a 524288-column row: chunks are 8192 columns wide and laid side by side. -/
def col (k : Fin 64) (l : Fin 8192) : Fin 524288 := ⟨8192 * k.val + l.val, by have := k.isLt; have := l.isLt; omega⟩

theorem col_val (k : Fin 64) (l : Fin 8192) : (col k l).val = 8192 * k.val + l.val := rfl

/-- The accumulator after the first n trips of the first loop: zero, then each chunk's lane sums added in turn
    (past the 64th trip it no longer changes). -/
def sumAcc (ch : Fin 64 → Vec F S8x8192 .f32) : ℕ → Vec F S8x1 .f32
  | 0 => k0_pay1 (F := F)
  | n + 1 => if h : n < 64 then k0_pay2 (ch ⟨n, h⟩) (sumAcc ch n) else sumAcc ch n

/-- The accumulator after the first n trips of the second loop, given the first loop's total tot (from which the
    trip recomputes the quantised mean): zero, then each chunk's lane sums of squared deviations added in turn. -/
def devAcc (tot : Vec F S8x1 .f32) (ch : Fin 64 → Vec F S8x8192 .f32) : ℕ → Vec F S8x1 .f32
  | 0 => k0_pay4 (F := F)
  | n + 1 => if h : n < 64 then k0_pay5 tot (ch ⟨n, h⟩) (devAcc tot ch n) else devAcc tot ch n

theorem sumAcc_succ (ch : Fin 64 → Vec F S8x8192 .f32) (k : Fin 64) :
    sumAcc ch (k.val + 1) = k0_pay2 (ch k) (sumAcc ch k.val) := by
  rw [sumAcc]; exact dif_pos k.isLt

theorem devAcc_succ (tot : Vec F S8x1 .f32) (ch : Fin 64 → Vec F S8x8192 .f32) (k : Fin 64) :
    devAcc tot ch (k.val + 1) = k0_pay5 tot (ch k) (devAcc tot ch k.val) := by
  rw [devAcc]; exact dif_pos k.isLt

/-- The quantised mean of the block's rows, as the kernel stores it: the pointwise function of the first total. -/
def meanBlk (ch : Fin 64 → Vec F S8x8192 .f32) : Vec F S8x1 .f32 := k0_pay3 (sumAcc ch 64)

/-- The raw sum of squared deviations of the block's rows, as the kernel stores it. -/
def devBlk (ch : Fin 64 → Vec F S8x8192 .f32) : Vec F S8x1 .f32 := devAcc (sumAcc ch 64) ch 64

end Cert.KernelIdeal.R0

end
-- ==== Proof.R0Run.lean ====
/-
  What one grid point of the statistics kernel leaves in its two outputs, read off its execution.

  A grid point holds a block x0 of 8 rows × 524288 columns and an 8×1 accumulator. Trip k of either loop reads the
  8 × 8192 rectangle of the block at columns 8192·k … 8192·k + 8191 (chunkOf x0 k), reads the accumulator, and stores
  over the whole accumulator a function of the two. Each trip therefore contributes exactly one whole-accumulator
  store, and the accumulator after n trips is the n-th value of the recursion sumAcc (first loop) or devAcc (second
  loop) over the family of chunks, by induction on n. The first output is the pointwise quantised-mean function of the
  first loop's total; the second output is the second loop's total.
-/
import proofs.«400612_j57930518889080_3_alg».proof.Proof.Gen.KernelIdeal.Frame
import proofs.«400612_j57930518889080_3_alg».proof.Proof.R0Fold
import Idealize.ShloMosaic.Lib.ValueIdx
import Idealize.ShloMosaic.Lib.Pipeline.Value

noncomputable section

namespace Cert.KernelIdeal.R0

open Idealize.ShloMosaic Idealize.ShloMosaic.TcCoe Cert.KernelIdeal Cert.KernelIdeal.Gen

variable {F : FTy → Type} [FloatOps F]

/-! ## The chunk a trip reads -/

/-- The zero offsets of a whole 8×1 buffer, as a function. -/
theorem hz : (![0, 0] : Fin 2 → ℕ) = fun _ => 0 := by
  funext a; revert a; decide

/-- Chunk k lies inside the block: 8 rows from row 0, 8192 columns from column 8192·k. -/
theorem chunk_inb (k : Fin 64) :
    ∀ a, (![0, 8192 * k.val] : Fin 2 → ℕ) a + S8x8192.size a ≤ S8x524288.size a :=
  Rect.inb₂ (d := ![8, 524288]) (off := ![0, 8192 * k.val]) (size := ![8, 8192])
    (by show 0 + 8 ≤ 8; omega) (by have := k.isLt; show 8192 * k.val + 8192 ≤ 524288; omega)

/-- What trip k reads of a block with contents x0: the 8 × 8192 rectangle of unit stride at column 8192·k. -/
def chunkOf (x0 : Vec F S8x524288 .f32) (k : Fin 64) : Vec F S8x8192 .f32 :=
  View.ld x0 (Rect.unit (s := S8x524288) ![0, 8192 * k.val] S8x8192.size (chunk_inb k))

/-- Entry (r, l) of chunk k is entry (r, 8192·k + l) of the block. -/
theorem chunkOf_apply (x0 : Vec F S8x524288 .f32) (k : Fin 64) (r : Fin 8) (l : Fin 8192) :
    chunkOf x0 k (ValueIdx.ix2 r l) = x0 (ValueIdx.ix2 r (col k l)) := by
  unfold chunkOf
  refine congrArg x0 (funext fun a => Fin.ext ?_)
  match a with
  | ⟨0, _⟩ => show 0 + 1 * r.val = r.val; omega
  | ⟨1, _⟩ => show 8192 * k.val + 1 * l.val = 8192 * k.val + l.val; omega

/-- A rectangle read depends on its offsets only through their values. -/
theorem ld_off (x0 : Vec F S8x524288 .f32) {off off' : Fin 2 → ℕ} (e : off = off')
    (inb : ∀ a, off a + S8x8192.size a ≤ S8x524288.size a) (inb' : ∀ a, off' a + S8x8192.size a ≤ S8x524288.size a) :
    (View.ld x0 (Rect.unit (s := S8x524288) off S8x8192.size inb) : Vec F S8x8192 .f32)
      = View.ld x0 (Rect.unit (s := S8x524288) off' S8x8192.size inb') := by
  subst e; rfl

/-- The first loop's load of the block, whole and holding x0, at trip k is chunk k. -/
theorem load1_eq (arg1 : Memref sig .tc .vmem S8x524288 .f32) (harg1 : arg1.IsWhole) (x0 : Vec F S8x524288 .f32)
    (k : Fin k0_t1_loop.trips) (h : k.val < 64) :
    View.readAt (Elt F) arg1.view (Rect.unit (s := S8x524288) (k0_off1 k) S8x8192.size (k0_off1_inb k)).toLoadRect (harg1.unread x0)
      = chunkOf x0 ⟨k.val, h⟩ := by
  rw [View.readAt_eq_ld, harg1.read_unread]
  exact ld_off x0 (k0_off1_eq k) _ _

/-- The second loop's load likewise. -/
theorem load2_eq (arg1 : Memref sig .tc .vmem S8x524288 .f32) (harg1 : arg1.IsWhole) (x0 : Vec F S8x524288 .f32)
    (k : Fin k0_t2_loop.trips) (h : k.val < 64) :
    View.readAt (Elt F) arg1.view (Rect.unit (s := S8x524288) (k0_off2 k) S8x8192.size (k0_off2_inb k)).toLoadRect (harg1.unread x0)
      = chunkOf x0 ⟨k.val, h⟩ := by
  rw [View.readAt_eq_ld, harg1.read_unread]
  exact ld_off x0 (k0_off2_eq k) _ _

/-! ## The 8×1 accumulator: a whole store and a whole load -/

/-- A store of the whole accumulator, made last, is what the accumulator then reads. -/
theorem read_cons_unit (v : View sig .tc .vmem S8x1 .f32) (f : v.ty.Contents (Elt F)) (w : Vec F S8x1 .f32)
    (L : List (View.Piece (Elt F) S8x1 .f32)) :
    v.read (Elt F) (v.writes (Elt F) f ((⟨Rect.unit ![0, 0] S8x1.size inb_S8x1_S8x1_0_0, w⟩ : View.Piece (Elt F) S8x1 .f32) :: L)) = w := by
  rw [View.read_writes_eq_canon _ _ _ (fun y => ⟨_, List.mem_cons_self, View.mem_set_unit_zero hz inb_S8x1_S8x1_0_0 y⟩),
    View.canon_cons_unit_zero (S := S8x1) hz]

/-- A load of the whole accumulator reads its contents. -/
theorem readAt_unit (v : View sig .tc .vmem S8x1 .f32) (f : v.ty.Contents (Elt F)) :
    View.readAt (Elt F) v (Rect.unit (s := S8x1) ![0, 0] S8x1.size inb_S8x1_S8x1_0_0).toLoadRect f = v.read (Elt F) f := by
  rw [View.readAt_eq_ld]; exact View.ld_unit_zero (S := S8x1) hz _ _

/-! ## One trip of each loop: its one piece -/

/-- Trip k of the first loop stores, over the whole accumulator, the accumulator it finds plus the lane sums of the
    chunk it loads. -/
theorem trip1_pieces (𝒱 : Variants) (c : Dev nD) (bd : Option 𝒱.V) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole)
    (X : BufTy.Contents (Elt F) arg1.view.ty) (k : Fin k0_t1_loop.trips) (f : BufTy.Contents (Elt F) arg4.view.ty) :
    tripL_k0_t1 (F := F) 𝒱 c bd i arg1 harg1 arg2 harg2 arg3 harg3 arg4 harg4 X k f
      = [(⟨Rect.unit ![0, 0] S8x1.size inb_S8x1_S8x1_0_0,
          k0_pay2 (View.readAt (Elt F) arg1.view (Rect.unit (s := S8x524288) (k0_off1 k) S8x8192.size (k0_off1_inb k)).toLoadRect X)
            (View.readAt (Elt F) arg4.view (Rect.unit (s := S8x1) ![0, 0] S8x1.size inb_S8x1_S8x1_0_0).toLoadRect f)⟩
          : View.Piece (Elt F) S8x1 .f32)] := by
  unfold tripL_k0_t1 trip_k0_t1
  rfl

/-- Trip k of the second loop stores, over the whole accumulator, the accumulator it finds plus the lane sums of the
    squared deviations of the chunk it loads from the quantised mean of the total v5. -/
theorem trip2_pieces (𝒱 : Variants) (c : Dev nD) (bd : Option 𝒱.V) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (v5 : Vec F S8x1 .f32)
    (X : BufTy.Contents (Elt F) arg1.view.ty) (k : Fin k0_t2_loop.trips) (f : BufTy.Contents (Elt F) arg4.view.ty) :
    tripL_k0_t2 (F := F) 𝒱 c bd i arg1 harg1 arg2 harg2 arg3 harg3 arg4 harg4 v5 X k f
      = [(⟨Rect.unit ![0, 0] S8x1.size inb_S8x1_S8x1_0_0,
          k0_pay5 v5 (View.readAt (Elt F) arg1.view (Rect.unit (s := S8x524288) (k0_off2 k) S8x8192.size (k0_off2_inb k)).toLoadRect X)
            (View.readAt (Elt F) arg4.view (Rect.unit (s := S8x1) ![0, 0] S8x1.size inb_S8x1_S8x1_0_0).toLoadRect f)⟩
          : View.Piece (Elt F) S8x1 .f32)] := by
  unfold tripL_k0_t2 trip_k0_t2
  rfl

/-! ## The loops: the accumulator after n trips -/

/-- After n trips of the first loop, entered with the accumulator reading zero, the accumulator reads the n-th
    partial sum of the chunks' lane sums. -/
theorem loop1_read (𝒱 : Variants) (c : Dev nD) (bd : Option 𝒱.V) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (x0 : Vec F S8x524288 .f32)
    (G : BufTy.Contents (Elt F) arg4.view.ty) (hG : arg4.view.read (Elt F) G = k0_pay1) :
    ∀ n : ℕ, n ≤ k0_t1_loop.trips →
      arg4.view.read (Elt F) (arg4.view.writes (Elt F) G (pb_k0_t1 (F := F) 𝒱 c bd i arg1 harg1 arg2 harg2 arg3 harg3 arg4 harg4 (harg1.unread x0) G n))
        = sumAcc (chunkOf x0) n := by
  intro n
  induction n with
  | zero => intro _; exact hG
  | succ n ih =>
    intro hn
    have hlt : n < k0_t1_loop.trips := hn
    have h64 : n < 64 := lt_of_lt_of_le hlt k0_t1_abs.2.1
    have e := pb_k0_t1_succ (F := F) 𝒱 c bd i arg1 harg1 arg2 harg2 arg3 harg3 arg4 harg4 (harg1.unread x0) G ⟨n, hlt⟩
    dsimp only at e
    rw [e, View.writes_append, trip1_pieces, read_cons_unit, readAt_unit, ih (le_of_lt hlt),
      load1_eq arg1 harg1 x0 ⟨n, hlt⟩ h64]
    exact (sumAcc_succ (chunkOf x0) ⟨n, h64⟩).symm

/-- After n trips of the second loop, entered with the accumulator reading zero, the accumulator reads the n-th
    partial sum of the chunks' lane sums of squared deviations. -/
theorem loop2_read (𝒱 : Variants) (c : Dev nD) (bd : Option 𝒱.V) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (v5 : Vec F S8x1 .f32) (x0 : Vec F S8x524288 .f32)
    (G : BufTy.Contents (Elt F) arg4.view.ty) (hG : arg4.view.read (Elt F) G = k0_pay4) :
    ∀ n : ℕ, n ≤ k0_t2_loop.trips →
      arg4.view.read (Elt F) (arg4.view.writes (Elt F) G (pb_k0_t2 (F := F) 𝒱 c bd i arg1 harg1 arg2 harg2 arg3 harg3 arg4 harg4 v5 (harg1.unread x0) G n))
        = devAcc v5 (chunkOf x0) n := by
  intro n
  induction n with
  | zero => intro _; exact hG
  | succ n ih =>
    intro hn
    have hlt : n < k0_t2_loop.trips := hn
    have h64 : n < 64 := lt_of_lt_of_le hlt k0_t2_abs.2.1
    have e := pb_k0_t2_succ (F := F) 𝒱 c bd i arg1 harg1 arg2 harg2 arg3 harg3 arg4 harg4 v5 (harg1.unread x0) G ⟨n, hlt⟩
    dsimp only at e
    rw [e, View.writes_append, trip2_pieces, read_cons_unit, readAt_unit, ih (le_of_lt hlt),
      load2_eq arg1 harg1 x0 ⟨n, hlt⟩ h64]
    exact (devAcc_succ v5 (chunkOf x0) ⟨n, h64⟩).symm

/-! ## The two outputs of a grid point -/

/-- Both loops make 64 trips. -/
theorem trips1 : k0_t1_loop.trips = 64 := by decide
theorem trips2 : k0_t2_loop.trips = 64 := by decide

/-- The first output of a grid point is the quantised mean of the total of the 64 chunks' lane sums. -/
theorem out0_A_1_eq (c : Dev nD) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (x0 : Vec F S8x524288 .f32) :
    out0_A_1 c i arg1 harg1 arg2 harg2 arg3 harg3 arg4 harg4 x0 = meanBlk (chunkOf x0) := by
  unfold out0_A_1
  rw [View.read_writes_eq_canon _ _ _ (cover0_A_1 c i arg1 harg1 arg2 harg2 arg3 harg3 arg4 harg4 x0)]
  unfold kernelRun0_A
  dsimp only
  sl_unfold_words
  rw [View.canon_unit_zero (S := S8x1) hz]
  rw [readAt_unit, View.writes_append]
  rw [loop1_read Variants.none c none i arg1 harg1 arg2 harg2 arg3 harg3 arg4 harg4 x0 _ (read_cons_unit _ _ _ _) _ le_rfl, trips1]
  rfl

/-- The second output of a grid point is the total of the 64 chunks' lane sums of squared deviations from that mean. -/
theorem out0_A_2_eq (c : Dev nD) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (x0 : Vec F S8x524288 .f32) :
    out0_A_2 c i arg1 harg1 arg2 harg2 arg3 harg3 arg4 harg4 x0 = devBlk (chunkOf x0) := by
  unfold out0_A_2
  rw [View.read_writes_eq_canon _ _ _ (cover0_A_2 c i arg1 harg1 arg2 harg2 arg3 harg3 arg4 harg4 x0)]
  unfold kernelRun0_A
  dsimp only
  sl_unfold_words
  rw [View.canon_unit_zero (S := S8x1) hz]
  rw [readAt_unit, readAt_unit, View.writes_append, View.writes_append]
  rw [loop2_read Variants.none c none i arg1 harg1 arg2 harg2 arg3 harg3 arg4 harg4 _ x0 _ (read_cons_unit _ _ _ _) _ le_rfl, trips2]
  rw [loop1_read Variants.none c none i arg1 harg1 arg2 harg2 arg3 harg3 arg4 harg4 x0 _ (read_cons_unit _ _ _ _) _ le_rfl, trips1]
  rfl

end Cert.KernelIdeal.R0

end
-- ==== Proof.R0Math.lean ====
/-
  The arithmetic of the statistics kernel's two accumulations at the extended reals.

  A block of 8 rows × 524288 columns is read in 64 chunks of 8192 columns laid side by side. At the extended reals
  every operation is exact, so the accumulator after the first loop holds, for row r, the sum of the row's 524288
  elements (a sum of 64 lane sums, re-indexed through (k, l) ↦ 8192·k + l); the quantised mean is the scalar
  function muK of that sum; and the accumulator after the second loop holds the sum of the squared deviations of
  the row's elements from that quantised mean.
-/
import proofs.«400612_j57930518889080_3_alg».proof.Proof.R0Fold
import proofs.«400612_j57930518889080_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Data.Fintype.BigOperators
import Mathlib.Logic.Equiv.Fin.Basic

noncomputable section

namespace Cert.KernelIdeal.R0

open Idealize.ShloMosaic Idealize.ShloMosaic.ValueIdx Cert.KernelIdeal Cert.KernelIdeal.Gen Cert.GN

/-! ## Three layout operations on a column of row statistics, read at an index -/

section Layout
variable {α : Type}

/-- A vector of a entries cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of an 8 × 8192 vector of extended reals, read at row r: the sum of the row's 8192 entries. -/
theorem laneSum_apply (src : FVec Ideal S8x8192 .f32) (h : S8x8192.Reduces [1] S8) (hφ : FKind.Formats .f32)
    (hacc : (0x00000000#32 : BitVec 32) = 0x00000000#32) (r : Fin 8) :
    multiReduction (F := Ideal) .add [1] S8 src 0x00000000#32 h hφ hacc (ix1 r) = ∑ l : Fin 8192, src (ix2 r l) := by
  refine (Ideal.multiReduction_add_single src 0x00000000#32 h hφ hacc (ix1 r)).trans ?_
  refine Finset.sum_congr rfl fun l _ => congrArg src ?_
  funext c
  refine Fin.ext ?_
  match c with
  | ⟨0, _⟩ => rfl
  | ⟨1, _⟩ => rfl

/-! ## The five payloads of the statistics kernel, read at row r of their 8 × 1 column -/

/-- The zero the first accumulation starts from. -/
theorem pay1_apply (r : Fin 8) : (k0_pay1 (F := Ideal)) (ix2 r 0) = 0 := by
  unfold k0_pay1
  refine (congrFun (shapeCast_self _ shapeCasts_S8x1_S8x1) (ix2 r 0)).trans ?_
  exact Ideal.ofBits_zero_f32

/-- The zero the second accumulation starts from. -/
theorem pay4_apply (r : Fin 8) : (k0_pay4 (F := Ideal)) (ix2 r 0) = 0 := by
  unfold k0_pay4
  refine (congrFun (shapeCast_self _ shapeCasts_S8x1_S8x1) (ix2 r 0)).trans ?_
  exact Ideal.ofBits_zero_f32

/-- One trip of the first accumulation adds the chunk's lane sum of row r to row r of the accumulator. -/
theorem pay2_apply (chunk : Vec Ideal S8x8192 .f32) (acc : Vec Ideal S8x1 .f32) (r : Fin 8) :
    k0_pay2 chunk acc (ix2 r 0) = acc (ix2 r 0) + ∑ l : Fin 8192, chunk (ix2 r l) := by
  unfold k0_pay2
  refine (congrFun (shapeCast_self _ shapeCasts_S8x1_S8x1) (ix2 r 0)).trans ?_
  refine (addf_apply _ _ (ix2 r 0)).trans ?_
  refine congrArg (acc (ix2 r 0) + ·) ?_
  refine (shapeCast_a_a1_apply _ shapeCasts_S8_S8x1 r 0).trans ?_
  refine (laneSum_apply _ reduces_S8x8192_S8 (.inl rfl) rfl r).trans ?_
  rw [shapeCast_self]

/-- The quantised mean is the scalar function muK of the total, row by row. -/
theorem pay3_apply (tot : Vec Ideal S8x1 .f32) (i : S8x1.Idx) : k0_pay3 tot i = muK (tot i) := rfl

/-- One trip of the second accumulation adds, to row r of the accumulator, the chunk's lane sum of the squared
    deviations of row r from the quantised mean of row r. -/
theorem pay5_apply (tot : Vec Ideal S8x1 .f32) (chunk : Vec Ideal S8x8192 .f32) (acc : Vec Ideal S8x1 .f32) (r : Fin 8) :
    k0_pay5 tot chunk acc (ix2 r 0)
      = acc (ix2 r 0) + ∑ l : Fin 8192, sqd (chunk (ix2 r l)) (muK (tot (ix2 r 0))) := by
  unfold k0_pay5
  refine (congrFun (shapeCast_self _ shapeCasts_S8x1_S8x1) (ix2 r 0)).trans ?_
  refine (addf_apply _ _ (ix2 r 0)).trans ?_
  refine congrArg (acc (ix2 r 0) + ·) ?_
  refine (shapeCast_a_a1_apply _ shapeCasts_S8_S8x1 r 0).trans ?_
  refine (laneSum_apply _ reduces_S8x8192_S8 (.inl rfl) rfl r).trans ?_
  refine Finset.sum_congr rfl fun l _ => ?_
  refine (mulf_apply _ _ (ix2 r l)).trans ?_
  have hd : subf (shapeCast S8x8192 chunk shapeCasts_S8x8192_S8x8192)
        (broadcastTo S8x8192 (k0_pay3 tot) broadcasts_S8x1_S8x8192) (ix2 r l)
      = chunk (ix2 r l) - muK (tot (ix2 r 0)) := by
    refine (subf_apply _ _ (ix2 r l)).trans ?_
    rw [shapeCast_self, broadcastTo_a1_ab_apply _ broadcasts_S8x1_S8x8192 r l, pay3_apply]
  rw [hd]
  rfl

/-! ## A sum over the 524288 columns, chunk by chunk -/

/-- (k, l) ↦ 8192·k + l is a bijection from 64 × 8192 onto 524288, so the sum over the chunks of the sums over
    each chunk's lanes is the sum over the columns, in any additive commutative monoid. -/
theorem sum_col {M : Type*} [AddCommMonoid M] (g : Fin 524288 → M) :
    ∑ k : Fin 64, ∑ l : Fin 8192, g (col k l) = ∑ j : Fin 524288, g j := by
  refine (Fintype.sum_prod_type' (fun (k : Fin 64) (l : Fin 8192) => g (col k l))).symm.trans ?_
  exact Fintype.sum_equiv (finProdFinEquiv : Fin 64 × Fin 8192 ≃ Fin (64 * 8192)) _ g fun p =>
    congrArg g (Fin.ext (by
      show 8192 * p.1.val + p.2.val = p.2.val + 8192 * p.1.val
      omega))

/-- An accumulator that starts at 0 and adds g k on trip k holds, after the 64 trips, the sum of all the g k. -/
theorem acc_eq_sum (A : ℕ → EReal) (g : Fin 64 → EReal) (h0 : A 0 = 0)
    (hs : ∀ k : Fin 64, A (k.val + 1) = A k.val + g k) : A 64 = ∑ k : Fin 64, g k := by
  have key : ∀ n, n ≤ 64 → A n = ∑ k ∈ Finset.range n, (if h : k < 64 then g ⟨k, h⟩ else 0) := by
    intro n
    induction n with
    | zero => intro _; rw [Finset.range_zero, Finset.sum_empty]; exact h0
    | succ n ih =>
      intro hn
      have hn' : n < 64 := by omega
      rw [Finset.sum_range_succ, ← ih (by omega), dif_pos hn']
      exact hs ⟨n, hn'⟩
  rw [key 64 le_rfl, ← Fin.sum_univ_eq_sum_range (fun k => if h : k < 64 then g ⟨k, h⟩ else 0) 64]
  exact Finset.sum_congr rfl fun k _ => by rw [dif_pos k.isLt]

/-! ## The two accumulations and what the kernel stores -/

section Block
variable (x0 : Vec Ideal S8x524288 .f32) (ch : Fin 64 → Vec Ideal S8x8192 .f32)
  (hch : ∀ (k : Fin 64) (r : Fin 8) (l : Fin 8192), ch k (ix2 r l) = x0 (ix2 r (col k l)))
include hch

/-- After its 64 trips the first accumulator holds each row's sum. -/
theorem sumAcc_apply (r : Fin 8) : sumAcc ch 64 (ix2 r 0) = ∑ j : Fin 524288, x0 (ix2 r j) := by
  refine (acc_eq_sum (fun n => sumAcc ch n (ix2 r 0)) (fun k => ∑ l : Fin 8192, x0 (ix2 r (col k l))) ?_ ?_).trans ?_
  · exact pay1_apply r
  · intro k
    show sumAcc ch (k.val + 1) (ix2 r 0) = sumAcc ch k.val (ix2 r 0) + _
    rw [sumAcc_succ, pay2_apply]
    exact congrArg (_ + ·) (Finset.sum_congr rfl fun l _ => hch k r l)
  · exact sum_col fun j => x0 (ix2 r j)

/-- The stored mean of row r is the quantised mean of the row's sum. -/
theorem meanBlk_apply (r : Fin 8) : meanBlk ch (ix2 r 0) = muK (∑ j : Fin 524288, x0 (ix2 r j)) := by
  unfold meanBlk
  rw [pay3_apply, sumAcc_apply x0 ch hch r]

/-- The stored deviation sum of row r is the sum of the squared deviations of the row's elements from the
    quantised mean of the row's sum. -/
theorem devBlk_apply (r : Fin 8) :
    devBlk ch (ix2 r 0) = ∑ j : Fin 524288, sqd (x0 (ix2 r j)) (muK (∑ j : Fin 524288, x0 (ix2 r j))) := by
  unfold devBlk
  refine (acc_eq_sum (fun n => devAcc (sumAcc ch 64) ch n (ix2 r 0))
    (fun k => ∑ l : Fin 8192, sqd (x0 (ix2 r (col k l))) (muK (∑ j : Fin 524288, x0 (ix2 r j)))) ?_ ?_).trans ?_
  · exact pay4_apply r
  · intro k
    show devAcc (sumAcc ch 64) ch (k.val + 1) (ix2 r 0) = devAcc (sumAcc ch 64) ch k.val (ix2 r 0) + _
    rw [devAcc_succ, pay5_apply, sumAcc_apply x0 ch hch r]
    exact congrArg (_ + ·) (Finset.sum_congr rfl fun l _ => by rw [hch k r l])
  · exact sum_col fun j => sqd (x0 (ix2 r j)) (muK (∑ j : Fin 524288, x0 (ix2 r j)))

end Block

end Cert.KernelIdeal.R0

end
-- ==== Proof.R0Iface.lean ====
/-
  What one grid point of the statistics kernel leaves in its two output blocks, element by element.

  The point holds 8 rows of 524288 columns. Row r of the first output block is the quantised mean of row r: the row
  sum scaled by 2⁻¹⁹, floor-quantised to 4 fractional bits and clipped. Row r of the second is the sum over the row
  of the squared deviations from that quantised mean. The kernel accumulates both sums chunk by chunk (64 chunks of
  8192 columns); read over the extended reals the order and grouping of a sum do not matter. The two halves: what the
  point's run leaves is the chunk-by-chunk recursion over the block's chunks (read off the run), and that recursion at
  row r is the closed form (the arithmetic of the accumulations).
-/
import proofs.«400612_j57930518889080_3_alg».proof.Proof.Gen.KernelIdeal.Frame
import proofs.«400612_j57930518889080_3_alg».proof.Proof.Spec
import proofs.«400612_j57930518889080_3_alg».proof.Proof.R0Fold
import proofs.«400612_j57930518889080_3_alg».proof.Proof.R0Run
import proofs.«400612_j57930518889080_3_alg».proof.Proof.R0Math

noncomputable section

namespace Cert.KernelIdeal.R0

open Idealize.ShloMosaic Idealize.ShloMosaic.ValueIdx Cert.KernelIdeal Cert.KernelIdeal.Gen Cert.GN

theorem out0_A_1_apply (c : Dev nD) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (x0 : Vec Ideal S8x524288 .f32) (r : Fin 8) :
    out0_A_1 (F := Ideal) c i arg1 harg1 arg2 harg2 arg3 harg3 arg4 harg4 x0 (ix2 r 0)
      = muK (∑ j : Fin 524288, x0 (ix2 r j)) := by
  rw [out0_A_1_eq]
  exact meanBlk_apply x0 (chunkOf x0) (fun k r l => chunkOf_apply x0 k r l) r

theorem out0_A_2_apply (c : Dev nD) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole) (x0 : Vec Ideal S8x524288 .f32) (r : Fin 8) :
    out0_A_2 (F := Ideal) c i arg1 harg1 arg2 harg2 arg3 harg3 arg4 harg4 x0 (ix2 r 0)
      = ∑ j : Fin 524288, sqd (x0 (ix2 r j)) (muK (∑ j : Fin 524288, x0 (ix2 r j))) := by
  rw [out0_A_2_eq]
  exact devBlk_apply x0 (chunkOf x0) (fun k r l => chunkOf_apply x0 k r l) r

end Cert.KernelIdeal.R0

end
-- ==== Proof.KCover.lean ====
/-
  From blocks to arrays, for the two pipelined regions of the integer GroupNorm kernel.

  Region 0 walks the 64 rows of the flat input in 8 blocks of 8 rows. Point t reads rows 8t … 8t+7 whole and leaves,
  in row r of its two one-column output blocks, the quantised mean of row 8t+r and that row's sum of squared
  deviations from it. The 8 output blocks tile the two [64, 1] arrays, so after the last point each array holds,
  at row b, the function of row b of the input that the block holding b computed: the input array itself is never
  written.

  Region 1 walks the [64, 524288] array in a 2 × 16 grid of blocks of 32 rows and 32768 columns. Point (p, q) reads
  that block of the input and rows 32p … 32p+31 of the mean and inverse-deviation columns, and writes the block of
  each result whose element (r, k) is the normalised, quantised value of input element (32p+r, 32768q+k) under
  the mean and inverse deviation of row 32p+r. The 32 blocks tile each result array, so each result is one
  function of the three arrays, index by index.

  In both regions the argument is the same: what a point writes back is the restriction to its block of ONE
  whole-array function (an element of a block sits, on each axis, at block index × block size + its coordinate
  inside the block), and every index of the array lies in the block of the point (row / rows per block,
  column / columns per block).
-/
import proofs.«400612_j57930518889080_3_alg».proof.Proof.Gen.KernelIdeal.Frame
import proofs.«400612_j57930518889080_3_alg».proof.Proof.Spec
import proofs.«400612_j57930518889080_3_alg».proof.Proof.R0Iface
import Idealize.ShloMosaic.Lib.Pipeline.Value
import Idealize.ShloMosaic.Lib.ValueIdx

set_option maxRecDepth 16384

noncomputable section

namespace Cert.KernelIdeal.KC

open Idealize.ShloMosaic Idealize.ShloMosaic.ValueIdx Idealize.ShloMosaic.TcCoe Idealize.SL.Sem
open Idealize.ShloMosaic.Pipeline (Dat)
open Cert.KernelIdeal Cert.KernelIdeal.Gen Cert.GN

/-! ## Region 1: the body's two payloads, element by element -/

/-- An [a, 1] column broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The clipped integer part the body computes before its two stores: at (r, k), the Q8.4 integer part of
    (x − μ_r) · σ_r. -/
theorem pay1_apply (x0 : Vec Ideal S32x32768 .f32) (x1 x2 : Vec Ideal S32x1 .f32) (r : Fin 32) (k : Fin 32768) :
    k1_pay1 (F := Ideal) x0 x1 x2 (ix2 r k) = clipK ((x0 (ix2 r k) - x1 (ix2 r 0)) * x2 (ix2 r 0)) := by
  unfold k1_pay1
  simp only [shapeCast_self]
  show min _ (max _ (Ideal.liftRound Int.floor ((x0 (ix2 r k) - broadcastTo S32x32768 x1 broadcasts_S32x1_S32x32768 (ix2 r k)) * broadcastTo S32x32768 x2 broadcasts_S32x1_S32x32768 (ix2 r k) * _))) = _
  rw [broadcastTo_a1_ab_apply x1 broadcasts_S32x1_S32x32768 r k, broadcastTo_a1_ab_apply x2 broadcasts_S32x1_S32x32768 r k]
  rfl

/-- The float result's block: that integer part over 16. -/
theorem pay2_apply (x0 : Vec Ideal S32x32768 .f32) (x1 x2 : Vec Ideal S32x1 .f32) (r : Fin 32) (k : Fin 32768) :
    k1_pay2 (F := Ideal) x0 x1 x2 (ix2 r k) = outFK (x0 (ix2 r k)) (x1 (ix2 r 0)) (x2 (ix2 r 0)) := by
  unfold k1_pay2
  show k1_pay1 (F := Ideal) x0 x1 x2 (ix2 r k) * _ = _
  rw [pay1_apply]
  rfl

/-- The integer result's block: that integer part as a 32-bit word, its low byte kept. -/
theorem pay3_apply (x0 : Vec Ideal S32x32768 .f32) (x1 x2 : Vec Ideal S32x1 .f32) (r : Fin 32) (k : Fin 32768) :
    k1_pay3 (F := Ideal) x0 x1 x2 (ix2 r k) = outUK (x0 (ix2 r k)) (x1 (ix2 r 0)) (x2 (ix2 r 0)) := by
  unfold k1_pay3
  show Ideal.fptosi 32 (k1_pay1 (F := Ideal) x0 x1 x2 (ix2 r k)) &&& 255#32 = _
  rw [pay1_apply]
  rfl

/-- Each payload at a block index given whole, not by coordinates. -/
theorem pay2_at (x0 : Vec Ideal S32x32768 .f32) (x1 x2 : Vec Ideal S32x1 .f32) (j : S32x32768.Idx) :
    k1_pay2 (F := Ideal) x0 x1 x2 j = outFK (x0 j) (x1 (ix2 (j 0) 0)) (x2 (ix2 (j 0) 0)) := by
  obtain ⟨r, k, rfl⟩ : ∃ (r : Fin 32) (k : Fin 32768), j = ix2 r k := ⟨j 0, j 1, eq_ix2 j⟩
  exact pay2_apply x0 x1 x2 r k

theorem pay3_at (x0 : Vec Ideal S32x32768 .f32) (x1 x2 : Vec Ideal S32x1 .f32) (j : S32x32768.Idx) :
    k1_pay3 (F := Ideal) x0 x1 x2 j = outUK (x0 j) (x1 (ix2 (j 0) 0)) (x2 (ix2 (j 0) 0)) := by
  obtain ⟨r, k, rfl⟩ : ∃ (r : Fin 32) (k : Fin 32768), j = ix2 r k := ⟨j 0, j 1, eq_ix2 j⟩
  exact pay3_apply x0 x1 x2 r k

/-! ## Region 1: the two results as whole-array functions -/

theorem zeros2 : (![0, 0] : Fin 2 → Nat) = fun _ => 0 := funext fun a => by fin_cases a <;> rfl

/-- The float result, index by index, from the input and the two per-row columns. -/
def wholeF (a0 : S64x524288.Idx → EReal) (a1 a2 : S64x1.Idx → EReal) : S64x524288.Idx → EReal :=
  fun i => outFK (a0 i) (a1 (ix2 (i 0) 0)) (a2 (ix2 (i 0) 0))

/-- The integer result, index by index. -/
def wholeU (a0 : S64x524288.Idx → EReal) (a1 a2 : S64x1.Idx → EReal) : S64x524288.Idx → BitVec 32 :=
  fun i => outUK (a0 i) (a1 (ix2 (i 0) 0)) (a2 (ix2 (i 0) 0))

variable (V : (c : Dev nD) → (b : Ref sig .tc) → Buf (Elt Ideal) ((c : Thread nD τ).loc b))

/-- The index maps of region 1, over its 32 points: the input moves with the float result on both axes, the two
    columns with it on the row axis (their column block index is 0), the integer result with it on both axes; the
    result's block indices stay within 2 × 16. -/
theorem blockIndex1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = win1_3.index t (0 : Fin 2) ∧ win1_2.index t (1 : Fin 2) = 0
    ∧ win1_4.index t (0 : Fin 2) = win1_3.index t (0 : Fin 2) ∧ win1_4.index t (1 : Fin 2) = win1_3.index t (1 : Fin 2)
    ∧ win1_3.index t (0 : Fin 2) ≤ 1 ∧ win1_3.index t (1 : Fin 2) ≤ 15 :=
  (by decide +kernel : ∀ t : Fin grid1.N, _)

/-- Every block of the 2 × 16 tiling is some point's. -/
theorem blockOnto1 : ∀ (q0 : Fin 2) (q1 : Fin 16), ∃ t : Fin cfg1.N, win1_3.index t = ![q0.val, q1.val] :=
  (by decide +kernel : ∀ (q0 : Fin 2) (q1 : Fin 16), ∃ t : Fin grid1.N, win1_3.index t = ![q0.val, q1.val])

/-- What point t writes back to the float result is block t of wholeF of the three arrays. -/
theorem flushedF_eq (c : Dev nD) (t : Fin cfg1.N) :
    (dat1 V c).flushed 3 t
      = ((cfg1.win 3).blk t).view.read (Elt Ideal) (wholeF (V c main_v0) (V c main_v1_0) (V c main_v80)) := by
  show (cfg1.win 3).cut (grid1.coords t) ((dat1 V c).after 3 t) = _
  rw [after1_3]
  unfold out1_3
  rw [View.canon_unit_zero zeros2]
  simp only [View.ld_unit_zero (S := S32x32768) zeros2, View.ld_unit_zero (S := S32x1) zeros2]
  obtain ⟨e00, e01, e10, e11, e20, e21, e40, e41, b0, b1⟩ := blockIndex1 t
  funext j
  refine (pay2_at (iblk1 V c 0 t) (iblk1 V c 1 t) (iblk1 V c 2 t) ((cfg1.win 3).xinj (grid1.coords t) j)).trans ?_
  have hj0 : (j 0).val < 32 := (j 0).isLt
  have hj1 : (j 1).val < 32768 := (j 1).isLt
  have h0 : (((cfg1.win 0).blk t).view.emb ((cfg1.win 3).xinj (grid1.coords t) j) : S64x524288.Idx) = ((cfg1.win 3).blk t).view.emb j := by
    funext a; apply Fin.ext
    match a with
    | ⟨0, _⟩ => show win1_0.index t (0 : Fin 2) * 32 + 1 * (j 0).val = win1_3.index t (0 : Fin 2) * 32 + 1 * (j 0).val; omega
    | ⟨1, _⟩ => show win1_0.index t (1 : Fin 2) * 32768 + 1 * (j 1).val = win1_3.index t (1 : Fin 2) * 32768 + 1 * (j 1).val; omega
  have h1 : (((cfg1.win 1).blk t).view.emb (ix2 (((cfg1.win 3).xinj (grid1.coords t) j : S32x32768.Idx) 0) (0 : Fin 1) : S32x1.Idx) : S64x1.Idx)
      = (ix2 ((((cfg1.win 3).blk t).view.emb j : S64x524288.Idx) 0) (0 : Fin 1) : S64x1.Idx) := by
    funext a; apply Fin.ext
    match a with
    | ⟨0, _⟩ => show win1_1.index t (0 : Fin 2) * 32 + 1 * (j 0).val = win1_3.index t (0 : Fin 2) * 32 + 1 * (j 0).val; omega
    | ⟨1, _⟩ => show win1_1.index t (1 : Fin 2) * 1 + 1 * 0 = 0; omega
  have h2 : (((cfg1.win 2).blk t).view.emb (ix2 (((cfg1.win 3).xinj (grid1.coords t) j : S32x32768.Idx) 0) (0 : Fin 1) : S32x1.Idx) : S64x1.Idx)
      = (ix2 ((((cfg1.win 3).blk t).view.emb j : S64x524288.Idx) 0) (0 : Fin 1) : S64x1.Idx) := by
    funext a; apply Fin.ext
    match a with
    | ⟨0, _⟩ => show win1_2.index t (0 : Fin 2) * 32 + 1 * (j 0).val = win1_3.index t (0 : Fin 2) * 32 + 1 * (j 0).val; omega
    | ⟨1, _⟩ => show win1_2.index t (1 : Fin 2) * 1 + 1 * 0 = 0; omega
  show outFK (V c main_v0 (((cfg1.win 0).blk t).view.emb ((cfg1.win 3).xinj (grid1.coords t) j)))
        (V c main_v1_0 (((cfg1.win 1).blk t).view.emb (ix2 (((cfg1.win 3).xinj (grid1.coords t) j : S32x32768.Idx) 0) (0 : Fin 1) : S32x1.Idx)))
        (V c main_v80 (((cfg1.win 2).blk t).view.emb (ix2 (((cfg1.win 3).xinj (grid1.coords t) j : S32x32768.Idx) 0) (0 : Fin 1) : S32x1.Idx)))
      = outFK (V c main_v0 (((cfg1.win 3).blk t).view.emb j))
        (V c main_v1_0 (ix2 ((((cfg1.win 3).blk t).view.emb j : S64x524288.Idx) 0) (0 : Fin 1) : S64x1.Idx))
        (V c main_v80 (ix2 ((((cfg1.win 3).blk t).view.emb j : S64x524288.Idx) 0) (0 : Fin 1) : S64x1.Idx))
  rw [h0, h1, h2]

/-- What point t writes back to the integer result is block t of wholeU of the three arrays. -/
theorem flushedU_eq (c : Dev nD) (t : Fin cfg1.N) :
    (dat1 V c).flushed 4 t
      = ((cfg1.win 4).blk t).view.read (Elt Ideal) (wholeU (V c main_v0) (V c main_v1_0) (V c main_v80)) := by
  show (cfg1.win 4).cut (grid1.coords t) ((dat1 V c).after 4 t) = _
  rw [after1_4]
  unfold out1_4
  rw [View.canon_unit_zero zeros2]
  simp only [View.ld_unit_zero (S := S32x32768) zeros2, View.ld_unit_zero (S := S32x1) zeros2]
  obtain ⟨e00, e01, e10, e11, e20, e21, e40, e41, b0, b1⟩ := blockIndex1 t
  funext j
  refine (pay3_at (iblk1 V c 0 t) (iblk1 V c 1 t) (iblk1 V c 2 t) ((cfg1.win 4).xinj (grid1.coords t) j)).trans ?_
  have hj0 : (j 0).val < 32 := (j 0).isLt
  have hj1 : (j 1).val < 32768 := (j 1).isLt
  have h0 : (((cfg1.win 0).blk t).view.emb ((cfg1.win 4).xinj (grid1.coords t) j) : S64x524288.Idx) = ((cfg1.win 4).blk t).view.emb j := by
    funext a; apply Fin.ext
    match a with
    | ⟨0, _⟩ => show win1_0.index t (0 : Fin 2) * 32 + 1 * (j 0).val = win1_4.index t (0 : Fin 2) * 32 + 1 * (j 0).val; omega
    | ⟨1, _⟩ => show win1_0.index t (1 : Fin 2) * 32768 + 1 * (j 1).val = win1_4.index t (1 : Fin 2) * 32768 + 1 * (j 1).val; omega
  have h1 : (((cfg1.win 1).blk t).view.emb (ix2 (((cfg1.win 4).xinj (grid1.coords t) j : S32x32768.Idx) 0) (0 : Fin 1) : S32x1.Idx) : S64x1.Idx)
      = (ix2 ((((cfg1.win 4).blk t).view.emb j : S64x524288.Idx) 0) (0 : Fin 1) : S64x1.Idx) := by
    funext a; apply Fin.ext
    match a with
    | ⟨0, _⟩ => show win1_1.index t (0 : Fin 2) * 32 + 1 * (j 0).val = win1_4.index t (0 : Fin 2) * 32 + 1 * (j 0).val; omega
    | ⟨1, _⟩ => show win1_1.index t (1 : Fin 2) * 1 + 1 * 0 = 0; omega
  have h2 : (((cfg1.win 2).blk t).view.emb (ix2 (((cfg1.win 4).xinj (grid1.coords t) j : S32x32768.Idx) 0) (0 : Fin 1) : S32x1.Idx) : S64x1.Idx)
      = (ix2 ((((cfg1.win 4).blk t).view.emb j : S64x524288.Idx) 0) (0 : Fin 1) : S64x1.Idx) := by
    funext a; apply Fin.ext
    match a with
    | ⟨0, _⟩ => show win1_2.index t (0 : Fin 2) * 32 + 1 * (j 0).val = win1_4.index t (0 : Fin 2) * 32 + 1 * (j 0).val; omega
    | ⟨1, _⟩ => show win1_2.index t (1 : Fin 2) * 1 + 1 * 0 = 0; omega
  show outUK (V c main_v0 (((cfg1.win 0).blk t).view.emb ((cfg1.win 4).xinj (grid1.coords t) j)))
        (V c main_v1_0 (((cfg1.win 1).blk t).view.emb (ix2 (((cfg1.win 4).xinj (grid1.coords t) j : S32x32768.Idx) 0) (0 : Fin 1) : S32x1.Idx)))
        (V c main_v80 (((cfg1.win 2).blk t).view.emb (ix2 (((cfg1.win 4).xinj (grid1.coords t) j : S32x32768.Idx) 0) (0 : Fin 1) : S32x1.Idx)))
      = outUK (V c main_v0 (((cfg1.win 4).blk t).view.emb j))
        (V c main_v1_0 (ix2 ((((cfg1.win 4).blk t).view.emb j : S64x524288.Idx) 0) (0 : Fin 1) : S64x1.Idx))
        (V c main_v80 (ix2 ((((cfg1.win 4).blk t).view.emb j : S64x524288.Idx) 0) (0 : Fin 1) : S64x1.Idx))
  rw [h0, h1, h2]

/-- An index of a result array is in point t's block iff each coordinate is in the block's range on its axis. -/
theorem mem_blockF (t : Fin cfg1.N) (i : S64x524288.Idx) :
    i ∈ ((cfg1.win 3).blk t).view.set ↔ ∀ a : Fin 2, win1_3.index t a * S32x32768.size a ≤ (i a).val ∧ (i a).val < win1_3.index t a * S32x32768.size a + S32x32768.size a := by
  show i ∈ ((View.whole main_v81_0).slice (win1_3.rect t)).set ↔ _
  rw [View.set_slice_whole, Rect.mem_set_unit]
  exact Iff.rfl

theorem mem_blockU (t : Fin cfg1.N) (i : S64x524288.Idx) :
    i ∈ ((cfg1.win 4).blk t).view.set ↔ ∀ a : Fin 2, win1_4.index t a * S32x32768.size a ≤ (i a).val ∧ (i a).val < win1_4.index t a * S32x32768.size a + S32x32768.size a := by
  show i ∈ ((View.whole main_v81_1).slice (win1_4.rect t)).set ↔ _
  rw [View.set_slice_whole, Rect.mem_set_unit]
  exact Iff.rfl

/-- Index (r, k) lies in the block of the point whose block index is (r / 32, k / 32768). -/
theorem coverF (i : S64x524288.Idx) : ∃ t : Fin cfg1.N, (cfg1.win 3).flush t = true ∧ i ∈ ((cfg1.win 3).blk t).view.set := by
  have hi0 : (i 0).val < 64 := (i 0).isLt
  have hi1 : (i 1).val < 524288 := (i 1).isLt
  obtain ⟨t, ht⟩ := blockOnto1 ⟨(i 0).val / 32, by omega⟩ ⟨(i 1).val / 32768, by omega⟩
  have q0 : win1_3.index t (0 : Fin 2) = (i 0).val / 32 := congrFun ht 0
  have q1 : win1_3.index t (1 : Fin 2) = (i 1).val / 32768 := congrFun ht 1
  refine ⟨t, flush1_3 t, ?_⟩
  rw [mem_blockF]
  intro a
  match a with
  | ⟨0, _⟩ => show win1_3.index t (0 : Fin 2) * 32 ≤ (i 0).val ∧ (i 0).val < win1_3.index t (0 : Fin 2) * 32 + 32; omega
  | ⟨1, _⟩ => show win1_3.index t (1 : Fin 2) * 32768 ≤ (i 1).val ∧ (i 1).val < win1_3.index t (1 : Fin 2) * 32768 + 32768; omega

theorem coverU (i : S64x524288.Idx) : ∃ t : Fin cfg1.N, (cfg1.win 4).flush t = true ∧ i ∈ ((cfg1.win 4).blk t).view.set := by
  have hi0 : (i 0).val < 64 := (i 0).isLt
  have hi1 : (i 1).val < 524288 := (i 1).isLt
  obtain ⟨t, ht⟩ := blockOnto1 ⟨(i 0).val / 32, by omega⟩ ⟨(i 1).val / 32768, by omega⟩
  have q0 : win1_3.index t (0 : Fin 2) = (i 0).val / 32 := congrFun ht 0
  have q1 : win1_3.index t (1 : Fin 2) = (i 1).val / 32768 := congrFun ht 1
  obtain ⟨e00, e01, e10, e11, e20, e21, e40, e41, b0, b1⟩ := blockIndex1 t
  refine ⟨t, flush1_4 t, ?_⟩
  rw [mem_blockU]
  intro a
  match a with
  | ⟨0, _⟩ => show win1_4.index t (0 : Fin 2) * 32 ≤ (i 0).val ∧ (i 0).val < win1_4.index t (0 : Fin 2) * 32 + 32; omega
  | ⟨1, _⟩ => show win1_4.index t (1 : Fin 2) * 32768 ≤ (i 1).val ∧ (i 1).val < win1_4.index t (1 : Fin 2) * 32768 + 32768; omega

/-- The float result after the last point, as one function of the three arrays the region reads. -/
theorem arr1_F_eq (c : Dev nD) :
    (dat1 V c).arrAt 3 cfg1.N = wholeF (V c main_v0) (V c main_v1_0) (V c main_v80) :=
  (dat1 V c).arrAt_eq_of_cover 3 (wholeF (V c main_v0) (V c main_v1_0) (V c main_v80)) (fun t _ => flushedF_eq V c t) coverF

/-- The integer result after the last point. -/
theorem arr1_U_eq (c : Dev nD) :
    (dat1 V c).arrAt 4 cfg1.N = wholeU (V c main_v0) (V c main_v1_0) (V c main_v80) :=
  (dat1 V c).arrAt_eq_of_cover 4 (wholeU (V c main_v0) (V c main_v1_0) (V c main_v80)) (fun t _ => flushedU_eq V c t) coverU

theorem arr1_F (c : Dev nD) (i : S64x524288.Idx) :
    (dat1 V c).arrAt 3 cfg1.N i = outFK (V c main_v0 i) (V c main_v1_0 (ix2 (i 0) 0)) (V c main_v80 (ix2 (i 0) 0)) :=
  congrFun (arr1_F_eq V c) i

theorem arr1_U (c : Dev nD) (i : S64x524288.Idx) :
    (dat1 V c).arrAt 4 cfg1.N i = outUK (V c main_v0 i) (V c main_v1_0 (ix2 (i 0) 0)) (V c main_v80 (ix2 (i 0) 0)) :=
  congrFun (arr1_U_eq V c) i

/-! ## Region 0: the two per-row statistics as whole one-column arrays -/

/-- Row b's quantised mean, as a [64, 1] array of the flat input. -/
def wholeMu (a0 : S64x524288.Idx → EReal) : S64x1.Idx → EReal := fun i => mu2 a0 (i 0)

/-- Row b's sum of squared deviations from its quantised mean, as a [64, 1] array of the flat input. -/
def wholeVs (a0 : S64x524288.Idx → EReal) : S64x1.Idx → EReal := fun i => vs2 a0 (i 0)

/-- What a point leaves in its first output block, at a block index given whole: row (j 0)'s quantised mean. -/
theorem outMu_at (c : Dev nD) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole)
    (x0 : Vec Ideal S8x524288 .f32) (j : S8x1.Idx) :
    out0_A_1 (F := Ideal) c i arg1 harg1 arg2 harg2 arg3 harg3 arg4 harg4 x0 j
      = muK (∑ k : Fin 524288, x0 (ix2 (j 0) k)) := by
  obtain ⟨r, z, rfl⟩ : ∃ (r : Fin 8) (z : Fin 1), j = ix2 r z := ⟨j 0, j 1, eq_ix2 j⟩
  obtain rfl : z = 0 := Subsingleton.elim z 0
  exact R0.out0_A_1_apply c i arg1 harg1 arg2 harg2 arg3 harg3 arg4 harg4 x0 r

/-- What a point leaves in its second output block: row (j 0)'s sum of squared deviations. -/
theorem outVs_at (c : Dev nD) (i : grid0.Coords) (arg1 : Memref sig .tc .vmem S8x524288 .f32) (harg1 : arg1.IsWhole) (arg2 : Memref sig .tc .vmem S8x1 .f32) (harg2 : arg2.IsWhole) (arg3 : Memref sig .tc .vmem S8x1 .f32) (harg3 : arg3.IsWhole) (arg4 : Memref sig .tc .vmem S8x1 .f32) (harg4 : arg4.IsWhole)
    (x0 : Vec Ideal S8x524288 .f32) (j : S8x1.Idx) :
    out0_A_2 (F := Ideal) c i arg1 harg1 arg2 harg2 arg3 harg3 arg4 harg4 x0 j
      = ∑ k : Fin 524288, sqd (x0 (ix2 (j 0) k)) (muK (∑ k : Fin 524288, x0 (ix2 (j 0) k))) := by
  obtain ⟨r, z, rfl⟩ : ∃ (r : Fin 8) (z : Fin 1), j = ix2 r z := ⟨j 0, j 1, eq_ix2 j⟩
  obtain rfl : z = 0 := Subsingleton.elim z 0
  exact R0.out0_A_2_apply c i arg1 harg1 arg2 harg2 arg3 harg3 arg4 harg4 x0 r

/-- Both statistics of a row depend on the row only through its entries. -/
theorem mu_congr (f g : Fin 524288 → EReal) (h : ∀ k, f k = g k) : muK (∑ k, f k) = muK (∑ k, g k) := by
  rw [show f = g from funext h]

theorem vs_congr (f g : Fin 524288 → EReal) (h : ∀ k, f k = g k) :
    ∑ k, sqd (f k) (muK (∑ k, f k)) = ∑ k, sqd (g k) (muK (∑ k, g k)) := by
  rw [show f = g from funext h]

/-- The index maps of region 0, over its 8 points: the input moves with the outputs on the row axis and every
    column block index is 0; the row block indices stay below 8. -/
theorem blockIndex0 : ∀ t : Fin cfg0.N,
    win0_0.index t (0 : Fin 2) = win0_1.index t (0 : Fin 2) ∧ win0_0.index t (1 : Fin 2) = 0
    ∧ win0_1.index t (1 : Fin 2) = 0
    ∧ win0_2.index t (0 : Fin 2) = win0_1.index t (0 : Fin 2) ∧ win0_2.index t (1 : Fin 2) = 0
    ∧ win0_1.index t (0 : Fin 2) ≤ 7 :=
  (by decide +kernel : ∀ t : Fin grid0.N, _)

/-- Every row block is some point's. -/
theorem blockOnto0 : ∀ q : Fin 8, ∃ t : Fin cfg0.N, win0_1.index t = ![q.val, 0] :=
  (by decide +kernel : ∀ q : Fin 8, ∃ t : Fin grid0.N, win0_1.index t = ![q.val, 0])

/-- Row r of point t's input block is row (block index × 8 + r) of the input array, for a row named through the
    first output's block index, -/
theorem rowRead1 (c : Dev nD) (t : Fin cfg0.N) (j : ((cfg0.win 1).xblock (grid0.coords t)).Idx) (k : Fin 524288) :
    (iblk0 V c 0 t : S8x524288.Idx → EReal) (ix2 (((cfg0.win 1).xinj (grid0.coords t) j : S8x1.Idx) 0) k)
      = (V c main_v0 : S64x524288.Idx → EReal) (ix2 ((((cfg0.win 1).blk t).view.emb j : S64x1.Idx) 0) k) := by
  obtain ⟨e00, e01, e11, e20, e21, b0⟩ := blockIndex0 t
  have hj0 : (j 0).val < 8 := (j 0).isLt
  show (V c main_v0 : S64x524288.Idx → EReal) (((cfg0.win 0).blk t).view.emb (ix2 (((cfg0.win 1).xinj (grid0.coords t) j : S8x1.Idx) 0) k : S8x524288.Idx)) = _
  refine congrArg (V c main_v0 : S64x524288.Idx → EReal) ?_
  funext a; apply Fin.ext
  match a with
  | ⟨0, _⟩ => show win0_0.index t (0 : Fin 2) * 8 + 1 * (j 0).val = win0_1.index t (0 : Fin 2) * 8 + 1 * (j 0).val; omega
  | ⟨1, _⟩ => show win0_0.index t (1 : Fin 2) * 524288 + 1 * k.val = k.val; omega

/-- and through the second's. -/
theorem rowRead2 (c : Dev nD) (t : Fin cfg0.N) (j : ((cfg0.win 2).xblock (grid0.coords t)).Idx) (k : Fin 524288) :
    (iblk0 V c 0 t : S8x524288.Idx → EReal) (ix2 (((cfg0.win 2).xinj (grid0.coords t) j : S8x1.Idx) 0) k)
      = (V c main_v0 : S64x524288.Idx → EReal) (ix2 ((((cfg0.win 2).blk t).view.emb j : S64x1.Idx) 0) k) := by
  obtain ⟨e00, e01, e11, e20, e21, b0⟩ := blockIndex0 t
  have hj0 : (j 0).val < 8 := (j 0).isLt
  show (V c main_v0 : S64x524288.Idx → EReal) (((cfg0.win 0).blk t).view.emb (ix2 (((cfg0.win 2).xinj (grid0.coords t) j : S8x1.Idx) 0) k : S8x524288.Idx)) = _
  refine congrArg (V c main_v0 : S64x524288.Idx → EReal) ?_
  funext a; apply Fin.ext
  match a with
  | ⟨0, _⟩ => show win0_0.index t (0 : Fin 2) * 8 + 1 * (j 0).val = win0_2.index t (0 : Fin 2) * 8 + 1 * (j 0).val; omega
  | ⟨1, _⟩ => show win0_0.index t (1 : Fin 2) * 524288 + 1 * k.val = k.val; omega

/-- The two whole-array functions at an index, their sums spelt out. -/
theorem wholeMu_apply (a0 : S64x524288.Idx → EReal) (i : S64x1.Idx) :
    wholeMu a0 i = muK (∑ k : Fin 524288, a0 (ix2 (i 0) k)) := rfl

theorem wholeVs_apply (a0 : S64x524288.Idx → EReal) (i : S64x1.Idx) :
    wholeVs a0 i = ∑ k : Fin 524288, sqd (a0 (ix2 (i 0) k)) (muK (∑ k : Fin 524288, a0 (ix2 (i 0) k))) := rfl

/-- A one-column array read through an output's block at point t, at a block index: the array at the index the
    block places it at. -/
theorem readCol1 (c : Dev nD) (t : Fin cfg0.N) (G : S64x1.Idx → EReal) (j : ((cfg0.win 1).xblock (grid0.coords t)).Idx) :
    ((cfg0.win 1).blk t).view.read (Elt Ideal) G j = G (((cfg0.win 1).blk t).view.emb j) := rfl

theorem readCol2 (c : Dev nD) (t : Fin cfg0.N) (G : S64x1.Idx → EReal) (j : ((cfg0.win 2).xblock (grid0.coords t)).Idx) :
    ((cfg0.win 2).blk t).view.read (Elt Ideal) G j = G (((cfg0.win 2).blk t).view.emb j) := rfl

/-- What point t writes back to the mean column is block t of wholeMu of the input array. -/
theorem flushedMu_eq (c : Dev nD) (t : Fin cfg0.N) :
    (dat0 V c).flushed 1 t = ((cfg0.win 1).blk t).view.read (Elt Ideal) (wholeMu (V c main_v0)) := by
  show (cfg0.win 1).cut (grid0.coords t) ((dat0 V c).after 1 t) = _
  rw [after0_1]
  unfold outsAt0
  dsimp only
  funext j
  refine Eq.trans ?_ (readCol1 c t (wholeMu (V c main_v0)) j).symm
  refine (outMu_at c (grid0.coords t) (ms0_0 t) (hs0_0 t) (ms0_1 t) (hs0_1 t) (ms0_2 t) (hs0_2 t) scM0_0 (Memref.isWhole_whole _) (iblk0 V c 0 t) ((cfg0.win 1).xinj (grid0.coords t) j)).trans ?_
  refine (mu_congr (fun k => (iblk0 V c 0 t : S8x524288.Idx → EReal) (ix2 (((cfg0.win 1).xinj (grid0.coords t) j : S8x1.Idx) 0) k))
    (fun k => (V c main_v0 : S64x524288.Idx → EReal) (ix2 ((((cfg0.win 1).blk t).view.emb j : S64x1.Idx) 0) k))
    (rowRead1 V c t j)).trans ?_
  exact (wholeMu_apply (V c main_v0) (((cfg0.win 1).blk t).view.emb j)).symm

/-- What point t writes back to the deviation column is block t of wholeVs of the input array. -/
theorem flushedVs_eq (c : Dev nD) (t : Fin cfg0.N) :
    (dat0 V c).flushed 2 t = ((cfg0.win 2).blk t).view.read (Elt Ideal) (wholeVs (V c main_v0)) := by
  show (cfg0.win 2).cut (grid0.coords t) ((dat0 V c).after 2 t) = _
  rw [after0_2]
  unfold outsAt0
  dsimp only
  funext j
  refine Eq.trans ?_ (readCol2 c t (wholeVs (V c main_v0)) j).symm
  refine (outVs_at c (grid0.coords t) (ms0_0 t) (hs0_0 t) (ms0_1 t) (hs0_1 t) (ms0_2 t) (hs0_2 t) scM0_0 (Memref.isWhole_whole _) (iblk0 V c 0 t) ((cfg0.win 2).xinj (grid0.coords t) j)).trans ?_
  refine (vs_congr (fun k => (iblk0 V c 0 t : S8x524288.Idx → EReal) (ix2 (((cfg0.win 2).xinj (grid0.coords t) j : S8x1.Idx) 0) k))
    (fun k => (V c main_v0 : S64x524288.Idx → EReal) (ix2 ((((cfg0.win 2).blk t).view.emb j : S64x1.Idx) 0) k))
    (rowRead2 V c t j)).trans ?_
  exact (wholeVs_apply (V c main_v0) (((cfg0.win 2).blk t).view.emb j)).symm

/-- An index of a one-column output is in point t's block iff each coordinate is in the block's range on its axis. -/
theorem mem_blockMu (t : Fin cfg0.N) (i : S64x1.Idx) :
    i ∈ ((cfg0.win 1).blk t).view.set ↔ ∀ a : Fin 2, win0_1.index t a * S8x1.size a ≤ (i a).val ∧ (i a).val < win0_1.index t a * S8x1.size a + S8x1.size a := by
  show i ∈ ((View.whole main_v1_0).slice (win0_1.rect t)).set ↔ _
  rw [View.set_slice_whole, Rect.mem_set_unit]
  exact Iff.rfl

theorem mem_blockVs (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v1_1).slice (win0_2.rect t)).set ↔ _
  rw [View.set_slice_whole, Rect.mem_set_unit]
  exact Iff.rfl

/-- Row b of a one-column output lies in the block of the point whose row block index is b / 8. -/
theorem coverMu (i : S64x1.Idx) : ∃ t : Fin cfg0.N, (cfg0.win 1).flush t = true ∧ i ∈ ((cfg0.win 1).blk t).view.set := by
  have hi0 : (i 0).val < 64 := (i 0).isLt
  have hi1 : (i 1).val < 1 := (i 1).isLt
  obtain ⟨t, ht⟩ := blockOnto0 ⟨(i 0).val / 8, by omega⟩
  have q0 : win0_1.index t (0 : Fin 2) = (i 0).val / 8 := congrFun ht 0
  have q1 : win0_1.index t (1 : Fin 2) = 0 := congrFun ht 1
  refine ⟨t, flush0_1 t, ?_⟩
  rw [mem_blockMu]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 1 ≤ (i 1).val ∧ (i 1).val < win0_1.index t (1 : Fin 2) * 1 + 1; omega

theorem coverVs (i : S64x1.Idx) : ∃ t : Fin cfg0.N, (cfg0.win 2).flush t = true ∧ i ∈ ((cfg0.win 2).blk t).view.set := by
  have hi0 : (i 0).val < 64 := (i 0).isLt
  have hi1 : (i 1).val < 1 := (i 1).isLt
  obtain ⟨t, ht⟩ := blockOnto0 ⟨(i 0).val / 8, by omega⟩
  have q0 : win0_1.index t (0 : Fin 2) = (i 0).val / 8 := congrFun ht 0
  obtain ⟨e00, e01, e11, e20, e21, b0⟩ := blockIndex0 t
  refine ⟨t, flush0_2 t, ?_⟩
  rw [mem_blockVs]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1 ≤ (i 1).val ∧ (i 1).val < win0_2.index t (1 : Fin 2) * 1 + 1; omega

/-- The mean column after the last point, as one function of the input array. -/
theorem arr0_mu_eq (c : Dev nD) : (dat0 V c).arrAt 1 cfg0.N = wholeMu (V c main_v0) :=
  (dat0 V c).arrAt_eq_of_cover 1 (wholeMu (V c main_v0)) (fun t _ => flushedMu_eq V c t) coverMu

/-- The deviation column after the last point. -/
theorem arr0_vs_eq (c : Dev nD) : (dat0 V c).arrAt 2 cfg0.N = wholeVs (V c main_v0) :=
  (dat0 V c).arrAt_eq_of_cover 2 (wholeVs (V c main_v0)) (fun t _ => flushedVs_eq V c t) coverVs

/-- The input array is a window no point writes back: it ends as the region found it. -/
theorem arr0_x (c : Dev nD) : (dat0 V c).arrAt 0 cfg0.N = V c (Pipeline.arrRef spec0 0) :=
  ((dat0 V c).arrAt_in 0 rfl cfg0.N).trans (A_eq0 V c 0)

theorem arr0_mu (c : Dev nD) (b : Fin 64) :
    ((dat0 V c).arrAt 1 cfg0.N : S64x1.Idx → EReal) (ix2 b 0) = mu2 (V c main_v0) b :=
  congrFun (arr0_mu_eq V c) (ix2 b 0)

theorem arr0_vs (c : Dev nD) (b : Fin 64) :
    ((dat0 V c).arrAt 2 cfg0.N : S64x1.Idx → EReal) (ix2 b 0) = vs2 (V c main_v0) b :=
  congrFun (arr0_vs_eq V c) (ix2 b 0)

end Cert.KernelIdeal.KC

end
-- ==== Proof.IntSpec.lean ====
/-
  The two word-level routines of the integer GroupNorm, as scalar functions of 32-bit words.

  isqrtI: the fixed-point inverse square root of a variance word w (8 fractional bits) through a 32-entry table.
    cnt  = #{k < 16 : w ≥ 2^k}                       the position of the leading bit, plus one
    msb  = max (cnt - 1) 0
    xred = w << (15 - msb)                           the word normalised to bit 15
    idx  = (xred >> 10) & 31                         its top five bits below the leading one (32 added if negative)
    lv   = table[idx]                                the table read, the position clamped into the table
    e    = 24 - msb,  e2 = ⌊e / 2⌋,  odd = e - 2·e2
    lv'  = (lv · 46340) >> 15  when odd = 1          the factor 1/√2 in 15 fractional bits
    sh   = 15 - e2;  res = lv' >> sh when sh ≥ 0, lv' << (-sh) otherwise
    a zero variance gives 65535; the result is clipped to [0, 65535].

  remI: the floored remainder of a word by 256 (the remainder that takes the divisor's sign), written as the
  truncated remainder corrected by the divisor when the signs differ; it is the word's low byte.

  Each operation is the word operation the host program's array operation is at one element: shifts and the truncated
  division and remainder are the host's, the comparisons are signed, the selections are on a one-bit condition.
-/
import Idealize.ShloMosaic.PureOps.Reduce
import proofs.«400612_j57930518889080_3_alg».proof.Proof.Spec

noncomputable section

namespace Cert.GN

open Idealize.ShloMosaic Idealize.ShloMosaic.ValueIdx

/-! ## The pieces of the integer routine -/

/-- The sign of a word as a word: 0, -1 or 1. -/
def signW (x : BitVec 32) : BitVec 32 := if x = 0 then 0 else if x.msb then -1 else 1

/-- The indicator, widened to a word, of w ≥ 2^k (signed compare against 1 shifted left by k). -/
def geBit (w : BitVec 32) (k : Fin 16) : BitVec 32 :=
  (IntOp.cmpi .sge w (IntOp.shli .host 1#32 (BitVec.ofNat 32 k.val))).setWidth 32

/-- The number of k < 16 with w ≥ 2^k. -/
def cntW (w : BitVec 32) : BitVec 32 := (Finset.univ : Finset (Fin 16)).fold IntOp.addi 0#32 (geBit w)

/-- The leading-bit position, clamped at 0 from below. -/
def msbW (w : BitVec 32) : BitVec 32 := IntOp.maxsi (IntOp.subi (cntW w) 1#32) 0#32

/-- The table position: five bits of the normalised word, 32 added to a negative one. -/
def idx0W (w : BitVec 32) : BitVec 32 :=
  IntOp.andi (IntOp.shrsi .host (IntOp.shli .host w (IntOp.subi 15#32 (msbW w))) 10#32) 31#32
def idxW (w : BitVec 32) : BitVec 32 :=
  Scalar.select (IntOp.cmpi .slt (idx0W w) 0#32) (IntOp.addi (idx0W w) 32#32) (idx0W w)

/-- The table read at a position word: the position read signed and clamped into [0, 31]. -/
def lutAt (lut : IVec SL 32) (i : BitVec 32) : BitVec 32 := lut (ix1 ⟨min i.toInt.toNat (32 - 1), by omega⟩)

/-- ⌊e / 2⌋ from the truncated quotient: one less when the signs of e and 2 differ and the remainder is not 0. -/
def fdiv2W (e : BitVec 32) : BitVec 32 :=
  Scalar.select
    (IntOp.andi (IntOp.cmpi .ne (signW e) (signW 2#32)) (IntOp.cmpi .ne (IntOp.remsi .host e 2#32) 0#32))
    (IntOp.subi (IntOp.divsi .host e 2#32) 1#32) (IntOp.divsi .host e 2#32)

/-- e = 24 - msb and its floored half. -/
def eW (w : BitVec 32) : BitVec 32 := IntOp.subi 24#32 (msbW w)
def e2W (w : BitVec 32) : BitVec 32 := fdiv2W (eW w)

/-- The table value, scaled by 46340 / 2^15 when e is odd. -/
def lvW (lut : IVec SL 32) (w : BitVec 32) : BitVec 32 :=
  Scalar.select (IntOp.cmpi .eq (IntOp.subi (eW w) (IntOp.muli 2#32 (e2W w))) 1#32)
    (IntOp.shrsi .host (IntOp.muli (lutAt lut (idxW w)) 46340#32) 15#32) (lutAt lut (idxW w))

/-- The final shift amount 15 - e2, and the shifted value. -/
def shW (w : BitVec 32) : BitVec 32 := IntOp.subi 15#32 (e2W w)
def resW (lut : IVec SL 32) (w : BitVec 32) : BitVec 32 :=
  Scalar.select (IntOp.cmpi .sge (shW w) 0#32)
    (IntOp.shrsi .host (lvW lut w) (IntOp.maxsi (shW w) 0#32))
    (IntOp.shli .host (lvW lut w) (IntOp.maxsi (-(shW w)) 0#32))

/-- The integer routine: saturate at a zero variance, clip to [0, 65535]. -/
def isqrtI (lut : IVec SL 32) (w : BitVec 32) : BitVec 32 :=
  IntOp.minsi 65535#32 (IntOp.maxsi 0#32 (Scalar.select (IntOp.cmpi .eq w 0#32) 65535#32 (resW lut w)))

/-! ## The floored remainder by 256 -/

/-- The divisor as the routine holds it: 1 in place of a zero divisor, else 256. -/
def remD : BitVec 32 := Scalar.select (IntOp.cmpi .eq 256#32 0#32) 1#32 256#32

/-- The floored remainder: the truncated remainder r, plus the divisor when r ≠ 0 and r's sign is not the divisor's. -/
def remI (w : BitVec 32) : BitVec 32 :=
  Scalar.select
    (IntOp.andi (IntOp.cmpi .ne (IntOp.cmpi .slt (IntOp.remsi .host w remD) 0#32) (IntOp.cmpi .slt remD 0#32))
      (IntOp.cmpi .ne (IntOp.remsi .host w remD) 0#32))
    (IntOp.addi (IntOp.remsi .host w remD) remD) (IntOp.remsi .host w remD)

theorem remD_eq : remD = 256#32 := by decide

/-- The low byte of a word is its value modulo 256. -/
theorem toNat_and_255 (w : BitVec 32) : (w &&& 255#32).toNat = w.toNat % 256 := by
  rw [BitVec.toNat_and]
  show w.toNat &&& (2 ^ 8 - 1) = w.toNat % 256
  rw [Nat.and_two_pow_sub_one_eq_mod]

/-- The truncated remainder by 256 meets no corner of the division. -/
theorem remsi_256 (w : BitVec 32) : IntOp.remsi .host w 256#32 = w.srem 256#32 := by
  have hc : ¬ IntOp.SDivCorner w 256#32 := by
    intro h; rcases h with h | ⟨_, h⟩ <;> exact absurd h (by decide)
  simp only [IntOp.remsi, if_neg hc]

/-- A word is below 0 exactly when its sign bit is set. -/
theorem cmpi_slt_zero (r : BitVec 32) : IntOp.cmpi .slt r 0#32 = BitVec.ofBool r.msb := by
  unfold IntOp.cmpi
  simp only [BitVec.slt, BitVec.msb_eq_toInt]
  rfl

/-- In two's complement the floored remainder by 256 is the low byte: for a word with a clear sign bit the truncated
    remainder is already the low byte; for a negative word w the truncated remainder is -((-w) mod 256), which is 0 when the
    low byte is 0 and otherwise negative, and adding 256 gives 256 - ((-w) mod 256) = w mod 256. -/
theorem remI_eq_and (w : BitVec 32) : remI w = w &&& 255#32 := by
  unfold remI
  rw [remD_eq, remsi_256, cmpi_slt_zero, cmpi_slt_zero]
  rw [BitVec.srem_eq]
  have h256 : (256#32 : BitVec 32).msb = false := by decide
  rw [h256]
  cases hm : w.msb
  · simp only []
    have hlt : (w % 256#32).toNat < 256 := by rw [BitVec.toNat_umod]; exact Nat.mod_lt _ (by decide)
    have hmsb : (w % 256#32).msb = false := BitVec.msb_eq_false_iff_two_mul_lt.mpr (by omega)
    rw [hmsb]
    have hc : IntOp.andi (IntOp.cmpi .ne (BitVec.ofBool false) (BitVec.ofBool false)) (IntOp.cmpi .ne (w % 256#32) 0#32) = 0#1 := by
      show (0#1 &&& _) = 0#1
      exact BitVec.zero_and
    rw [hc, select_zero]
    apply BitVec.eq_of_toNat_eq
    rw [toNat_and_255, BitVec.toNat_umod]; rfl
  · simp only []
    have hn : 2 ^ 31 ≤ w.toNat := by
      have := BitVec.msb_eq_true_iff_two_mul_ge.mp hm; omega
    have hwl : w.toNat < 2 ^ 32 := w.isLt
    generalize hu : -w % 256#32 = u
    have hut : u.toNat = (2 ^ 32 - w.toNat) % 256 := by
      rw [← hu, BitVec.toNat_umod, BitVec.toNat_neg]
      show (2 ^ 32 - w.toNat) % 2 ^ 32 % 256 = _
      omega
    have hk : u.toNat < 256 := by omega
    by_cases h0 : u = 0#32
    · subst h0
      have hc : IntOp.andi (IntOp.cmpi .ne (BitVec.ofBool (-(0#32 : BitVec 32)).msb) (BitVec.ofBool false)) (IntOp.cmpi .ne (-(0#32 : BitVec 32)) 0#32) = 0#1 := by decide
      rw [hc, select_zero]
      apply BitVec.eq_of_toNat_eq
      rw [toNat_and_255]
      have : (0#32 : BitVec 32).toNat = 0 := rfl
      rw [this] at hut
      show 0 = w.toNat % 256
      omega
    · have hpos : 1 ≤ u.toNat := by
        rcases Nat.eq_zero_or_pos u.toNat with h | h
        · exact absurd (BitVec.eq_of_toNat_eq h) h0
        · exact h
      have hrt : (-u).toNat = 2 ^ 32 - u.toNat := by
        rw [BitVec.toNat_neg]; show (2 ^ 32 - u.toNat) % 2 ^ 32 = _; omega
      have hmsb : (-u).msb = true := BitVec.msb_eq_true_iff_two_mul_ge.mpr (by omega)
      have hne : (-u != 0#32) = true := by
        rw [bne_iff_ne]; intro h; have := congrArg BitVec.toNat h; rw [hrt] at this
        have h00 : (0#32 : BitVec 32).toNat = 0 := rfl
        omega
      have hc : IntOp.andi (IntOp.cmpi .ne (BitVec.ofBool (-u).msb) (BitVec.ofBool false)) (IntOp.cmpi .ne (-u) 0#32) = 1#1 := by
        rw [hmsb]
        show (IntOp.cmpi .ne (BitVec.ofBool true) (BitVec.ofBool false)) &&& BitVec.ofBool (-u != 0#32) = 1#1
        rw [hne]; decide
      rw [hc, select_one]
      apply BitVec.eq_of_toNat_eq
      rw [toNat_and_255]
      show (-u + 256#32).toNat = _
      rw [BitVec.toNat_add, hrt]
      show (2 ^ 32 - u.toNat + 256) % 2 ^ 32 = w.toNat % 256
      omega

end Cert.GN

end
-- ==== Proof.KInt.lean ====
/-
  The host arithmetic between the two regions, read at one batch row: the program's chain of array operations gives, at row b,
  the quantised inverse standard deviation that the scalar specification computes from row b's sum of squared deviations.

  Everything in the chain is elementwise except two steps, which are read here once as whole arrays:
    * the count of the powers 2⁰ … 2¹⁵ not above a row's word (the word repeated along 16 lanes, compared with 1 shifted
      left by the lane number, the indicators widened to words and summed along the lanes) is, row by row, the scalar count;
    * the table lookup (a gather of the rank-1 table at each row's position word) is, row by row, the table read at the
      position taken signed and clamped into the table.
  With these two the chain at row b and the scalar routine are the same expression.
-/
import Idealize.ShloMosaic.PureOps.Reduce
import Idealize.ShloMosaic.Lib.ValueIdx
import proofs.«400612_j57930518889080_3_alg».proof.Proof.KHostFn
import proofs.«400612_j57930518889080_3_alg».proof.Proof.IntSpec

noncomputable section

namespace Cert.KernelIdeal.KH

open Idealize.ShloMosaic Idealize.ShloMosaic.ValueIdx Cert.KernelIdeal Cert.KernelIdeal.Gen Cert.GN

/-! ## Indices and broadcasts -/

/-- Every index of a 64 × 1 array is a row with column 0. -/
theorem exists_ix2_col0 (i : S64x1.Idx) : ∃ b : Fin 64, i = ix2 b (0 : Fin 1) :=
  ⟨i 0, by
    funext a; match a with
    | ⟨0, _⟩ => rfl
    | ⟨1, _⟩ => exact Fin.eq_zero _⟩

/-- A 64 × 1 array viewed as 64 × 1 × 1 and then laid along 16 lanes reads the array's row. -/
theorem bcast_row_apply {α : Type} (h1 : S64x1.BroadcastsInDim S64x1x1 ![0, 1])
    (h2 : S64x1x1.BroadcastsInDim S64x1x16 ![0, 1, 2]) (x : S64x1.Idx → α) (b : Fin 64) (k : Fin 16) :
    broadcastInDim S64x1x16 ![0, 1, 2] h2 (broadcastInDim S64x1x1 ![0, 1] h1 x) (ix3 b (0 : Fin 1) k) = x (ix2 b (0 : Fin 1)) := by
  simp only [broadcastInDim]
  congr 1
  funext a
  match a with
  | ⟨0, _⟩ => rfl
  | ⟨1, _⟩ => rfl

/-- A 16-vector viewed as 1 × 1 × 16 and then repeated down 64 rows reads the vector's lane. -/
theorem bcast_lane_apply {α : Type} (h1 : S16.BroadcastsInDim S1x1x16 ![2])
    (h2 : S1x1x16.BroadcastsInDim S64x1x16 ![0, 1, 2]) (p : S16.Idx → α) (b : Fin 64) (k : Fin 16) :
    broadcastInDim S64x1x16 ![0, 1, 2] h2 (broadcastInDim S1x1x16 ![2] h1 p) (ix3 b (0 : Fin 1) k) = p (ix1 k) := by
  simp only [broadcastInDim]
  congr 1
  funext a
  match a with
  | ⟨0, _⟩ => rfl

/-- A 64 × 1 array viewed as 64 × 1 × 1 reads, at the start-index position of row b, the array's row b. -/
theorem bcast_take_apply {α : Type} (h1 : S64x1.BroadcastsInDim S64x1x1 ![0, 1]) (x : S64x1.Idx → α) (b : Fin 64) :
    broadcastInDim S64x1x1 ![0, 1] h1 x (takeIdx (ix2 b (0 : Fin 1))) = x (ix2 b (0 : Fin 1)) := by
  simp only [broadcastInDim]
  congr 1
  funext a
  match a with
  | ⟨0, _⟩ => exact Fin.ext rfl
  | ⟨1, _⟩ => exact Fin.ext rfl

/-- Row b of the 64 × 1 result with lane k inserted on the reduced axis is position (b, 0, k). -/
theorem lift_eq (h : S64x1x16.Reduces [2] S64x1) (b : Fin 64) (k : Fin 16) :
    h.lift (ix2 b (0 : Fin 1)) k = ix3 b (0 : Fin 1) k := by
  funext a
  match a with
  | ⟨0, _⟩ => rfl
  | ⟨1, _⟩ => rfl
  | ⟨2, _⟩ => rfl

/-! ## The two steps that are not elementwise -/

/-- The count of the powers 2⁰ … 2¹⁵ not above each row's word, as the program computes it. -/
theorem cnt_fun (x : IVec S64x1 32) (h1 : S64x1.BroadcastsInDim S64x1x1 ![0, 1]) (h2 : S64x1x1.BroadcastsInDim S64x1x16 ![0, 1, 2])
    (h3 : S16.BroadcastsInDim S1x1x16 ![2]) (h4 : S1x1x16.BroadcastsInDim S64x1x16 ![0, 1, 2]) (h5 : S_.BroadcastsInDim S16 ![])
    (hlt : 1 < 32) (hr : S64x1x16.ReducesTo [2] S64x1) (hS : 0 < S_.numel) :
    Host.reduce IntOp.addi
      (extui 32 (cmpi .sge (broadcastInDim S64x1x16 ![0, 1, 2] h2 (broadcastInDim S64x1x1 ![0, 1] h1 x))
        (broadcastInDim S64x1x16 ![0, 1, 2] h4 (broadcastInDim S1x1x16 ![2] h3
          (Host.shli (broadcastInDim S16 ![] h5 (constantI S_ 32 1#32)) (iotaInDim S16 32 0))))) hlt)
      (constantI S_ 32 0#32) hr hS
    = fun i => cntW (x i) := by
  funext i
  obtain ⟨b, rfl⟩ := exists_ix2_col0 i
  have hR : S64x1x16.Reduces [2] S64x1 := by decide
  refine (Host.reduce_eq_fold_single IntOp.addi _ _ hr hR hS (ix2 b (0 : Fin 1))).trans ?_
  have hfun : ∀ k : Fin 16,
      (extui 32 (cmpi .sge (broadcastInDim S64x1x16 ![0, 1, 2] h2 (broadcastInDim S64x1x1 ![0, 1] h1 x))
        (broadcastInDim S64x1x16 ![0, 1, 2] h4 (broadcastInDim S1x1x16 ![2] h3
          (Host.shli (broadcastInDim S16 ![] h5 (constantI S_ 32 1#32)) (iotaInDim S16 32 0))))) hlt)
        (hR.lift (ix2 b (0 : Fin 1)) k) = geBit (x (ix2 b (0 : Fin 1))) k := by
    intro k
    rw [lift_eq hR b k]
    show (IntOp.cmpi .sge (broadcastInDim S64x1x16 ![0, 1, 2] h2 (broadcastInDim S64x1x1 ![0, 1] h1 x) (ix3 b (0 : Fin 1) k))
        (broadcastInDim S64x1x16 ![0, 1, 2] h4 (broadcastInDim S1x1x16 ![2] h3
            (Host.shli (broadcastInDim S16 ![] h5 (constantI S_ 32 1#32)) (iotaInDim S16 32 0))) (ix3 b (0 : Fin 1) k))).setWidth 32 = _
    rw [bcast_row_apply, bcast_lane_apply]
    rfl
  exact congrArg (fun f : Fin 16 → BitVec 32 => (Finset.univ : Finset (Fin 16)).fold IntOp.addi 0#32 f) (funext hfun)

/-- The gather's dimension numbers are those of a table lookup. -/
theorem gather_dims_eq :
    gather_S32_S64x1x1_S64x1_n_0_n_n_0_2_1 = takeDims 32 64 1 gather_S32_S64x1x1_S64x1_n_0_n_n_0_2_1_wf := rfl

/-- The gather at row b: the table at row b's start index, read signed and clamped into the table. -/
theorem gather_take_row (lut : IVec S32 32) (x : IVec S64x1x1 32) (b : Fin 64) :
    Host.gather gather_S32_S64x1x1_S64x1_n_0_n_n_0_2_1 lut x (ix2 b (0 : Fin 1)) = lutAt lut (x (takeIdx (ix2 b (0 : Fin 1)))) := by
  rw [gather_dims_eq]
  exact gather_take_apply (N := 32) (R := 64) (C := 1) (by decide) gather_S32_S64x1x1_S64x1_n_0_n_n_0_2_1_wf lut x (ix2 b (0 : Fin 1))

/-- The table read by the gather: each row's position word, read signed and clamped into the table. -/
theorem gather_fun (lut : IVec S32 32) (idx : IVec S64x1 32) (h1 : S64x1.BroadcastsInDim S64x1x1 ![0, 1]) :
    Host.gather gather_S32_S64x1x1_S64x1_n_0_n_n_0_2_1 lut (broadcastInDim S64x1x1 ![0, 1] h1 idx)
    = fun i => lutAt lut (idx i) := by
  funext i
  obtain ⟨b, rfl⟩ := exists_ix2_col0 i
  show _ = lutAt lut (idx (ix2 b (0 : Fin 1)))
  rw [gather_take_row, bcast_take_apply]

/-! ## The chain at one row -/

/-- The tail of the chain on scalars: saturate at a zero word, clip to [0, 65535], convert, divide by 256, quantise. -/
def tailE (w r : BitVec 32) : EReal :=
  q168 (Ideal.div ((((IntOp.minsi 65535#32 (IntOp.maxsi 0#32 (Scalar.select (IntOp.cmpi .eq w 0#32) 65535#32 r))).toInt : ℝ) : EReal)) c256)

/-- The table value corrected for an odd exponent, from the table value lv, the exponent e and its floored half e2. -/
def lvS (lv e e2 : BitVec 32) : BitVec 32 :=
  Scalar.select (IntOp.cmpi .eq (IntOp.subi e (IntOp.muli 2#32 e2)) 1#32) (IntOp.shrsi .host (IntOp.muli lv 46340#32) 15#32) lv

/-- The corrected table value shifted by 15 - e2: to the right when that is at least 0, to the left by its negation otherwise. -/
def resS (lv e e2 : BitVec 32) : BitVec 32 :=
  Scalar.select (IntOp.cmpi .sge (IntOp.subi 15#32 e2) 0#32)
    (IntOp.shrsi .host (lvS lv e e2) (IntOp.maxsi (IntOp.subi 15#32 e2) 0#32))
    (IntOp.shli .host (lvS lv e e2) (IntOp.maxsi (-(IntOp.subi 15#32 e2)) 0#32))

/-- The last stretch at an index. -/
theorem hostK_e_apply (w r : IVec S64x1 32) (i : S64x1.Idx) : hostK_e (F := Ideal) w r i = tailE (w i) (r i) := rfl

/-- The correction and the shift, then the last stretch, at an index. -/
theorem hostK_d_apply (w lv e e2 : IVec S64x1 32) (i : S64x1.Idx) :
    hostK_d (F := Ideal) w lv e e2 i = tailE (w i) (resS (lv i) (e i) (e2 i)) := rfl

/-- The floored halving of the exponent, then the rest, at an index. -/
theorem hostK_c_apply (w lv e : IVec S64x1 32) (i : S64x1.Idx) :
    hostK_c (F := Ideal) w lv e (constantI S_ 32 2#32) i = tailE (w i) (resS (lv i) (e i) (fdiv2W (e i))) := rfl

/-- On scalars the stretches compose to the integer routine followed by the second quantisation. -/
theorem tailE_isqrtI (lut : IVec S32 32) (w : BitVec 32) :
    tailE w (resS (lutAt lut (idxW w)) (eW w) (fdiv2W (eW w))) = q168 (Ideal.div ((((isqrtI lut w).toInt : ℝ) : EReal)) c256) := rfl

/-! The elementwise word operations at an index, and a broadcast word constant. -/

section Pointwise
variable {s : Shape} {w : Nat}

theorem subi_apply (x y : IVec s w) (i : s.Idx) : subi x y i = IntOp.subi (x i) (y i) := rfl
theorem addi_apply (x y : IVec s w) (i : s.Idx) : addi x y i = IntOp.addi (x i) (y i) := rfl
theorem andi_apply (x y : IVec s w) (i : s.Idx) : andi x y i = IntOp.andi (x i) (y i) := rfl
theorem maxsi_apply (x y : IVec s w) (i : s.Idx) : maxsi x y i = IntOp.maxsi (x i) (y i) := rfl
theorem cmpi_apply (p : CmpIPredicate) (x y : IVec s w) (i : s.Idx) : cmpi p x y i = IntOp.cmpi p (x i) (y i) := rfl
theorem shli_apply (x y : IVec s w) (i : s.Idx) : Host.shli x y i = IntOp.shli .host (x i) (y i) := rfl
theorem shrsi_apply (x y : IVec s w) (i : s.Idx) : Host.shrsi x y i = IntOp.shrsi .host (x i) (y i) := rfl
theorem bcast_constI_apply (h : S_.BroadcastsInDim S64x1 ![]) (c : BitVec 32) (i : S64x1.Idx) :
    broadcastInDim S64x1 ![] h (constantI S_ 32 c) i = c := rfl

end Pointwise

/-- The chain from the variance word on, as a function of the array of variance words. -/
def hostK_b2 {F : FTy → Type} [FloatOps F] (lut : IVec S32 32) (main_v14 : IVec S64x1 32) : FVec F S64x1 .f32 :=
  let main_v15 : IVec S16 32 := iotaInDim S16 32 0
  let main_c_5 : IVec S_ 32 := constantI S_ 32 1#32
  let main_v16 : IVec S16 32 := broadcastInDim S16 ![] bcast_S_S16 main_c_5
  let main_v17 : IVec S16 32 := Host.shli main_v16 main_v15
  let main_v18 : IVec S64x1x1 32 := broadcastInDim S64x1x1 ![0, 1] bcast_S64x1_S64x1x1_0_1 main_v14
  let main_v19 : IVec S1x1x16 32 := broadcastInDim S1x1x16 ![2] bcast_S16_S1x1x16_2 main_v17
  let main_v20 : IVec S64x1x16 32 := broadcastInDim S64x1x16 ![0, 1, 2] bcast_S64x1x1_S64x1x16_0_1_2 main_v18
  let main_v21 : IVec S64x1x16 32 := broadcastInDim S64x1x16 ![0, 1, 2] bcast_S1x1x16_S64x1x16_0_1_2 main_v19
  let main_v22 : IVec S64x1x16 1 := cmpi .sge main_v20 main_v21
  let main_v23 : IVec S64x1x16 32 := extui 32 main_v22 natLt_1_32
  let main_c_6 : IVec S_ 32 := constantI S_ 32 0#32
  let main_v24 : IVec S64x1 32 := Host.reduce IntOp.addi main_v23 main_c_6 reducesTo_S64x1x16_S64x1_d2 h_S_
  let main_c_7 : IVec S_ 32 := constantI S_ 32 1#32
  let main_v25 : IVec S64x1 32 := broadcastInDim S64x1 ![] bcast_S_S64x1 main_c_7
  let main_v26 : IVec S64x1 32 := subi main_v24 main_v25
  let main_c_8 : IVec S_ 32 := constantI S_ 32 0#32
  let main_v27 : IVec S64x1 32 := broadcastInDim S64x1 ![] bcast_S_S64x1 main_c_8
  let main_v28 : IVec S64x1 32 := maxsi main_v26 main_v27
  let main_c_9 : IVec S_ 32 := constantI S_ 32 15#32
  let main_v29 : IVec S64x1 32 := broadcastInDim S64x1 ![] bcast_S_S64x1 main_c_9
  let main_v30 : IVec S64x1 32 := subi main_v29 main_v28
  let main_v31 : IVec S64x1 32 := Host.shli main_v14 main_v30
  let main_c_10 : IVec S_ 32 := constantI S_ 32 10#32
  let main_v32 : IVec S64x1 32 := broadcastInDim S64x1 ![] bcast_S_S64x1 main_c_10
  let main_v33 : IVec S64x1 32 := Host.shrsi main_v31 main_v32
  let main_c_11 : IVec S_ 32 := constantI S_ 32 31#32
  let main_v34 : IVec S64x1 32 := broadcastInDim S64x1 ![] bcast_S_S64x1 main_c_11
  let main_v35 : IVec S64x1 32 := andi main_v33 main_v34
  let main_c_12 : IVec S_ 32 := constantI S_ 32 0#32
  let main_v36 : IVec S64x1 32 := broadcastInDim S64x1 ![] bcast_S_S64x1 main_c_12
  let main_v37 : IVec S64x1 1 := cmpi .slt main_v35 main_v36
  let main_c_13 : IVec S_ 32 := constantI S_ 32 32#32
  let main_v38 : IVec S64x1 32 := broadcastInDim S64x1 ![] bcast_S_S64x1 main_c_13
  let main_v39 : IVec S64x1 32 := addi main_v35 main_v38
  let main_v40 : IVec S64x1 32 := select main_v37 main_v39 main_v35
  let main_v41 : IVec S64x1x1 32 := broadcastInDim S64x1x1 ![0, 1] bcast_S64x1_S64x1x1_0_1 main_v40
  let main_v42 : IVec S64x1 32 := Host.gather gather_S32_S64x1x1_S64x1_n_0_n_n_0_2_1 lut main_v41
  let main_c_14 : IVec S_ 32 := constantI S_ 32 24#32
  let main_v43 : IVec S64x1 32 := broadcastInDim S64x1 ![] bcast_S_S64x1 main_c_14
  let main_v44 : IVec S64x1 32 := subi main_v43 main_v28
  let main_c_15 : IVec S_ 32 := constantI S_ 32 2#32
  hostK_c (F := F) main_v14 main_v42 main_v44 main_c_15

/-- The chain from the clipped ⌊variance·256⌋ on first makes the variance words, then runs the integer chain on them. -/
theorem hostK_b_eq (lut : IVec S32 32) (v9 : FVec Ideal S64x1 .f32) :
    hostK_b (F := Ideal) lut v9
      = hostK_b2 (F := Ideal) lut (fptosi 32 (mulf (Host.divf v9 (broadcastInDim S64x1 ![] bcast_S_S64x1 (constant S_ .f32 0x43800000#32)))
          (broadcastInDim S64x1 ![] bcast_S_S64x1 (constant S_ .f32 0x43800000#32)))) := rfl

/-- The integer chain at row b is the integer routine on row b's variance word, then the second quantisation. -/
theorem hostK_b2_apply (lut : IVec S32 32) (wv : IVec S64x1 32) (b : Fin 64) :
    hostK_b2 (F := Ideal) lut wv (ix2 b (0 : Fin 1))
      = q168 (Ideal.div ((((isqrtI lut (wv (ix2 b (0 : Fin 1)))).toInt : ℝ) : EReal)) c256) := by
  simp only [hostK_b2]
  rw [cnt_fun, gather_fun, hostK_c_apply]
  simp only [subi_apply, addi_apply, andi_apply, maxsi_apply, cmpi_apply, shli_apply, shrsi_apply, select_apply, bcast_constI_apply]
  exact tailE_isqrtI lut (wv (ix2 b (0 : Fin 1)))

/-- From the clipped ⌊variance·256⌋ on: the chain at row b is the scalar routine on that row's value. -/
theorem hostK_b_apply (lut : IVec S32 32) (v9 : FVec Ideal S64x1 .f32) (b : Fin 64) :
    hostK_b (F := Ideal) lut v9 (ix2 b (0 : Fin 1)) = sigmaOfVarQ (isqrtI lut) (Ideal.div (v9 (ix2 b (0 : Fin 1))) c256) := by
  rw [hostK_b_eq, hostK_b2_apply]
  rfl

/-- The host arithmetic at row b: the quantised inverse standard deviation of row b's sum of squared deviations. -/
theorem hostK_apply (vs : FVec Ideal S64x1 .f32) (lut : IVec S32 32) (b : Fin 64) :
    hostK (F := Ideal) vs lut (ix2 b (0 : Fin 1)) = sigmaK (isqrtI lut) (vs (ix2 b (0 : Fin 1))) := by
  unfold hostK
  simp only []
  rw [hostK_b_apply]
  rfl

end Cert.KernelIdeal.KH

end
-- ==== Proof.KTop.lean ====
/-
  The kernel program's two results are the specification's two arrays.

  Through the program: the first host operation flattens x to rows; the statistics region leaves, per row, the
  quantised mean and the raw sum of squared deviations of the flat rows; the host operations between the regions turn
  that sum into the quantised inverse standard deviation through the integer routine; the normalising region computes
  both results element by element from the flat rows and the two per-row columns; the last two host operations
  restore the shape. Each step is read at the buffer contents of its boundary, and the run of the whole program ends
  with the result buffers at the last boundary's contents.
-/
import proofs.«400612_j57930518889080_3_alg».proof.Proof.KRun
import proofs.«400612_j57930518889080_3_alg».proof.Proof.KHost
import proofs.«400612_j57930518889080_3_alg».proof.Proof.KCover
import proofs.«400612_j57930518889080_3_alg».proof.Proof.KInt
import proofs.«400612_j57930518889080_3_alg».proof.Proof.IntSpec

noncomputable section

namespace Cert.KernelIdeal.KT

open Idealize.ShloMosaic Idealize.ShloMosaic.ValueIdx Idealize.ShloMosaic.TcCoe Idealize.SL.Sem
open Cert.KernelIdeal Cert.KernelIdeal.Gen Cert.GN

variable (m : (ℓ : Loc nD τ sig) → Buf (Elt Ideal) ℓ) (ρ : Dev nD → PrngReg)

/-- The flat rows of x: what both regions read as their first operand. -/
abbrev rows (c : Dev nD) : FVec Ideal S2 .f32 := shapeCast S2 (m ((c : Thread nD τ).loc main_arg0)) casts_SX_S2

/-- The statistics region is entered with the flat rows in its input array. -/
theorem entry0_rows (c : Dev nD) : (V1 m ρ c main_v0 : FVec Ideal S2 .f32) = rows m c := KH.V1_v0 m ρ c

/-- The normalising region is entered with the flat rows in its first operand: no operation in between writes them. -/
theorem entry1_rows (c : Dev nD) : (V17 m ρ c main_v0 : FVec Ideal S2 .f32) = rows m c :=
  (KH.V17_v0 m ρ c).trans (((W2_arr m ρ c 0).trans (KC.arr0_x (V1 m ρ) c)).trans (entry0_rows m ρ c))

/-- … with the quantised means of the flat rows in its second, -/
theorem entry1_mean (c : Dev nD) : (V17 m ρ c main_v1_0 : S64x1.Idx → EReal) = KC.wholeMu (rows m c) :=
  (KH.V17_v1_0 m ρ c).trans (((W2_arr m ρ c 1).trans (KC.arr0_mu_eq (V1 m ρ) c)).trans (congrArg KC.wholeMu (entry0_rows m ρ c)))

/-- (the statistics region leaves the raw sums of squared deviations of the flat rows) -/
theorem exit0_dev (c : Dev nD) : (V2 m ρ c main_v1_1 : S64x1.Idx → EReal) = KC.wholeVs (rows m c) :=
  ((W2_arr m ρ c 2).trans (KC.arr0_vs_eq (V1 m ρ) c)).trans (congrArg KC.wholeVs (entry0_rows m ρ c))

/-- … and with the quantised inverse standard deviations in its third: the host operations between the regions,
    read at a row. -/
theorem entry1_sigma (c : Dev nD) (b : Fin 64) :
    (V17 m ρ c main_v80 : S64x1.Idx → EReal) (ix2 b 0) = sg2 isqrtI (rows m c) (m ((c : Thread nD τ).loc main_arg1)) b := by
  rw [KH.V17_v80, KH.hostK_apply, exit0_dev]
  rfl

/-- The float result buffer ends at the specification's array. -/
theorem result_F (c : Dev nD) :
    (W19 m ρ c (Proc.devRef .tc main_v82) : FVec Ideal SX .f32)
      = specF isqrtI (m ((c : Thread nD τ).loc main_arg0)) (m ((c : Thread nD τ).loc main_arg1)) := by
  rw [KH.W19_v82, show (V18 m ρ c main_v81_0 : S64x524288.Idx → EReal) = _ from W18_arr m ρ c 3, KC.arr1_F_eq]
  unfold specF
  refine congrArg (fun a => shapeCast SX a casts_S2_SX) (funext fun i => ?_)
  have hx : (V17 m ρ c main_v0 : FVec Ideal S2 .f32) i = rows m c i := congrFun (entry1_rows m ρ c) i
  have hμ : (V17 m ρ c main_v1_0 : S64x1.Idx → EReal) (ix2 (i 0) 0) = mu2 (rows m c) (i 0) :=
    congrFun (entry1_mean m ρ c) (ix2 (i 0) 0)
  have hσ := entry1_sigma m ρ c (i 0)
  show outFK _ _ _ = outFK _ _ _
  exact congr (congr (congrArg outFK hx) hμ) hσ

/-- The integer result buffer ends at the specification's array. -/
theorem result_U (c : Dev nD) :
    (W19 m ρ c (Proc.devRef .tc main_v83) : IVec SX 32)
      = specU isqrtI (m ((c : Thread nD τ).loc main_arg0)) (m ((c : Thread nD τ).loc main_arg1)) := by
  rw [KH.W19_v83, show (V18 m ρ c main_v81_1 : S64x524288.Idx → BitVec 32) = _ from W18_arr m ρ c 4, KC.arr1_U_eq]
  unfold specU
  refine congrArg (fun a => shapeCast SX a casts_S2_SX) (funext fun i => ?_)
  have hx : (V17 m ρ c main_v0 : FVec Ideal S2 .f32) i = rows m c i := congrFun (entry1_rows m ρ c) i
  have hμ : (V17 m ρ c main_v1_0 : S64x1.Idx → EReal) (ix2 (i 0) 0) = mu2 (rows m c) (i 0) :=
    congrFun (entry1_mean m ρ c) (ix2 (i 0) 0)
  have hσ := entry1_sigma m ρ c (i 0)
  show outUK _ _ _ = outUK _ _ _
  exact congr (congr (congrArg outUK hx) hμ) hσ

/-- Every weakly fair execution of the kernel program terminates with its float result at specF, its integer result at
    specU (of the launch contents of its two arguments), and the arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v82) = specF isqrtI (m ((c.tc : Thread nD τ).loc main_arg0)) (m ((c.tc : Thread nD τ).loc main_arg1))
      ∧ r.2.mem ((c.tc : Thread nD τ).loc main_v83) = specU isqrtI (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).1.trans (result_F m ρ c), (h c).2.1.trans (result_U m ρ c), (h c).2.2.1, (h c).2.2.2⟩)
    (Cert.KernelIdeal.GenV.run_values m ρ)

end Cert.KernelIdeal.KT

end
-- ==== Proof.RRunOps.lean ====
import proofs.«400612_j57930518889080_3_alg».proof.Proof.Gen.ReferenceIdeal
import Idealize.ShloMosaic.Lib.StableHlo.Run

/-! # The reference program as a list of host operations

`ops` is @main of the reference program read as one straight line: every host operation in program order,
each outlined function's operations standing at its call site over that call's own buffers. -/

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
-- the entries are the printed program's lines in order: a call's lines are its function's, at the call's arguments and buffers
/-- @main's 213 host operations, in order. -/
abbrev ops : List (HloOp τ sig (Elt F)) :=
  [ StableHlo.nullary main_cst (constant S_ .f32 0x00000000#32),
    StableHlo.binary main_arg0 main_cst main_v0 ((fun x v => Host.reduceAdd x v reducesTo_S64x128x64x64_S64_d1_2_3 h_S_) : (⟨S64x128x64x64, .f32⟩ : BufTy).Contents (Elt F) → (⟨S_, .f32⟩ : BufTy).Contents (Elt F) → (⟨S64, .f32⟩ : BufTy).Contents (Elt F)),
    StableHlo.unary main_v0 main_v1 (broadcastInDim S64x1x1x1 ![0] bcast_S64_S64x1x1x1_0 : (⟨S64, .f32⟩ : BufTy).Contents (Elt F) → (⟨S64x1x1x1, .f32⟩ : BufTy).Contents (Elt F)),
    StableHlo.nullary main_cst_0 (constant S_ .f32 0x49000000#32),
    StableHlo.unary main_cst_0 main_v2 (broadcastInDim S64x1x1x1 ![] bcast_S_S64x1x1x1 : (⟨S_, .f32⟩ : BufTy).Contents (Elt F) → (⟨S64x1x1x1, .f32⟩ : BufTy).Contents (Elt F)),
    StableHlo.binary main_v1 main_v2 main_v3 (Host.divf : (⟨S64x1x1x1, .f32⟩ : BufTy).Contents (Elt F) → (⟨S64x1x1x1, .f32⟩ : BufTy).Contents (Elt F) → (⟨S64x1x1x1, .f32⟩ : BufTy).Contents (Elt F)),
    StableHlo.nullary main_cst_1 (constant S_ .f32 0x41800000#32),
    StableHlo.unary main_cst_1 main_v4 (broadcastInDim S64x1x1x1 ![] bcast_S_S64x1x1x1 : (⟨S_, .f32⟩ : BufTy).Contents (Elt F) → (⟨S64x1x1x1, .f32⟩ : BufTy).Contents (Elt F)),
    StableHlo.binary main_v3 main_v4 main_v5 (mulf : (⟨S64x1x1x1, .f32⟩ : BufTy).Contents (Elt F) → (⟨S64x1x1x1, .f32⟩ : BufTy).Contents (Elt F) → (⟨S64x1x1x1, .f32⟩ : BufTy).Contents (Elt F)),
    StableHlo.unary main_v5 main_v6 (Host.floor : (⟨S64x1x1x1, .f32⟩ : BufTy).Contents (Elt F) → (⟨S64x1x1x1, .f32⟩ : BufTy).Contents (Elt F)),
    StableHlo.nullary main_c (constantI S_ 32 4294967168#32),
    StableHlo.nullary main_c_2 (constantI S_ 32 127#32),
    StableHlo.TRef.unary (.of main_c : StableHlo.TRef sig ⟨S_, .i32⟩) main_call0.v0 (sitofp .f32),
    StableHlo.TRef.unary main_call0.v0 main_call0.v1 (broadcastInDim S64x1x1x1 ![] bcast_S_S64x1x1x1),
    StableHlo.TRef.binary main_call0.v1 (.of main_v6 : StableHlo.TRef sig ⟨S64x1x1x1, .f32⟩) main_call0.v2 maximumf,
    StableHlo.TRef.unary (.of main_c_2 : StableHlo.TRef sig ⟨S_, .i32⟩) main_call0.v3 (sitofp .f32),
    StableHlo.TRef.unary main_call0.v3 main_call0.v4 (broadcastInDim S64x1x1x1 ![] bcast_S_S64x1x1x1),
    StableHlo.TRef.binary main_call0.v4 main_call0.v2 main_call0.v5 minimumf,
    StableHlo.nullary main_cst_3 (constant S_ .f32 0x41800000#32),
    StableHlo.unary main_cst_3 main_v8 (broadcastInDim S64x1x1x1 ![] bcast_S_S64x1x1x1 : (⟨S_, .f32⟩ : BufTy).Contents (Elt F) → (⟨S64x1x1x1, .f32⟩ : BufTy).Contents (Elt F)),
    StableHlo.binary main_v7 main_v8 main_v9 (Host.divf : (⟨S64x1x1x1, .f32⟩ : BufTy).Contents (Elt F) → (⟨S64x1x1x1, .f32⟩ : BufTy).Contents (Elt F) → (⟨S64x1x1x1, .f32⟩ : BufTy).Contents (Elt F)),
    StableHlo.unary main_v9 main_v10 (broadcastInDim S64x128x64x64 ![0, 1, 2, 3] bcast_S64x1x1x1_S64x128x64x64_0_1_2_3 : (⟨S64x1x1x1, .f32⟩ : BufTy).Contents (Elt F) → (⟨S64x128x64x64, .f32⟩ : BufTy).Contents (Elt F)),
    StableHlo.binary main_arg0 main_v10 main_v11 (subf : (⟨S64x128x64x64, .f32⟩ : BufTy).Contents (Elt F) → (⟨S64x128x64x64, .f32⟩ : BufTy).Contents (Elt F) → (⟨S64x128x64x64, .f32⟩ : BufTy).Contents (Elt F)),
    StableHlo.binary main_v11 main_v11 main_v12 (mulf : (⟨S64x128x64x64, .f32⟩ : BufTy).Contents (Elt F) → (⟨S64x128x64x64, .f32⟩ : BufTy).Contents (Elt F) → (⟨S64x128x64x64, .f32⟩ : BufTy).Contents (Elt F)),
    StableHlo.nullary main_cst_4 (constant S_ .f32 0x00000000#32),
    StableHlo.binary main_v12 main_cst_4 main_v13 ((fun x v => Host.reduceAdd x v reducesTo_S64x128x64x64_S64_d1_2_3 h_S_) : (⟨S64x128x64x64, .f32⟩ : BufTy).Contents (Elt F) → (⟨S_, .f32⟩ : BufTy).Contents (Elt F) → (⟨S64, .f32⟩ : BufTy).Contents (Elt F)),
    StableHlo.unary main_v13 main_v14 (broadcastInDim S64x1x1x1 ![0] bcast_S64_S64x1x1x1_0 : (⟨S64, .f32⟩ : BufTy).Contents (Elt F) → (⟨S64x1x1x1, .f32⟩ : BufTy).Contents (Elt F)),
    StableHlo.nullary main_cst_5 (constant S_ .f32 0x49000000#32),
    StableHlo.unary main_cst_5 main_v15 (broadcastInDim S64x1x1x1 ![] bcast_S_S64x1x1x1 : (⟨S_, .f32⟩ : BufTy).Contents (Elt F) → (⟨S64x1x1x1, .f32⟩ : BufTy).Contents (Elt F)),
    StableHlo.binary main_v14 main_v15 main_v16 (Host.divf : (⟨S64x1x1x1, .f32⟩ : BufTy).Contents (Elt F) → (⟨S64x1x1x1, .f32⟩ : BufTy).Contents (Elt F) → (⟨S64x1x1x1, .f32⟩ : BufTy).Contents (Elt F)),
    StableHlo.nullary main_cst_6 (constant S_ .f32 0x43800000#32),
    StableHlo.unary main_cst_6 main_v17 (broadcastInDim S64x1x1x1 ![] bcast_S_S64x1x1x1 : (⟨S_, .f32⟩ : BufTy).Contents (Elt F) → (⟨S64x1x1x1, .f32⟩ : BufTy).Contents (Elt F)),
    StableHlo.binary main_v16 main_v17 main_v18 (mulf : (⟨S64x1x1x1, .f32⟩ : BufTy).Contents (Elt F) → (⟨S64x1x1x1, .f32⟩ : BufTy).Contents (Elt F) → (⟨S64x1x1x1, .f32⟩ : BufTy).Contents (Elt F)),
    StableHlo.unary main_v18 main_v19 (Host.floor : (⟨S64x1x1x1, .f32⟩ : BufTy).Contents (Elt F) → (⟨S64x1x1x1, .f32⟩ : BufTy).Contents (Elt F)),
    StableHlo.nullary main_c_7 (constantI S_ 32 4294934528#32),
    StableHlo.nullary main_c_8 (constantI S_ 32 32767#32),
    StableHlo.TRef.unary (.of main_c_7 : StableHlo.TRef sig ⟨S_, .i32⟩) main_call1.v0 (sitofp .f32),
    StableHlo.TRef.unary main_call1.v0 main_call1.v1 (broadcastInDim S64x1x1x1 ![] bcast_S_S64x1x1x1),
    StableHlo.TRef.binary main_call1.v1 (.of main_v19 : StableHlo.TRef sig ⟨S64x1x1x1, .f32⟩) main_call1.v2 maximumf,
    StableHlo.TRef.unary (.of main_c_8 : StableHlo.TRef sig ⟨S_, .i32⟩) main_call1.v3 (sitofp .f32),
    StableHlo.TRef.unary main_call1.v3 main_call1.v4 (broadcastInDim S64x1x1x1 ![] bcast_S_S64x1x1x1),
    StableHlo.TRef.binary main_call1.v4 main_call1.v2 main_call1.v5 minimumf,
    StableHlo.nullary main_cst_9 (constant S_ .f32 0x43800000#32),
    StableHlo.unary main_cst_9 main_v21 (broadcastInDim S64x1x1x1 ![] bcast_S_S64x1x1x1 : (⟨S_, .f32⟩ : BufTy).Contents (Elt F) → (⟨S64x1x1x1, .f32⟩ : BufTy).Contents (Elt F)),
    StableHlo.binary main_v20 main_v21 main_v22 (Host.divf : (⟨S64x1x1x1, .f32⟩ : BufTy).Contents (Elt F) → (⟨S64x1x1x1, .f32⟩ : BufTy).Contents (Elt F) → (⟨S64x1x1x1, .f32⟩ : BufTy).Contents (Elt F)),
    StableHlo.nullary main_cst_10 (constant S_ .f32 0x43800000#32),
    StableHlo.unary main_cst_10 main_v23 (broadcastInDim S64x1x1x1 ![] bcast_S_S64x1x1x1 : (⟨S_, .f32⟩ : BufTy).Contents (Elt F) → (⟨S64x1x1x1, .f32⟩ : BufTy).Contents (Elt F)),
    StableHlo.binary main_v22 main_v23 main_v24 (mulf : (⟨S64x1x1x1, .f32⟩ : BufTy).Contents (Elt F) → (⟨S64x1x1x1, .f32⟩ : BufTy).Contents (Elt F) → (⟨S64x1x1x1, .f32⟩ : BufTy).Contents (Elt F)),
    StableHlo.unary main_v24 main_v25 (fptosi 32 : (⟨S64x1x1x1, .f32⟩ : BufTy).Contents (Elt F) → (⟨S64x1x1x1, .i32⟩ : BufTy).Contents (Elt F)),
    StableHlo.nullary main_v26 (iotaInDim S16 32 0),
    StableHlo.nullary main_c_11 (constantI S_ 32 1#32),
    StableHlo.unary main_c_11 main_v27 (broadcastInDim S16 ![] bcast_S_S16 : (⟨S_, .i32⟩ : BufTy).Contents (Elt F) → (⟨S16, .i32⟩ : BufTy).Contents (Elt F)),
    StableHlo.binary main_v27 main_v26 main_v28 (Host.shli : (⟨S16, .i32⟩ : BufTy).Contents (Elt F) → (⟨S16, .i32⟩ : BufTy).Contents (Elt F) → (⟨S16, .i32⟩ : BufTy).Contents (Elt F)),
    StableHlo.unary main_v25 main_v29 (broadcastInDim S64x1x1x1x1 ![0, 1, 2, 3] bcast_S64x1x1x1_S64x1x1x1x1_0_1_2_3 : (⟨S64x1x1x1, .i32⟩ : BufTy).Contents (Elt F) → (⟨S64x1x1x1x1, .i32⟩ : BufTy).Contents (Elt F)),
    StableHlo.unary main_v28 main_v30 (broadcastInDim S1x1x1x1x16 ![4] bcast_S16_S1x1x1x1x16_4 : (⟨S16, .i32⟩ : BufTy).Contents (Elt F) → (⟨S1x1x1x1x16, .i32⟩ : BufTy).Contents (Elt F)),
    StableHlo.unary main_v29 main_v31 (broadcastInDim S64x1x1x1x16 ![0, 1, 2, 3, 4] bcast_S64x1x1x1x1_S64x1x1x1x16_0_1_2_3_4 : (⟨S64x1x1x1x1, .i32⟩ : BufTy).Contents (Elt F) → (⟨S64x1x1x1x16, .i32⟩ : BufTy).Contents (Elt F)),
    StableHlo.unary main_v30 main_v32 (broadcastInDim S64x1x1x1x16 ![0, 1, 2, 3, 4] bcast_S1x1x1x1x16_S64x1x1x1x16_0_1_2_3_4 : (⟨S1x1x1x1x16, .i32⟩ : BufTy).Contents (Elt F) → (⟨S64x1x1x1x16, .i32⟩ : BufTy).Contents (Elt F)),
    StableHlo.binary main_v31 main_v32 main_v33 (cmpi .sge : (⟨S64x1x1x1x16, .i32⟩ : BufTy).Contents (Elt F) → (⟨S64x1x1x1x16, .i32⟩ : BufTy).Contents (Elt F) → (⟨S64x1x1x1x16, .i1⟩ : BufTy).Contents (Elt F)),
    StableHlo.unary main_v33 main_v34 ((extui 32 · natLt_1_32) : (⟨S64x1x1x1x16, .i1⟩ : BufTy).Contents (Elt F) → (⟨S64x1x1x1x16, .i32⟩ : BufTy).Contents (Elt F)),
    StableHlo.nullary main_c_12 (constantI S_ 32 0#32),
    StableHlo.binary main_v34 main_c_12 main_v35 ((fun x v => Host.reduce IntOp.addi x v reducesTo_S64x1x1x1x16_S64x1x1x1_d4 h_S_) : (⟨S64x1x1x1x16, .i32⟩ : BufTy).Contents (Elt F) → (⟨S_, .i32⟩ : BufTy).Contents (Elt F) → (⟨S64x1x1x1, .i32⟩ : BufTy).Contents (Elt F)),
    StableHlo.nullary main_c_13 (constantI S_ 32 1#32),
    StableHlo.unary main_c_13 main_v36 (broadcastInDim S64x1x1x1 ![] bcast_S_S64x1x1x1 : (⟨S_, .i32⟩ : BufTy).Contents (Elt F) → (⟨S64x1x1x1, .i32⟩ : BufTy).Contents (Elt F)),
    StableHlo.binary main_v35 main_v36 main_v37 (subi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_14 (constantI S_ 32 0#32),
    StableHlo.unary main_c_14 main_v38 (broadcastInDim S64x1x1x1 ![] bcast_S_S64x1x1x1 : (⟨S_, .i32⟩ : BufTy).Contents (Elt F) → (⟨S64x1x1x1, .i32⟩ : BufTy).Contents (Elt F)),
    StableHlo.binary main_v37 main_v38 main_v39 (maxsi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_15 (constantI S_ 32 15#32),
    StableHlo.unary main_c_15 main_v40 (broadcastInDim S64x1x1x1 ![] bcast_S_S64x1x1x1 : (⟨S_, .i32⟩ : BufTy).Contents (Elt F) → (⟨S64x1x1x1, .i32⟩ : BufTy).Contents (Elt F)),
    StableHlo.binary main_v40 main_v39 main_v41 (subi : (⟨S64x1x1x1, .i32⟩ : BufTy).Contents (Elt F) → (⟨S64x1x1x1, .i32⟩ : BufTy).Contents (Elt F) → (⟨S64x1x1x1, .i32⟩ : BufTy).Contents (Elt F)),
    StableHlo.binary main_v25 main_v41 main_v42 (Host.shli : (⟨S64x1x1x1, .i32⟩ : BufTy).Contents (Elt F) → (⟨S64x1x1x1, .i32⟩ : BufTy).Contents (Elt F) → (⟨S64x1x1x1, .i32⟩ : BufTy).Contents (Elt F)),
    StableHlo.nullary main_c_16 (constantI S_ 32 10#32),
    StableHlo.unary main_c_16 main_v43 (broadcastInDim S64x1x1x1 ![] bcast_S_S64x1x1x1 : (⟨S_, .i32⟩ : BufTy).Contents (Elt F) → (⟨S64x1x1x1, .i32⟩ : BufTy).Contents (Elt F)),
    StableHlo.binary main_v42 main_v43 main_v44 (Host.shrsi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_17 (constantI S_ 32 31#32),
    StableHlo.unary main_c_17 main_v45 (broadcastInDim S64x1x1x1 ![] bcast_S_S64x1x1x1 : (⟨S_, .i32⟩ : BufTy).Contents (Elt F) → (⟨S64x1x1x1, .i32⟩ : BufTy).Contents (Elt F)),
    StableHlo.binary main_v44 main_v45 main_v46 (andi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_18 (constantI S_ 32 0#32),
    StableHlo.unary main_c_18 main_v47 (broadcastInDim S64x1x1x1 ![] bcast_S_S64x1x1x1 : (⟨S_, .i32⟩ : BufTy).Contents (Elt F) → (⟨S64x1x1x1, .i32⟩ : BufTy).Contents (Elt F)),
    StableHlo.binary main_v46 main_v47 main_v48 (cmpi .slt : (⟨S64x1x1x1, .i32⟩ : BufTy).Contents (Elt F) → (⟨S64x1x1x1, .i32⟩ : BufTy).Contents (Elt F) → (⟨S64x1x1x1, .i1⟩ : BufTy).Contents (Elt F)),
    StableHlo.nullary main_c_19 (constantI S_ 32 32#32),
    StableHlo.unary main_c_19 main_v49 (broadcastInDim S64x1x1x1 ![] bcast_S_S64x1x1x1 : (⟨S_, .i32⟩ : BufTy).Contents (Elt F) → (⟨S64x1x1x1, .i32⟩ : BufTy).Contents (Elt F)),
    StableHlo.binary main_v46 main_v49 main_v50 (addi : (⟨S64x1x1x1, .i32⟩ : BufTy).Contents (Elt F) → (⟨S64x1x1x1, .i32⟩ : BufTy).Contents (Elt F) → (⟨S64x1x1x1, .i32⟩ : BufTy).Contents (Elt F)),
    StableHlo.ternary main_v48 main_v50 main_v46 main_v51 (select : (⟨S64x1x1x1, .i1⟩ : BufTy).Contents (Elt F) → (⟨S64x1x1x1, .i32⟩ : BufTy).Contents (Elt F) → (⟨S64x1x1x1, .i32⟩ : BufTy).Contents (Elt F) → (⟨S64x1x1x1, .i32⟩ : BufTy).Contents (Elt F)),
    StableHlo.unary main_v51 main_v52 (broadcastInDim S64x1x1x1x1 ![0, 1, 2, 3] bcast_S64x1x1x1_S64x1x1x1x1_0_1_2_3 : (⟨S64x1x1x1, .i32⟩ : BufTy).Contents (Elt F) → (⟨S64x1x1x1x1, .i32⟩ : BufTy).Contents (Elt F)),
    StableHlo.binary main_arg1 main_v52 main_v53 ((fun x i => Host.gather gather_S32_S64x1x1x1x1_S64x1x1x1_n_0_n_n_0_4_1 x i) : (⟨S32, .i32⟩ : BufTy).Contents (Elt F) → (⟨S64x1x1x1x1, .i32⟩ : BufTy).Contents (Elt F) → (⟨S64x1x1x1, .i32⟩ : BufTy).Contents (Elt F)),
    StableHlo.nullary main_c_20 (constantI S_ 32 24#32),
    StableHlo.unary main_c_20 main_v54 (broadcastInDim S64x1x1x1 ![] bcast_S_S64x1x1x1 : (⟨S_, .i32⟩ : BufTy).Contents (Elt F) → (⟨S64x1x1x1, .i32⟩ : BufTy).Contents (Elt F)),
    StableHlo.binary main_v54 main_v39 main_v55 (subi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_21 (constantI S_ 32 2#32),
    StableHlo.TRef.unary (.of main_c_21 : StableHlo.TRef sig ⟨S_, .i32⟩) main_call2.v0 id,
    StableHlo.TRef.unary main_call2.v0 main_call2.v1 (broadcastInDim S64x1x1x1 ![] bcast_S_S64x1x1x1),
    StableHlo.TRef.binary (.of main_v55 : StableHlo.TRef sig ⟨S64x1x1x1, .i32⟩) main_call2.v1 main_call2.v2 Host.divsi,
    StableHlo.TRef.unary (.of main_v55 : StableHlo.TRef sig ⟨S64x1x1x1, .i32⟩) main_call2.v3 signi,
    StableHlo.TRef.unary main_call2.v0 main_call2.v4 signi,
    StableHlo.TRef.unary main_call2.v4 main_call2.v5 (broadcastInDim S64x1x1x1 ![] bcast_S_S64x1x1x1),
    StableHlo.TRef.binary main_call2.v3 main_call2.v5 main_call2.v6 (cmpi .ne),
    StableHlo.TRef.unary main_call2.v0 main_call2.v7 (broadcastInDim S64x1x1x1 ![] bcast_S_S64x1x1x1),
    StableHlo.TRef.binary (.of main_v55 : StableHlo.TRef sig ⟨S64x1x1x1, .i32⟩) main_call2.v7 main_call2.v8 Host.remsi,
    StableHlo.TRef.nullary main_call2.c (constantI S_ 32 0#32),
    StableHlo.TRef.unary main_call2.c main_call2.v9 (broadcastInDim S64x1x1x1 ![] bcast_S_S64x1x1x1),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S64x1x1x1 ![] bcast_S_S64x1x1x1),
    StableHlo.TRef.binary main_call2.v2 main_call2.v12 main_call2.v13 subi,
    StableHlo.TRef.ternary main_call2.v11 main_call2.v13 main_call2.v2 main_call2.call0.v0 select,
    StableHlo.nullary main_c_22 (constantI S_ 32 2#32),
    StableHlo.unary main_c_22 main_v57 (broadcastInDim S64x1x1x1 ![] bcast_S_S64x1x1x1 : (⟨S_, .i32⟩ : BufTy).Contents (Elt F) → (⟨S64x1x1x1, .i32⟩ : BufTy).Contents (Elt F)),
    StableHlo.binary main_v57 main_v56 main_v58 (muli : (⟨S64x1x1x1, .i32⟩ : BufTy).Contents (Elt F) → (⟨S64x1x1x1, .i32⟩ : BufTy).Contents (Elt F) → (⟨S64x1x1x1, .i32⟩ : BufTy).Contents (Elt F)),
    StableHlo.binary main_v55 main_v58 main_v59 (subi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_23 (constantI S_ 32 1#32),
    StableHlo.unary main_c_23 main_v60 (broadcastInDim S64x1x1x1 ![] bcast_S_S64x1x1x1 : (⟨S_, .i32⟩ : BufTy).Contents (Elt F) → (⟨S64x1x1x1, .i32⟩ : BufTy).Contents (Elt F)),
    StableHlo.binary main_v59 main_v60 main_v61 (cmpi .eq : (⟨S64x1x1x1, .i32⟩ : BufTy).Contents (Elt F) → (⟨S64x1x1x1, .i32⟩ : BufTy).Contents (Elt F) → (⟨S64x1x1x1, .i1⟩ : BufTy).Contents (Elt F)),
    StableHlo.nullary main_c_24 (constantI S_ 32 46340#32),
    StableHlo.unary main_c_24 main_v62 (broadcastInDim S64x1x1x1 ![] bcast_S_S64x1x1x1 : (⟨S_, .i32⟩ : BufTy).Contents (Elt F) → (⟨S64x1x1x1, .i32⟩ : BufTy).Contents (Elt F)),
    StableHlo.binary main_v53 main_v62 main_v63 (muli : (⟨S64x1x1x1, .i32⟩ : BufTy).Contents (Elt F) → (⟨S64x1x1x1, .i32⟩ : BufTy).Contents (Elt F) → (⟨S64x1x1x1, .i32⟩ : BufTy).Contents (Elt F)),
    StableHlo.nullary main_c_25 (constantI S_ 32 15#32),
    StableHlo.unary main_c_25 main_v64 (broadcastInDim S64x1x1x1 ![] bcast_S_S64x1x1x1 : (⟨S_, .i32⟩ : BufTy).Contents (Elt F) → (⟨S64x1x1x1, .i32⟩ : BufTy).Contents (Elt F)),
    StableHlo.binary main_v63 main_v64 main_v65 (Host.shrsi : (⟨S64x1x1x1, .i32⟩ : BufTy).Contents (Elt F) → (⟨S64x1x1x1, .i32⟩ : BufTy).Contents (Elt F) → (⟨S64x1x1x1, .i32⟩ : BufTy).Contents (Elt F)),
    StableHlo.TRef.ternary (.of main_v61 : StableHlo.TRef sig ⟨S64x1x1x1, .i1⟩) (.of main_v65 : StableHlo.TRef sig ⟨S64x1x1x1, .i32⟩) (.of main_v53 : StableHlo.TRef sig ⟨S64x1x1x1, .i32⟩) main_call3.v0 select,
    StableHlo.nullary main_c_26 (constantI S_ 32 15#32),
    StableHlo.unary main_c_26 main_v67 (broadcastInDim S64x1x1x1 ![] bcast_S_S64x1x1x1 : (⟨S_, .i32⟩ : BufTy).Contents (Elt F) → (⟨S64x1x1x1, .i32⟩ : BufTy).Contents (Elt F)),
    StableHlo.binary main_v67 main_v56 main_v68 (subi : (⟨S64x1x1x1, .i32⟩ : BufTy).Contents (Elt F) → (⟨S64x1x1x1, .i32⟩ : BufTy).Contents (Elt F) → (⟨S64x1x1x1, .i32⟩ : BufTy).Contents (Elt F)),
    StableHlo.nullary main_c_27 (constantI S_ 32 0#32),
    StableHlo.unary main_c_27 main_v69 (broadcastInDim S64x1x1x1 ![] bcast_S_S64x1x1x1 : (⟨S_, .i32⟩ : BufTy).Contents (Elt F) → (⟨S64x1x1x1, .i32⟩ : BufTy).Contents (Elt F)),
    StableHlo.binary main_v68 main_v69 main_v70 (cmpi .sge : (⟨S64x1x1x1, .i32⟩ : BufTy).Contents (Elt F) → (⟨S64x1x1x1, .i32⟩ : BufTy).Contents (Elt F) → (⟨S64x1x1x1, .i1⟩ : BufTy).Contents (Elt F)),
    StableHlo.nullary main_c_28 (constantI S_ 32 0#32),
    StableHlo.unary main_c_28 main_v71 (broadcastInDim S64x1x1x1 ![] bcast_S_S64x1x1x1 : (⟨S_, .i32⟩ : BufTy).Contents (Elt F) → (⟨S64x1x1x1, .i32⟩ : BufTy).Contents (Elt F)),
    StableHlo.binary main_v68 main_v71 main_v72 (maxsi : (⟨S64x1x1x1, .i32⟩ : BufTy).Contents (Elt F) → (⟨S64x1x1x1, .i32⟩ : BufTy).Contents (Elt F) → (⟨S64x1x1x1, .i32⟩ : BufTy).Contents (Elt F)),
    StableHlo.binary main_v66 main_v72 main_v73 (Host.shrsi : (⟨S64x1x1x1, .i32⟩ : BufTy).Contents (Elt F) → (⟨S64x1x1x1, .i32⟩ : BufTy).Contents (Elt F) → (⟨S64x1x1x1, .i32⟩ : BufTy).Contents (Elt F)),
    StableHlo.unary main_v68 main_v74 (negi : (⟨S64x1x1x1, .i32⟩ : BufTy).Contents (Elt F) → (⟨S64x1x1x1, .i32⟩ : BufTy).Contents (Elt F)),
    StableHlo.nullary main_c_29 (constantI S_ 32 0#32),
    StableHlo.unary main_c_29 main_v75 (broadcastInDim S64x1x1x1 ![] bcast_S_S64x1x1x1 : (⟨S_, .i32⟩ : BufTy).Contents (Elt F) → (⟨S64x1x1x1, .i32⟩ : BufTy).Contents (Elt F)),
    StableHlo.binary main_v74 main_v75 main_v76 (maxsi : (⟨S64x1x1x1, .i32⟩ : BufTy).Contents (Elt F) → (⟨S64x1x1x1, .i32⟩ : BufTy).Contents (Elt F) → (⟨S64x1x1x1, .i32⟩ : BufTy).Contents (Elt F)),
    StableHlo.binary main_v66 main_v76 main_v77 (Host.shli : (⟨S64x1x1x1, .i32⟩ : BufTy).Contents (Elt F) → (⟨S64x1x1x1, .i32⟩ : BufTy).Contents (Elt F) → (⟨S64x1x1x1, .i32⟩ : BufTy).Contents (Elt F)),
    StableHlo.TRef.ternary (.of main_v70 : StableHlo.TRef sig ⟨S64x1x1x1, .i1⟩) (.of main_v73 : StableHlo.TRef sig ⟨S64x1x1x1, .i32⟩) (.of main_v77 : StableHlo.TRef sig ⟨S64x1x1x1, .i32⟩) main_call4.v0 select,
    StableHlo.nullary main_c_30 (constantI S_ 32 0#32),
    StableHlo.unary main_c_30 main_v79 (broadcastInDim S64x1x1x1 ![] bcast_S_S64x1x1x1 : (⟨S_, .i32⟩ : BufTy).Contents (Elt F) → (⟨S64x1x1x1, .i32⟩ : BufTy).Contents (Elt F)),
    StableHlo.binary main_v25 main_v79 main_v80 (cmpi .eq : (⟨S64x1x1x1, .i32⟩ : BufTy).Contents (Elt F) → (⟨S64x1x1x1, .i32⟩ : BufTy).Contents (Elt F) → (⟨S64x1x1x1, .i1⟩ : BufTy).Contents (Elt F)),
    StableHlo.nullary main_c_31 (constantI S_ 32 65535#32),
    StableHlo.TRef.unary (.of main_c_31 : StableHlo.TRef sig ⟨S_, .i32⟩) main_call5.v0 id,
    StableHlo.TRef.unary main_call5.v0 main_call5.v1 (broadcastInDim S64x1x1x1 ![] bcast_S_S64x1x1x1),
    StableHlo.TRef.ternary (.of main_v80 : StableHlo.TRef sig ⟨S64x1x1x1, .i1⟩) main_call5.v1 (.of main_v78 : StableHlo.TRef sig ⟨S64x1x1x1, .i32⟩) main_call5.v2 select,
    StableHlo.nullary main_c_32 (constantI S_ 32 0#32),
    StableHlo.nullary main_c_33 (constantI S_ 32 65535#32),
    StableHlo.TRef.unary (.of main_c_32 : StableHlo.TRef sig ⟨S_, .i32⟩) main_call6.v0 id,
    StableHlo.TRef.unary main_call6.v0 main_call6.v1 (broadcastInDim S64x1x1x1 ![] bcast_S_S64x1x1x1),
    StableHlo.TRef.binary main_call6.v1 (.of main_v81 : StableHlo.TRef sig ⟨S64x1x1x1, .i32⟩) main_call6.v2 maxsi,
    StableHlo.TRef.unary (.of main_c_33 : StableHlo.TRef sig ⟨S_, .i32⟩) main_call6.v3 id,
    StableHlo.TRef.unary main_call6.v3 main_call6.v4 (broadcastInDim S64x1x1x1 ![] bcast_S_S64x1x1x1),
    StableHlo.TRef.binary main_call6.v4 main_call6.v2 main_call6.v5 minsi,
    StableHlo.unary main_v82 main_v83 (sitofp .f32 : (⟨S64x1x1x1, .i32⟩ : BufTy).Contents (Elt F) → (⟨S64x1x1x1, .f32⟩ : BufTy).Contents (Elt F)),
    StableHlo.nullary main_cst_34 (constant S_ .f32 0x43800000#32),
    StableHlo.unary main_cst_34 main_v84 (broadcastInDim S64x1x1x1 ![] bcast_S_S64x1x1x1 : (⟨S_, .f32⟩ : BufTy).Contents (Elt F) → (⟨S64x1x1x1, .f32⟩ : BufTy).Contents (Elt F)),
    StableHlo.binary main_v83 main_v84 main_v85 (Host.divf : (⟨S64x1x1x1, .f32⟩ : BufTy).Contents (Elt F) → (⟨S64x1x1x1, .f32⟩ : BufTy).Contents (Elt F) → (⟨S64x1x1x1, .f32⟩ : BufTy).Contents (Elt F)),
    StableHlo.nullary main_cst_35 (constant S_ .f32 0x43800000#32),
    StableHlo.unary main_cst_35 main_v86 (broadcastInDim S64x1x1x1 ![] bcast_S_S64x1x1x1 : (⟨S_, .f32⟩ : BufTy).Contents (Elt F) → (⟨S64x1x1x1, .f32⟩ : BufTy).Contents (Elt F)),
    StableHlo.binary main_v85 main_v86 main_v87 (mulf : (⟨S64x1x1x1, .f32⟩ : BufTy).Contents (Elt F) → (⟨S64x1x1x1, .f32⟩ : BufTy).Contents (Elt F) → (⟨S64x1x1x1, .f32⟩ : BufTy).Contents (Elt F)),
    StableHlo.unary main_v87 main_v88 (Host.floor : (⟨S64x1x1x1, .f32⟩ : BufTy).Contents (Elt F) → (⟨S64x1x1x1, .f32⟩ : BufTy).Contents (Elt F)),
    StableHlo.nullary main_c_36 (constantI S_ 32 4294934528#32),
    StableHlo.nullary main_c_37 (constantI S_ 32 32767#32),
    StableHlo.TRef.unary (.of main_c_36 : StableHlo.TRef sig ⟨S_, .i32⟩) main_call7.v0 (sitofp .f32),
    StableHlo.TRef.unary main_call7.v0 main_call7.v1 (broadcastInDim S64x1x1x1 ![] bcast_S_S64x1x1x1),
    StableHlo.TRef.binary main_call7.v1 (.of main_v88 : StableHlo.TRef sig ⟨S64x1x1x1, .f32⟩) main_call7.v2 maximumf,
    StableHlo.TRef.unary (.of main_c_37 : StableHlo.TRef sig ⟨S_, .i32⟩) main_call7.v3 (sitofp .f32),
    StableHlo.TRef.unary main_call7.v3 main_call7.v4 (broadcastInDim S64x1x1x1 ![] bcast_S_S64x1x1x1),
    StableHlo.TRef.binary main_call7.v4 main_call7.v2 main_call7.v5 minimumf,
    StableHlo.nullary main_cst_38 (constant S_ .f32 0x43800000#32),
    StableHlo.unary main_cst_38 main_v90 (broadcastInDim S64x1x1x1 ![] bcast_S_S64x1x1x1 : (⟨S_, .f32⟩ : BufTy).Contents (Elt F) → (⟨S64x1x1x1, .f32⟩ : BufTy).Contents (Elt F)),
    StableHlo.binary main_v89 main_v90 main_v91 (Host.divf : (⟨S64x1x1x1, .f32⟩ : BufTy).Contents (Elt F) → (⟨S64x1x1x1, .f32⟩ : BufTy).Contents (Elt F) → (⟨S64x1x1x1, .f32⟩ : BufTy).Contents (Elt F)),
    StableHlo.unary main_v9 main_v92 (broadcastInDim S64x128x64x64 ![0, 1, 2, 3] bcast_S64x1x1x1_S64x128x64x64_0_1_2_3 : (⟨S64x1x1x1, .f32⟩ : BufTy).Contents (Elt F) → (⟨S64x128x64x64, .f32⟩ : BufTy).Contents (Elt F)),
    StableHlo.binary main_arg0 main_v92 main_v93 (subf : (⟨S64x128x64x64, .f32⟩ : BufTy).Contents (Elt F) → (⟨S64x128x64x64, .f32⟩ : BufTy).Contents (Elt F) → (⟨S64x128x64x64, .f32⟩ : BufTy).Contents (Elt F)),
    StableHlo.unary main_v91 main_v94 (broadcastInDim S64x128x64x64 ![0, 1, 2, 3] bcast_S64x1x1x1_S64x128x64x64_0_1_2_3 : (⟨S64x1x1x1, .f32⟩ : BufTy).Contents (Elt F) → (⟨S64x128x64x64, .f32⟩ : BufTy).Contents (Elt F)),
    StableHlo.binary main_v93 main_v94 main_v95 (mulf : (⟨S64x128x64x64, .f32⟩ : BufTy).Contents (Elt F) → (⟨S64x128x64x64, .f32⟩ : BufTy).Contents (Elt F) → (⟨S64x128x64x64, .f32⟩ : BufTy).Contents (Elt F)),
    StableHlo.nullary main_cst_39 (constant S_ .f32 0x41800000#32),
    StableHlo.unary main_cst_39 main_v96 (broadcastInDim S64x128x64x64 ![] bcast_S_S64x128x64x64 : (⟨S_, .f32⟩ : BufTy).Contents (Elt F) → (⟨S64x128x64x64, .f32⟩ : BufTy).Contents (Elt F)),
    StableHlo.binary main_v95 main_v96 main_v97 (mulf : (⟨S64x128x64x64, .f32⟩ : BufTy).Contents (Elt F) → (⟨S64x128x64x64, .f32⟩ : BufTy).Contents (Elt F) → (⟨S64x128x64x64, .f32⟩ : BufTy).Contents (Elt F)),
    StableHlo.unary main_v97 main_v98 (Host.floor : (⟨S64x128x64x64, .f32⟩ : BufTy).Contents (Elt F) → (⟨S64x128x64x64, .f32⟩ : BufTy).Contents (Elt F)),
    StableHlo.nullary main_c_40 (constantI S_ 32 4294967168#32),
    StableHlo.nullary main_c_41 (constantI S_ 32 127#32),
    StableHlo.TRef.unary (.of main_c_40 : StableHlo.TRef sig ⟨S_, .i32⟩) main_call8.v0 (sitofp .f32),
    StableHlo.TRef.unary main_call8.v0 main_call8.v1 (broadcastInDim S64x128x64x64 ![] bcast_S_S64x128x64x64),
    StableHlo.TRef.binary main_call8.v1 (.of main_v98 : StableHlo.TRef sig ⟨S64x128x64x64, .f32⟩) main_call8.v2 maximumf,
    StableHlo.TRef.unary (.of main_c_41 : StableHlo.TRef sig ⟨S_, .i32⟩) main_call8.v3 (sitofp .f32),
    StableHlo.TRef.unary main_call8.v3 main_call8.v4 (broadcastInDim S64x128x64x64 ![] bcast_S_S64x128x64x64),
    StableHlo.TRef.binary main_call8.v4 main_call8.v2 main_call8.v5 minimumf,
    StableHlo.nullary main_cst_42 (constant S_ .f32 0x41800000#32),
    StableHlo.unary main_cst_42 main_v100 (broadcastInDim S64x128x64x64 ![] bcast_S_S64x128x64x64 : (⟨S_, .f32⟩ : BufTy).Contents (Elt F) → (⟨S64x128x64x64, .f32⟩ : BufTy).Contents (Elt F)),
    StableHlo.binary main_v99 main_v100 main_v101 (Host.divf : (⟨S64x128x64x64, .f32⟩ : BufTy).Contents (Elt F) → (⟨S64x128x64x64, .f32⟩ : BufTy).Contents (Elt F) → (⟨S64x128x64x64, .f32⟩ : BufTy).Contents (Elt F)),
    StableHlo.unary main_v99 main_v102 (fptosi 32 : (⟨S64x128x64x64, .f32⟩ : BufTy).Contents (Elt F) → (⟨S64x128x64x64, .i32⟩ : BufTy).Contents (Elt F)),
    StableHlo.nullary main_c_43 (constantI S_ 32 256#32),
    StableHlo.TRef.unary (.of main_c_43 : StableHlo.TRef sig ⟨S_, .i32⟩) main_call9.v0 id,
    StableHlo.TRef.nullary main_call9.c (constantI S_ 32 0#32),
    StableHlo.TRef.binary main_call9.v0 main_call9.c main_call9.v1 (cmpi .eq),
    StableHlo.TRef.nullary main_call9.c_0 (constantI S_ 32 1#32),
    StableHlo.TRef.ternary main_call9.v1 main_call9.c_0 main_call9.v0 main_call9.call0.v0 select,
    StableHlo.TRef.unary main_call9.call0.v0 main_call9.v3 (broadcastInDim S64x128x64x64 ![] bcast_S_S64x128x64x64),
    StableHlo.TRef.binary (.of main_v102 : StableHlo.TRef sig ⟨S64x128x64x64, .i32⟩) main_call9.v3 main_call9.v4 Host.remsi,
    StableHlo.TRef.nullary main_call9.c_1 (constantI S_ 32 0#32),
    StableHlo.TRef.unary main_call9.c_1 main_call9.v5 (broadcastInDim S64x128x64x64 ![] bcast_S_S64x128x64x64),
    StableHlo.TRef.binary main_call9.v4 main_call9.v5 main_call9.v6 (cmpi .ne),
    StableHlo.TRef.nullary main_call9.c_2 (constantI S_ 32 0#32),
    StableHlo.TRef.unary main_call9.c_2 main_call9.v7 (broadcastInDim S64x128x64x64 ![] bcast_S_S64x128x64x64),
    StableHlo.TRef.binary main_call9.v4 main_call9.v7 main_call9.v8 (cmpi .slt),
    StableHlo.TRef.nullary main_call9.c_3 (constantI S_ 32 0#32),
    StableHlo.TRef.binary main_call9.call0.v0 main_call9.c_3 main_call9.v9 (cmpi .slt),
    StableHlo.TRef.unary main_call9.v9 main_call9.v10 (broadcastInDim S64x128x64x64 ![] bcast_S_S64x128x64x64),
    StableHlo.TRef.binary main_call9.v8 main_call9.v10 main_call9.v11 (cmpi .ne),
    StableHlo.TRef.binary main_call9.v11 main_call9.v6 main_call9.v12 andi,
    StableHlo.TRef.unary main_call9.call0.v0 main_call9.v13 (broadcastInDim S64x128x64x64 ![] bcast_S_S64x128x64x64),
    StableHlo.TRef.binary main_call9.v4 main_call9.v13 main_call9.v14 addi,
    StableHlo.TRef.ternary main_call9.v12 main_call9.v14 main_call9.v4 main_call9.v15 select ]

end Cert.ReferenceIdeal.RR

end
-- ==== Proof.RRun.lean ====
import proofs.«400612_j57930518889080_3_alg».proof.Proof.RRunOps

/-! # The reference program's run

@main of the reference program is a straight line of host operations: the list `ops`. This module proves that
reading (`main_eq`) and, from it, the run: every weakly fair execution of @main terminates, and each buffer ends
holding the fold of the operations over the launch contents (`run_main`). -/

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-! ## @main is that line -/

set_option maxRecDepth 8192 in
/-- @main is the line `ops`. It runs its three windows in order; each window is a chain of steps and calls, and a call
    is its function's body at the call's arguments and buffers: `clip` (three times), `_where` (twice from @main, once
    from `floor_divide`), `floor_divide`, `_where_0`, `clip_1`, `clip_2`, `remainder` and the `_where_3` it calls.
    With the bodies substituted and sequencing reassociated (a body's closing `pure` absorbed by what follows it),
    both sides are the same single chain of 213 steps ending in @main's return. -/
theorem main_eq (c : Dev nD) : main (F := F) c = seq ops := by
  simp only [main, main_part0, main_part1, main_part2, fn_clip.body, fn_where.body, fn_floor_divide.body, fn_where_0.body,
    fn_clip_1.body, fn_clip_2.body, fn_where_3.body, fn_remainder.body, seq, bind_assoc, pure_bind]

/-! ## The run -/

/-- The signature scopes no buffer … -/
theorem scopedRefs_eq : (Finset.univ.filter fun b : Ref sig .tc => b.isScoped) = ∅ := by decide
/-- … and no semaphore: a program of tensor values only. -/
theorem scopedSems_eq : (Finset.univ.filter fun sm : SemLoc sig => sm.isScoped .tc) = ∅ := by decide

/-- Every operation touches TensorCore buffers only: each is one of the four builders (no operand, one, two, three),
    whose buffers are its operands' and its result's. -/
theorem ops_sub : (ops : List (HloOp τ sig (Elt F))).Forall fun op => op.bufs ⊆ tcRefs τ sig := by
  simp only [List.Forall, nullary_bufs_sub, unary_bufs_sub, binary_bufs_sub, ternary_bufs_sub, and_self]

/-- Every operation determines its result: none leaves a buffer's contents open. -/
theorem ops_fresh : ∀ op ∈ (ops : List (HloOp τ sig (Elt F))), op.fresh = ∅ :=
  List.forall_iff_forall_mem.1 (by simp only [List.Forall]; and_intros <;> rfl)

/-- At the compiled mesh, for any float values, from any memory with zero counters: every weakly fair execution of
    @main on the TensorCore terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RR

end
-- ==== Proof.RValDefs.lean ====
import proofs.«400612_j57930518889080_3_alg».proof.Proof.Spec
import proofs.«400612_j57930518889080_3_alg».proof.Proof.RRunOps
import Idealize.ShloMosaic.Lib.IdealHost

/-!
# The reference program's whole-array stages

The reference's straight line of host operations is cut at its per-row intermediates: the quantised mean, the
variance word, the integer inverse square root, the quantised inverse standard deviation, and the two results.
Each stage is written once as a function of the stage before it, over whole arrays and with the operations the
program names; the program's fold at each of those buffers is then that function of the earlier buffers.
-/

noncomputable section

namespace Cert.ReferenceIdeal.RV

open Cert.ReferenceIdeal Cert.ReferenceIdeal.Gen Idealize.ShloMosaic Idealize.ShloMosaic.TcCoe Idealize.SL.Sem Idealize.ShloMosaic.StableHlo

/-- One float per batch row. -/
abbrev A1 : Type := FVec Ideal S64x1x1x1 .f32
/-- One word per batch row. -/
abbrev I1 : Type := IVec S64x1x1x1 32
/-- One float per element. -/
abbrev AX : Type := FVec Ideal S64x128x64x64 .f32
/-- One word per element. -/
abbrev IX : Type := IVec S64x128x64x64 32

/-- A float literal at every batch row. -/
def kf (w : BitVec 32) : A1 := broadcastInDim S64x1x1x1 ![] bcast_S_S64x1x1x1 (constant (F := Ideal) S_ .f32 w)
/-- An integer literal converted to a float, at every batch row. -/
def kc (w : BitVec 32) : A1 :=
  broadcastInDim S64x1x1x1 ![] bcast_S_S64x1x1x1 (sitofp (F := Ideal) .f32 (constantI S_ 32 w))
/-- A float literal at every element. -/
def kfX (w : BitVec 32) : AX := broadcastInDim S64x128x64x64 ![] bcast_S_S64x128x64x64 (constant (F := Ideal) S_ .f32 w)
/-- An integer literal converted to a float, at every element. -/
def kcX (w : BitVec 32) : AX :=
  broadcastInDim S64x128x64x64 ![] bcast_S_S64x128x64x64 (sitofp (F := Ideal) .f32 (constantI S_ 32 w))
/-- A per-row value spread over its row's elements. -/
def up (v : A1) : AX := broadcastInDim S64x128x64x64 ![0, 1, 2, 3] bcast_S64x1x1x1_S64x128x64x64_0_1_2_3 v

/-- The mean over each batch row: the sum over the three inner axes from 0, over 524288. -/
def rowMean (y : AX) : A1 :=
  Host.divf (broadcastInDim S64x1x1x1 ![0] bcast_S64_S64x1x1x1_0
      (Host.reduceAdd y (constant (F := Ideal) S_ .f32 0x00000000#32) reducesTo_S64x128x64x64_S64_d1_2_3 h_S_))
    (kf 0x49000000#32)

/-- The floor-quantiser: scale, floor, clip between two converted integers, unscale. -/
def quant (scale lo hi : BitVec 32) (v : A1) : A1 :=
  Host.divf (minimumf (kc hi) (maximumf (kc lo) (Host.floor (mulf v (kf scale))))) (kf scale)

/-- The quantised mean of each row. -/
def muA (x : AX) : A1 := quant 0x41800000#32 4294967168#32 127#32 (rowMean x)
/-- The deviations from the row's quantised mean. -/
def devA (x : AX) (mu : A1) : AX := subf x (up mu)
/-- The quantised variance of each row. -/
def varA (x : AX) (mu : A1) : A1 :=
  quant 0x43800000#32 4294934528#32 32767#32 (rowMean (mulf (devA x mu) (devA x mu)))
/-- The variance word of each row: the quantised variance times 256, as an integer. -/
def vwA (x : AX) (mu : A1) : I1 := fptosi 32 (mulf (varA x mu) (kf 0x43800000#32))
/-- The quantised inverse standard deviation from the integer routine's word. -/
def sgA (q : I1) : A1 :=
  quant 0x43800000#32 4294934528#32 32767#32 (Host.divf (sitofp (F := Ideal) .f32 q) (kf 0x43800000#32))
/-- The clipped quantised integer part of the normalised element. -/
def clipX (x : AX) (mu sg : A1) : AX :=
  minimumf (kcX 127#32) (maximumf (kcX 4294967168#32)
    (Host.floor (mulf (mulf (devA x mu) (up sg)) (kfX 0x41800000#32))))
/-- The float result. -/
def outFA (x : AX) (mu sg : A1) : AX := Host.divf (clipX x mu sg) (kfX 0x41800000#32)

/-! ## The integer routine and the remainder, over whole arrays -/

/-- An integer literal at every batch row. -/
def ki (w : BitVec 32) : I1 := broadcastInDim S64x1x1x1 ![] bcast_S_S64x1x1x1 (constantI S_ 32 w)

/-- The sixteen powers of two 1 <<< k. -/
def pow2s : IVec S16 32 := Host.shli (broadcastInDim S16 ![] bcast_S_S16 (constantI S_ 32 1#32)) (iotaInDim S16 32 0)

/-- Row by row and k by k: is the word at least 2^k. -/
def geA (w : I1) : IVec S64x1x1x1x16 1 :=
  cmpi .sge
    (broadcastInDim S64x1x1x1x16 ![0, 1, 2, 3, 4] bcast_S64x1x1x1x1_S64x1x1x1x16_0_1_2_3_4
      (broadcastInDim S64x1x1x1x1 ![0, 1, 2, 3] bcast_S64x1x1x1_S64x1x1x1x1_0_1_2_3 w))
    (broadcastInDim S64x1x1x1x16 ![0, 1, 2, 3, 4] bcast_S1x1x1x1x16_S64x1x1x1x16_0_1_2_3_4
      (broadcastInDim S1x1x1x1x16 ![4] bcast_S16_S1x1x1x1x16_4 pow2s))

/-- The count of k < 16 with the word at least 2^k. -/
def cntA (w : I1) : I1 :=
  Host.reduce IntOp.addi (extui 32 (geA w) natLt_1_32) (constantI S_ 32 0#32) reducesTo_S64x1x1x1x16_S64x1x1x1_d4 h_S_

def msbA (w : I1) : I1 := maxsi (subi (cntA w) (ki 1#32)) (ki 0#32)
def idx0A (w : I1) : I1 := andi (Host.shrsi (Host.shli w (subi (ki 15#32) (msbA w))) (ki 10#32)) (ki 31#32)
def idxA (w : I1) : I1 := select (cmpi .slt (idx0A w) (ki 0#32)) (addi (idx0A w) (ki 32#32)) (idx0A w)
/-- The table read at each row's position. -/
def lutA (lut : IVec S32 32) (w : I1) : I1 :=
  Host.gather gather_S32_S64x1x1x1x1_S64x1x1x1_n_0_n_n_0_4_1 lut
    (broadcastInDim S64x1x1x1x1 ![0, 1, 2, 3] bcast_S64x1x1x1_S64x1x1x1x1_0_1_2_3 (idxA w))
def eA (w : I1) : I1 := subi (ki 24#32) (msbA w)
/-- The floored half: the truncated quotient by 2, one less when the signs differ and the remainder is not 0. -/
def fdiv2A (e : I1) : I1 :=
  select
    (andi (cmpi .ne (signi e) (broadcastInDim S64x1x1x1 ![] bcast_S_S64x1x1x1 (signi (constantI S_ 32 2#32))))
      (cmpi .ne (Host.remsi e (ki 2#32)) (ki 0#32)))
    (subi (Host.divsi e (ki 2#32)) (ki 1#32)) (Host.divsi e (ki 2#32))
def e2A (w : I1) : I1 := fdiv2A (eA w)
def lvA (lut : IVec S32 32) (w : I1) : I1 :=
  select (cmpi .eq (subi (eA w) (muli (ki 2#32) (e2A w))) (ki 1#32))
    (Host.shrsi (muli (lutA lut w) (ki 46340#32)) (ki 15#32)) (lutA lut w)
def shA (w : I1) : I1 := subi (ki 15#32) (e2A w)
def resA (lut : IVec S32 32) (w : I1) : I1 :=
  select (cmpi .sge (shA w) (ki 0#32))
    (Host.shrsi (lvA lut w) (maxsi (shA w) (ki 0#32)))
    (Host.shli (lvA lut w) (maxsi (negi (shA w)) (ki 0#32)))
/-- The integer inverse square root of each row's variance word. -/
def isqA (lut : IVec S32 32) (w : I1) : I1 :=
  minsi (ki 65535#32) (maxsi (ki 0#32) (select (cmpi .eq w (ki 0#32)) (ki 65535#32) (resA lut w)))

/-- The divisor of the remainder as the program holds it: 1 in place of a zero divisor. -/
def remD0 : IVec S_ 32 :=
  select (cmpi .eq (constantI S_ 32 256#32) (constantI S_ 32 0#32)) (constantI S_ 32 1#32) (constantI S_ 32 256#32)
/-- A scalar at every element. -/
def bX {α : Type} (c : S_.Idx → α) : S64x128x64x64.Idx → α := broadcastInDim S64x128x64x64 ![] bcast_S_S64x128x64x64 c
/-- The floored remainder by 256 of every element. -/
def remA (w : IX) : IX :=
  select
    (andi (cmpi .ne (cmpi .slt (Host.remsi w (bX remD0)) (bX (constantI S_ 32 0#32))) (bX (cmpi .slt remD0 (constantI S_ 32 0#32))))
      (cmpi .ne (Host.remsi w (bX remD0)) (bX (constantI S_ 32 0#32))))
    (addi (Host.remsi w (bX remD0)) (bX remD0)) (Host.remsi w (bX remD0))
/-- The integer result. -/
def outUA (x : AX) (mu sg : A1) : IX := remA (fptosi 32 (clipX x mu sg))

end Cert.ReferenceIdeal.RV

end
-- ==== Proof.RValFold.lean ====
import proofs.«400612_j57930518889080_3_alg».proof.Proof.RValDefs

/-!
# The reference program's fold, as the whole-array stages

The operation list is cut into five windows, each ending at one of the per-row intermediates or at the results. Over
any contents before a window, the window's fold at the buffer it ends in is the stage function of the earlier
buffers, and the buffers a later window reads keep their contents. Chained, the two results are the stage functions
composed over the two arguments.
-/

noncomputable section

namespace Cert.ReferenceIdeal.RV

open Cert.ReferenceIdeal Cert.ReferenceIdeal.Gen Idealize.ShloMosaic Idealize.ShloMosaic.TcCoe Idealize.SL.Sem Idealize.ShloMosaic.StableHlo

/-! ## The program's fold, window by window -/

/-- The fold over a list is the fold over its first k operations, then over the rest. -/
theorem after_split (k : Nat) (l : List (HloOp τ sig (Elt Ideal))) (V : Valuation τ sig (Elt Ideal)) :
    after l V = after (l.drop k) (after (l.take k) V) := by
  induction l generalizing k V with
  | nil => simp
  | cons op l ih =>
    cases k with
    | zero => rfl
    | succ k => simp only [List.take_succ_cons, List.drop_succ_cons, after_cons]; exact ih k _

/-- The operations up to the quantised mean; then up to the variance word; the integer routine; up to the quantised
    inverse standard deviation; the elementwise tail. -/
abbrev l0 : List (HloOp τ sig (Elt Ideal)) := (RR.ops (F := Ideal)).take 21
abbrev r0 : List (HloOp τ sig (Elt Ideal)) := (RR.ops (F := Ideal)).drop 21
abbrev l1 : List (HloOp τ sig (Elt Ideal)) := r0.take 28
abbrev r1 : List (HloOp τ sig (Elt Ideal)) := r0.drop 28
abbrev l2 : List (HloOp τ sig (Elt Ideal)) := r1.take 103
abbrev r2 : List (HloOp τ sig (Elt Ideal)) := r1.drop 103
abbrev l3 : List (HloOp τ sig (Elt Ideal)) := r2.take 19
abbrev l4 : List (HloOp τ sig (Elt Ideal)) := r2.drop 19

/-- Unfold a window of the operation list and run the fold at one buffer. -/
local macro "window_simp" : tactic => `(tactic| (
  simp only [l0, l1, l2, l3, l4, r0, r1, r2, RR.ops, List.take_succ_cons, List.take_zero, List.drop_succ_cons, List.drop_zero]
  after_results_simp))

attribute [local irreducible] Host.reduce Host.gather Host.reduceAdd in
set_option maxRecDepth 8192 in
set_option maxHeartbeats 1000000 in
theorem w0_mu (W : Valuation τ sig (Elt Ideal)) :
    after l0 W (main_v9 : DevRef τ sig) = muA (W (main_arg0 : DevRef τ sig)) := by
  window_simp
  simp only [TRef.ofBuf, TRef.toBuf, cast_eq, id_eq]
  rfl

set_option maxRecDepth 8192 in
set_option maxHeartbeats 1000000 in
theorem w0_arg0 (W : Valuation τ sig (Elt Ideal)) :
    after l0 W (main_arg0 : DevRef τ sig) = W (main_arg0 : DevRef τ sig) := by
  window_simp <;> rfl

set_option maxRecDepth 8192 in
set_option maxHeartbeats 1000000 in
theorem w0_arg1 (W : Valuation τ sig (Elt Ideal)) :
    after l0 W (main_arg1 : DevRef τ sig) = W (main_arg1 : DevRef τ sig) := by
  window_simp <;> rfl

attribute [local irreducible] Host.reduce Host.gather Host.reduceAdd in
set_option maxRecDepth 8192 in
set_option maxHeartbeats 1000000 in
theorem w1_vw (W : Valuation τ sig (Elt Ideal)) :
    after l1 W (main_v25 : DevRef τ sig) = vwA (W (main_arg0 : DevRef τ sig)) (W (main_v9 : DevRef τ sig)) := by
  window_simp
  simp only [TRef.ofBuf, TRef.toBuf, cast_eq, id_eq]
  rfl

set_option maxRecDepth 8192 in
set_option maxHeartbeats 1000000 in
theorem w1_mu (W : Valuation τ sig (Elt Ideal)) :
    after l1 W (main_v9 : DevRef τ sig) = W (main_v9 : DevRef τ sig) := by
  window_simp <;> rfl

set_option maxRecDepth 8192 in
set_option maxHeartbeats 1000000 in
theorem w1_arg0 (W : Valuation τ sig (Elt Ideal)) :
    after l1 W (main_arg0 : DevRef τ sig) = W (main_arg0 : DevRef τ sig) := by
  window_simp <;> rfl

set_option maxRecDepth 8192 in
set_option maxHeartbeats 1000000 in
theorem w1_arg1 (W : Valuation τ sig (Elt Ideal)) :
    after l1 W (main_arg1 : DevRef τ sig) = W (main_arg1 : DevRef τ sig) := by
  window_simp <;> rfl

attribute [local irreducible] Host.reduce Host.gather Host.reduceAdd in
set_option maxRecDepth 8192 in
set_option maxHeartbeats 1000000 in
theorem w2_isq (W : Valuation τ sig (Elt Ideal)) :
    after l2 W (main_v82 : DevRef τ sig) = isqA (W (main_arg1 : DevRef τ sig)) (W (main_v25 : DevRef τ sig)) := by
  window_simp
  simp only [TRef.ofBuf, TRef.toBuf, cast_eq, id_eq]
  rfl

set_option maxRecDepth 8192 in
set_option maxHeartbeats 1000000 in
theorem w2_mu (W : Valuation τ sig (Elt Ideal)) :
    after l2 W (main_v9 : DevRef τ sig) = W (main_v9 : DevRef τ sig) := by
  window_simp <;> rfl

set_option maxRecDepth 8192 in
set_option maxHeartbeats 1000000 in
theorem w2_arg0 (W : Valuation τ sig (Elt Ideal)) :
    after l2 W (main_arg0 : DevRef τ sig) = W (main_arg0 : DevRef τ sig) := by
  window_simp <;> rfl

set_option maxRecDepth 8192 in
set_option maxHeartbeats 1000000 in
theorem w2_arg1 (W : Valuation τ sig (Elt Ideal)) :
    after l2 W (main_arg1 : DevRef τ sig) = W (main_arg1 : DevRef τ sig) := by
  window_simp <;> rfl

attribute [local irreducible] Host.reduce Host.gather Host.reduceAdd in
set_option maxRecDepth 8192 in
set_option maxHeartbeats 1000000 in
theorem w3_sg (W : Valuation τ sig (Elt Ideal)) :
    after l3 W (main_v91 : DevRef τ sig) = sgA (W (main_v82 : DevRef τ sig)) := by
  window_simp
  simp only [TRef.ofBuf, TRef.toBuf, cast_eq, id_eq]
  rfl

set_option maxRecDepth 8192 in
set_option maxHeartbeats 1000000 in
theorem w3_mu (W : Valuation τ sig (Elt Ideal)) :
    after l3 W (main_v9 : DevRef τ sig) = W (main_v9 : DevRef τ sig) := by
  window_simp <;> rfl

set_option maxRecDepth 8192 in
set_option maxHeartbeats 1000000 in
theorem w3_arg0 (W : Valuation τ sig (Elt Ideal)) :
    after l3 W (main_arg0 : DevRef τ sig) = W (main_arg0 : DevRef τ sig) := by
  window_simp <;> rfl

set_option maxRecDepth 8192 in
set_option maxHeartbeats 1000000 in
theorem w3_arg1 (W : Valuation τ sig (Elt Ideal)) :
    after l3 W (main_arg1 : DevRef τ sig) = W (main_arg1 : DevRef τ sig) := by
  window_simp <;> rfl

attribute [local irreducible] Host.reduce Host.gather Host.reduceAdd in
set_option maxRecDepth 8192 in
set_option maxHeartbeats 1000000 in
theorem w4_outF (W : Valuation τ sig (Elt Ideal)) :
    after l4 W (main_v101 : DevRef τ sig) = outFA (W (main_arg0 : DevRef τ sig)) (W (main_v9 : DevRef τ sig)) (W (main_v91 : DevRef τ sig)) := by
  window_simp
  simp only [TRef.ofBuf, TRef.toBuf, cast_eq, id_eq]
  rfl

attribute [local irreducible] Host.reduce Host.gather Host.reduceAdd in
set_option maxRecDepth 8192 in
set_option maxHeartbeats 1000000 in
theorem w4_outU (W : Valuation τ sig (Elt Ideal)) :
    after l4 W (main_v103 : DevRef τ sig) = outUA (W (main_arg0 : DevRef τ sig)) (W (main_v9 : DevRef τ sig)) (W (main_v91 : DevRef τ sig)) := by
  window_simp
  simp only [TRef.ofBuf, TRef.toBuf, cast_eq, id_eq]
  rfl

set_option maxRecDepth 8192 in
set_option maxHeartbeats 1000000 in
theorem w4_arg0 (W : Valuation τ sig (Elt Ideal)) :
    after l4 W (main_arg0 : DevRef τ sig) = W (main_arg0 : DevRef τ sig) := by
  window_simp <;> rfl

set_option maxRecDepth 8192 in
set_option maxHeartbeats 1000000 in
theorem w4_arg1 (W : Valuation τ sig (Elt Ideal)) :
    after l4 W (main_arg1 : DevRef τ sig) = W (main_arg1 : DevRef τ sig) := by
  window_simp <;> rfl

/-- The whole fold is the five windows' folds in order. -/
theorem fold_split (V : Valuation τ sig (Elt Ideal)) :
    after (RR.ops (F := Ideal)) V = after l4 (after l3 (after l2 (after l1 (after l0 V)))) := by
  rw [after_split 21 (RR.ops (F := Ideal)) V, after_split 28 r0 (after l0 V), after_split 103 r1 (after l1 (after l0 V)),
    after_split 19 r2 (after l2 (after l1 (after l0 V)))]

/-- The float result is the stages composed over the two arguments. -/
theorem outF_fold (V : Valuation τ sig (Elt Ideal)) :
    after (RR.ops (F := Ideal)) V (main_v101 : DevRef τ sig)
      = outFA (V (main_arg0 : DevRef τ sig)) (muA (V (main_arg0 : DevRef τ sig)))
          (sgA (isqA (V (main_arg1 : DevRef τ sig)) (vwA (V (main_arg0 : DevRef τ sig)) (muA (V (main_arg0 : DevRef τ sig)))))) := by
  rw [fold_split, w4_outF, w3_sg, w3_mu, w3_arg0, w2_isq, w2_mu, w2_arg0, w1_vw, w1_mu, w1_arg0, w1_arg1,
    w0_mu, w0_arg0, w0_arg1]

/-- The integer result is the stages composed over the two arguments. -/
theorem outU_fold (V : Valuation τ sig (Elt Ideal)) :
    after (RR.ops (F := Ideal)) V (main_v103 : DevRef τ sig)
      = outUA (V (main_arg0 : DevRef τ sig)) (muA (V (main_arg0 : DevRef τ sig)))
          (sgA (isqA (V (main_arg1 : DevRef τ sig)) (vwA (V (main_arg0 : DevRef τ sig)) (muA (V (main_arg0 : DevRef τ sig)))))) := by
  rw [fold_split, w4_outU, w3_sg, w3_mu, w3_arg0, w2_isq, w2_mu, w2_arg0, w1_vw, w1_mu, w1_arg0, w1_arg1,
    w0_mu, w0_arg0, w0_arg1]

/-- The two arguments keep their contents. -/
theorem arg0_fold (V : Valuation τ sig (Elt Ideal)) :
    after (RR.ops (F := Ideal)) V (main_arg0 : DevRef τ sig) = V (main_arg0 : DevRef τ sig) := by
  rw [fold_split, w4_arg0, w3_arg0, w2_arg0, w1_arg0, w0_arg0]

theorem arg1_fold (V : Valuation τ sig (Elt Ideal)) :
    after (RR.ops (F := Ideal)) V (main_arg1 : DevRef τ sig) = V (main_arg1 : DevRef τ sig) := by
  rw [fold_split, w4_arg1, w3_arg1, w2_arg1, w1_arg1, w0_arg1]

end Cert.ReferenceIdeal.RV

end
-- ==== Proof.RValFloat.lean ====
import proofs.«400612_j57930518889080_3_alg».proof.Proof.RValDefs

/-!
# The reference's float stages read at an index

Each per-row stage (the quantised mean, the variance word, the quantised inverse standard deviation) at a batch row,
and the clipped integer part at an element, in the specification's scalar spelling: a host sum is its initial value
plus the sum over the indices of the batch row; a broadcast reads the batch row of the element; every other
operation acts element by element.
-/

noncomputable section

namespace Cert.ReferenceIdeal.RV

open Cert.ReferenceIdeal Cert.ReferenceIdeal.Gen Idealize.ShloMosaic

/-! ## The float stages read at an index -/

section Reads

open Cert.GN Idealize.ShloMosaic.ValueIdx

/-- The index of batch row b among the per-row arrays. -/
abbrev row (b : Fin 64) : S64x1x1x1.Idx := ix4 b (0 : Fin 1) (0 : Fin 1) (0 : Fin 1)

theorem kf_apply (w : BitVec 32) (k : S64x1x1x1.Idx) : kf w k = Ideal.ofBits .f32 w := rfl
theorem kc_apply (w : BitVec 32) (k : S64x1x1x1.Idx) : kc w k = (((w.toInt : ℝ)) : EReal) := rfl
theorem kfX_apply (w : BitVec 32) (i : S64x128x64x64.Idx) : kfX w i = Ideal.ofBits .f32 w := rfl
theorem kcX_apply (w : BitVec 32) (i : S64x128x64x64.Idx) : kcX w i = (((w.toInt : ℝ)) : EReal) := rfl

/-- A per-row value spread over the elements reads the element's batch row. -/
theorem up_apply (v : A1) (i : S64x128x64x64.Idx) : up v i = v (row (i 0)) := by
  unfold up
  exact broadcastInDim_apply _ _ v i (row (i 0)) (fun a => by fin_cases a <;> rfl)

/-- An index drops to batch row b exactly when its batch coordinate is b. -/
theorem drop_iff (i : S64x128x64x64.Idx) (b : Fin 64) :
    reducesTo_S64x128x64x64_S64_d1_2_3.drop i = ix1 b ↔ (i 0).val = b.val := by
  constructor
  · intro h
    exact congrArg (fun j : S64.Idx => (j 0).val) h
  · intro h
    funext a
    fin_cases a
    exact Fin.ext h

/-- The row mean at a row: 0 plus the row's sum, over 524288. -/
theorem rowMean_apply (y : AX) (k : S64x1x1x1.Idx) :
    rowMean y k = Ideal.div (c0 + rowSum4 y (k 0)) c524288 := by
  unfold rowMean
  show Ideal.div (broadcastInDim S64x1x1x1 ![0] bcast_S64_S64x1x1x1_0
      (Host.reduceAdd y (constant (F := Ideal) S_ .f32 0x00000000#32) reducesTo_S64x128x64x64_S64_d1_2_3 h_S_) k) c524288 = _
  refine congrArg (fun v => Ideal.div v c524288) ?_
  refine (broadcastInDim_apply ![0] bcast_S64_S64x1x1x1_0 _ k (ix1 (k 0)) (fun a => by fin_cases a; rfl)).trans ?_
  show c0 + ∑ i ∈ Finset.univ.filter
      (fun i : S64x128x64x64.Idx => reducesTo_S64x128x64x64_S64_d1_2_3.drop i = (ix1 (k 0) : S64.Idx)), y i = c0 + rowSum4 y (k 0)
  refine congrArg (fun v => c0 + v) ?_
  unfold rowSum4
  exact Finset.sum_congr (Finset.filter_congr (fun i _ => drop_iff i (k 0))) (fun _ _ => rfl)

/-- The quantiser at a row. -/
theorem quant_apply (scale lo hi : BitVec 32) (v : A1) (k : S64x1x1x1.Idx) :
    quant scale lo hi v k
      = Ideal.div (min (((hi.toInt : ℝ)) : EReal) (max (((lo.toInt : ℝ)) : EReal) (fl (v k * Ideal.ofBits .f32 scale))))
          (Ideal.ofBits .f32 scale) := rfl

/-- The quantised mean at a row is the specification's. -/
theorem muA_apply (x : AX) (k : S64x1x1x1.Idx) : muA x k = mu4 x (k 0) := by
  unfold muA
  rw [quant_apply, rowMean_apply]
  rfl

/-- The sum of squared deviations of a row is the specification's. -/
theorem sqsum_eq (x : AX) (b : Fin 64) :
    rowSum4 (mulf (devA x (muA x)) (devA x (muA x))) b = vs4 x b := by
  unfold rowSum4 vs4
  refine Finset.sum_congr rfl (fun i hi => ?_)
  have hi' : (i 0).val = b.val := (Finset.mem_filter.mp hi).2
  show (x i - up (muA x) i) * (x i - up (muA x) i) = sqd (x i) (mu4 x b)
  rw [up_apply, muA_apply]
  show (x i - mu4 x (i 0)) * (x i - mu4 x (i 0)) = sqd (x i) (mu4 x b)
  rw [show (i 0 : Fin 64) = b from Fin.ext hi']
  rfl

/-- The variance word at a row. -/
theorem vwA_apply (x : AX) (k : S64x1x1x1.Idx) :
    vwA x (muA x) k = Ideal.fptosi 32 (q168 (Ideal.div (c0 + vs4 x (k 0)) c524288) * c256) := by
  unfold vwA varA
  show Ideal.fptosi 32 (quant 0x43800000#32 4294934528#32 32767#32
      (rowMean (mulf (devA x (muA x)) (devA x (muA x)))) k * Ideal.ofBits .f32 0x43800000#32) = _
  rw [quant_apply, rowMean_apply, sqsum_eq x (k 0)]
  rfl

/-- The quantised inverse standard deviation at a row, from the integer routine's word there. -/
theorem sgA_apply (q : I1) (k : S64x1x1x1.Idx) :
    sgA q k = q168 (Ideal.div ((((q k).toInt : ℝ)) : EReal) c256) := rfl

/-- The clipped integer part at an element. -/
theorem clipX_apply (x : AX) (mu sg : A1) (i : S64x128x64x64.Idx) :
    clipX x mu sg i = clipR ((x i - mu (row (i 0))) * sg (row (i 0))) := by
  show min (((127#32 : BitVec 32).toInt : ℝ) : EReal) (max (((4294967168#32 : BitVec 32).toInt : ℝ) : EReal)
    (fl (((x i - up mu i) * up sg i) * Ideal.ofBits .f32 0x41800000#32))) = _
  rw [up_apply, up_apply]
  rfl

end Reads

end Cert.ReferenceIdeal.RV

end
-- ==== Proof.RValInt.lean ====
/-
  The reference's integer stages, read at one element.

  The integer inverse square root of the reference is a chain of whole-array operations over one word per batch row;
  read at a row it is the scalar routine isqrtI at that row's word. Every operation of the chain is elementwise but two:
    the count of powers 2⁰ … 2¹⁵ not above the word is a sum over a sixteenth axis of a comparison between two
    broadcasts — the row's word along that axis, the sixteen powers along the rows —, and read at a row it is the sum
    over k < 16 of the scalar comparison;
    the table read is a gather whose start indices are the rows' positions as a column, and read at a row it is the
    table at that row's position, read signed and clamped into the table.
  The floored remainder by 256 is elementwise throughout: at an element it is the scalar remainder remI.
-/
import proofs.«400612_j57930518889080_3_alg».proof.Proof.RValDefs
import proofs.«400612_j57930518889080_3_alg».proof.Proof.IntSpec

noncomputable section

namespace Cert.ReferenceIdeal.RV

open Cert.ReferenceIdeal Cert.ReferenceIdeal.Gen Idealize.ShloMosaic Idealize.ShloMosaic.ValueIdx Cert.GN

/-- An integer literal at every row is that literal at each. -/
theorem ki_apply (c : BitVec 32) (k : S64x1x1x1.Idx) : ki c k = c := rfl

/-! ## The count -/

/-- Summing out the sixteenth axis leaves one entry per row. -/
theorem reduces16 : S64x1x1x1x16.Reduces [4] S64x1x1x1 := by decide

/-- The rows' words laid along the sixteenth axis read, at any index of row k, row k's word: the three unit axes
    have one coordinate. -/
theorem rows_read (w : I1) (k : S64x1x1x1.Idx) (i : S64x1x1x1x16.Idx) (h0 : (i 0).val = (k 0).val) :
    broadcastInDim S64x1x1x1x16 ![0, 1, 2, 3, 4] bcast_S64x1x1x1x1_S64x1x1x1x16_0_1_2_3_4
      (broadcastInDim S64x1x1x1x1 ![0, 1, 2, 3] bcast_S64x1x1x1_S64x1x1x1x1_0_1_2_3 w) i = w k := by
  show w _ = w k
  congr 1
  funext a
  apply Fin.ext
  match a with
  | ⟨0, _⟩ => exact h0
  | ⟨1, _⟩ => exact (Nat.lt_one_iff.mp (k 1).isLt).symm
  | ⟨2, _⟩ => exact (Nat.lt_one_iff.mp (k 2).isLt).symm
  | ⟨3, _⟩ => exact (Nat.lt_one_iff.mp (k 3).isLt).symm

/-- The sixteen powers laid along the rows read, at an index, 1 shifted left by the index's last coordinate. -/
theorem pows_read (i : S64x1x1x1x16.Idx) :
    broadcastInDim S64x1x1x1x16 ![0, 1, 2, 3, 4] bcast_S1x1x1x1x16_S64x1x1x1x16_0_1_2_3_4
      (broadcastInDim S1x1x1x1x16 ![4] bcast_S16_S1x1x1x1x16_4 pow2s) i
      = IntOp.shli .host 1#32 (BitVec.ofNat 32 (i 4).val) := rfl

/-- The widened comparison at row k and power j is the scalar one. -/
theorem geA_lift (w : I1) (k : S64x1x1x1.Idx) (j : Fin 16) :
    (geA w (reduces16.lift k j)).setWidth 32 = geBit (w k) j := by
  unfold geA geBit
  show (IntOp.cmpi .sge _ _).setWidth 32 = _
  rw [rows_read w k _ rfl, pows_read]
  rfl

/-- The count at a row: the sum over the sixteenth axis is the sum over k < 16 of the scalar comparisons. -/
theorem cntA_apply (w : I1) (k : S64x1x1x1.Idx) : cntA w k = cntW (w k) := by
  unfold cntA
  rw [Host.reduce_eq_fold_single IntOp.addi _ _ reducesTo_S64x1x1x1x16_S64x1x1x1_d4 reduces16 h_S_ k]
  show (Finset.univ : Finset (Fin 16)).fold IntOp.addi 0#32 _
    = (Finset.univ : Finset (Fin 16)).fold IntOp.addi 0#32 (geBit (w k))
  congr 1
  funext j
  exact geA_lift w k j

/-! ## The leading bit and the table position -/

theorem msbA_apply (w : I1) (k : S64x1x1x1.Idx) : msbA w k = msbW (w k) := by
  show IntOp.maxsi (IntOp.subi (cntA w k) 1#32) 0#32 = _
  rw [cntA_apply]; rfl

theorem idx0A_apply (w : I1) (k : S64x1x1x1.Idx) : idx0A w k = idx0W (w k) := by
  show IntOp.andi (IntOp.shrsi .host (IntOp.shli .host (w k) (IntOp.subi 15#32 (msbA w k))) 10#32) 31#32 = _
  rw [msbA_apply]; rfl

theorem idxA_apply (w : I1) (k : S64x1x1x1.Idx) : idxA w k = idxW (w k) := by
  show Scalar.select (IntOp.cmpi .slt (idx0A w k) 0#32) (IntOp.addi (idx0A w k) 32#32) (idx0A w k) = _
  rw [idx0A_apply]; rfl

/-! ## The table read -/

/-- The rows' values as a column read, at any index of row k, row k's value. -/
theorem col_read (v : I1) (k : S64x1x1x1.Idx) (i : S64x1x1x1x1.Idx) (h0 : (i 0).val = (k 0).val) :
    broadcastInDim S64x1x1x1x1 ![0, 1, 2, 3] bcast_S64x1x1x1_S64x1x1x1x1_0_1_2_3 v i = v k := by
  show v _ = v k
  congr 1
  funext a
  apply Fin.ext
  match a with
  | ⟨0, _⟩ => exact h0
  | ⟨1, _⟩ => exact (Nat.lt_one_iff.mp (k 1).isLt).symm
  | ⟨2, _⟩ => exact (Nat.lt_one_iff.mp (k 2).isLt).symm
  | ⟨3, _⟩ => exact (Nat.lt_one_iff.mp (k 3).isLt).symm

/-- The gather at a row: the table's one axis is collapsed and start-indexed, there is no batching and no offset
    axis, so the operand index is the clamped start alone; the start index of row k is read off the column at row k's
    batch coordinates, 0 on the index vector's axis. -/
theorem lutA_apply (lut : IVec S32 32) (w : I1) (k : S64x1x1x1.Idx) : lutA lut w k = lutAt lut (idxA w k) := by
  unfold lutA lutAt Host.gather
  congr 1
  funext a
  obtain rfl : a = 0 := Subsingleton.elim _ _
  refine Fin.ext ?_
  show gather_S32_S64x1x1x1x1_S64x1x1x1_n_0_n_n_0_4_1.start k _ 0
      + gather_S32_S64x1x1x1x1_S64x1x1x1_n_0_n_n_0_4_1.batchCoord k 0
      + gather_S32_S64x1x1x1x1_S64x1x1x1_n_0_n_n_0_4_1.offCoord k 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S64x1x1x1x1_S64x1x1x1_n_0_n_n_0_4_1.startIndexMap from
    List.mem_singleton.mpr rfl)]
  rw [col_read (idxA w) k _ rfl]
  rfl

/-! ## The exponent, the correction, the shift, the saturation -/

theorem eA_apply (w : I1) (k : S64x1x1x1.Idx) : eA w k = eW (w k) := by
  show IntOp.subi 24#32 (msbA w k) = _
  rw [msbA_apply]; rfl

/-- The floored half is elementwise; the sign of an array at an element is the sign of the element. -/
theorem fdiv2A_apply (e : I1) (k : S64x1x1x1.Idx) : fdiv2A e k = fdiv2W (e k) := rfl

theorem e2A_apply (w : I1) (k : S64x1x1x1.Idx) : e2A w k = e2W (w k) := by
  show fdiv2A (eA w) k = _
  rw [fdiv2A_apply, eA_apply]; rfl

theorem lvA_apply (lut : IVec S32 32) (w : I1) (k : S64x1x1x1.Idx) : lvA lut w k = lvW lut (w k) := by
  show Scalar.select (IntOp.cmpi .eq (IntOp.subi (eA w k) (IntOp.muli 2#32 (e2A w k))) 1#32)
    (IntOp.shrsi .host (IntOp.muli (lutA lut w k) 46340#32) 15#32) (lutA lut w k) = _
  rw [eA_apply, e2A_apply, lutA_apply, idxA_apply]; rfl

theorem shA_apply (w : I1) (k : S64x1x1x1.Idx) : shA w k = shW (w k) := by
  show IntOp.subi 15#32 (e2A w k) = _
  rw [e2A_apply]; rfl

theorem resA_apply (lut : IVec S32 32) (w : I1) (k : S64x1x1x1.Idx) : resA lut w k = resW lut (w k) := by
  show Scalar.select (IntOp.cmpi .sge (shA w k) 0#32) (IntOp.shrsi .host (lvA lut w k) (IntOp.maxsi (shA w k) 0#32))
    (IntOp.shli .host (lvA lut w k) (IntOp.maxsi (-(shA w k)) 0#32)) = _
  rw [shA_apply, lvA_apply]; rfl

/-- The integer inverse square root of the rows' words, at a row, is the scalar routine at that row's word. -/
theorem isqA_apply (lut : IVec S32 32) (w : I1) (k : S64x1x1x1.Idx) : isqA lut w k = Cert.GN.isqrtI lut (w k) := by
  show IntOp.minsi 65535#32 (IntOp.maxsi 0#32 (Scalar.select (IntOp.cmpi .eq (w k) 0#32) 65535#32 (resA lut w k))) = _
  rw [resA_apply]; rfl

/-! ## The floored remainder -/

/-- Every operation of the remainder is elementwise and its constants are scalars read at their one index. -/
theorem remA_apply (w : IX) (i : S64x128x64x64.Idx) : remA w i = Cert.GN.remI (w i) := rfl

end Cert.ReferenceIdeal.RV

end
-- ==== Proof.RVal.lean ====
import proofs.«400612_j57930518889080_3_alg».proof.Proof.RValFold
import proofs.«400612_j57930518889080_3_alg».proof.Proof.RValFloat
import proofs.«400612_j57930518889080_3_alg».proof.Proof.RValInt

/-!
# The reference program's two results are the specification's

The fold of the reference's operations at its two result buffers, over any contents of the two arguments, is the
specification's whole-array functions in the reference's spelling: at every element the float result is the clipped
quantised normalisation over 16 and the integer result its floored remainder by 256, with the row's quantised mean
and quantised inverse standard deviation read at the element's batch row.
-/

noncomputable section

namespace Cert.ReferenceIdeal.RV

open Cert.ReferenceIdeal Cert.ReferenceIdeal.Gen Idealize.ShloMosaic Idealize.ShloMosaic.TcCoe Idealize.SL.Sem Idealize.ShloMosaic.StableHlo
open Cert.GN Idealize.ShloMosaic.ValueIdx

/-- The quantised inverse standard deviation at a row, through the integer routine on the row's variance word. -/
theorem sg_at (x : AX) (lut : IVec S32 32) (k : S64x1x1x1.Idx) :
    sgA (isqA lut (vwA x (muA x))) k = sg4 isqrtI x lut (k 0) := by
  rw [sgA_apply, isqA_apply, vwA_apply]
  rfl

/-- The float result. -/
theorem out_F (V : Valuation τ sig (Elt Ideal)) :
    after (RR.ops (F := Ideal)) V (main_v101 : DevRef τ sig)
      = refF isqrtI (V (main_arg0 : DevRef τ sig)) (V (main_arg1 : DevRef τ sig)) := by
  rw [outF_fold]
  funext i
  show Ideal.div (clipX (V (main_arg0 : DevRef τ sig)) (muA (V (main_arg0 : DevRef τ sig)))
      (sgA (isqA (V (main_arg1 : DevRef τ sig)) (vwA (V (main_arg0 : DevRef τ sig)) (muA (V (main_arg0 : DevRef τ sig)))))) i)
      (Ideal.ofBits .f32 0x41800000#32) = _
  rw [clipX_apply, muA_apply, sg_at]
  rfl

/-- The integer result. -/
theorem out_U (V : Valuation τ sig (Elt Ideal)) :
    after (RR.ops (F := Ideal)) V (main_v103 : DevRef τ sig)
      = refU isqrtI remI (V (main_arg0 : DevRef τ sig)) (V (main_arg1 : DevRef τ sig)) := by
  rw [outU_fold]
  funext i
  unfold outUA
  rw [remA_apply]
  show remI (Ideal.fptosi 32 (clipX (V (main_arg0 : DevRef τ sig)) (muA (V (main_arg0 : DevRef τ sig)))
      (sgA (isqA (V (main_arg1 : DevRef τ sig)) (vwA (V (main_arg0 : DevRef τ sig)) (muA (V (main_arg0 : DevRef τ sig)))))) i)) = _
  rw [clipX_apply, muA_apply, sg_at]
  rfl

/-- The two arguments keep their contents. -/
theorem arg0_eq (V : Valuation τ sig (Elt Ideal)) :
    after (RR.ops (F := Ideal)) V (main_arg0 : DevRef τ sig) = V (main_arg0 : DevRef τ sig) := arg0_fold V

theorem arg1_eq (V : Valuation τ sig (Elt Ideal)) :
    after (RR.ops (F := Ideal)) V (main_arg1 : DevRef τ sig) = V (main_arg1 : DevRef τ sig) := arg1_fold V

end Cert.ReferenceIdeal.RV

end
-- ==== Proof.BridgeScalar.lean ====
/-
  The reference's spelling of the fixed-point GroupNorm arithmetic is the kernel's, scalar by scalar.

  Each constant the two programs carry is an exact dyadic or an integer, so on every extended real a quotient by
  524288 is the product with 2⁻¹⁹ and a quotient by 16 the product with 1/16; the clip bounds -128 and 127 are the
  same numbers whether written as float literals or converted from integers; a sum of squares is never negative, so
  clamping the scaled variance at 0 from below changes nothing; and the low byte of a two's-complement word is its
  floored remainder by 256.
-/
import proofs.«400612_j57930518889080_3_alg».proof.Proof.Spec

noncomputable section

namespace Cert.GN

open Idealize.ShloMosaic

/-! ## The value each float word denotes -/

/-- The word of +0.0 denotes 0. -/
theorem c0_eq : c0 = 0 := by
  simp [c0, Ideal.ofBits, Ideal.ieee]

/-- Sign 0, exponent field 108, fraction 0: 2²³ · 2^(108 - 127 - 23) = 2⁻¹⁹. -/
private theorem c2m19_val : c2m19 = ((1 / 524288 : ℝ) : EReal) := by
  simp [c2m19, Ideal.ofBits, Ideal.ieee, -EReal.coe_mul]; norm_num

/-- Sign 0, exponent field 146, fraction 0: 2²³ · 2^(146 - 127 - 23) = 2¹⁹. -/
private theorem c524288_val : c524288 = ((524288 : ℝ) : EReal) := by
  simp [c524288, Ideal.ofBits, Ideal.ieee, -EReal.coe_mul]; norm_num

/-- Sign 0, exponent field 131, fraction 0: 2⁴. -/
private theorem c16_val : c16 = ((16 : ℝ) : EReal) := by
  simp [c16, Ideal.ofBits, Ideal.ieee, -EReal.coe_mul]; norm_num

/-- Sign 0, exponent field 123, fraction 0: 2⁻⁴. -/
private theorem c1_16_val : c1_16 = ((1 / 16 : ℝ) : EReal) := by
  simp [c1_16, Ideal.ofBits, Ideal.ieee, -EReal.coe_mul]; norm_num

/-- Sign 1, exponent field 134, fraction 0: -2⁷. -/
private theorem cm128_val : cm128 = ((-128 : ℝ) : EReal) := by
  simp [cm128, Ideal.ofBits, Ideal.ieee, -EReal.coe_mul]; norm_num

/-- Sign 0, exponent field 133, fraction 127·2¹⁶: (2²³ + 127·2¹⁶) · 2^(133 - 127 - 23) = 127. -/
private theorem c127_val : c127 = ((127 : ℝ) : EReal) := by
  simp [c127, Ideal.ofBits, Ideal.ieee, -EReal.coe_mul]; norm_num

/-- The word 2³² - 128 is -128 in two's complement. -/
private theorem im128_val : im128 = ((-128 : ℝ) : EReal) := by
  have h : (4294967168#32 : BitVec 32).toInt = -128 := by decide
  rw [im128, h]; norm_num

private theorem i127_val : i127 = ((127 : ℝ) : EReal) := by
  have h : (127#32 : BitVec 32).toInt = 127 := by decide
  rw [i127, h]; norm_num

/-! ## The two spellings of each step -/

/-- A host sum started from the word of 0 is the sum. -/
theorem c0_add (S : EReal) : c0 + S = S := by
  rw [c0_eq, zero_add]

/-- The clip bounds are the same numbers, whether float literals or converted integers. -/
theorem clipR_eq_clipK (v : EReal) : clipR v = clipK v := by
  rw [clipR, clipK, im128_val, i127_val, cm128_val, c127_val]

/-- A quotient by 2¹⁹ is the product with 2⁻¹⁹, at the infinities too. -/
theorem div_c524288 (v : EReal) : Ideal.div v c524288 = v * c2m19 := by
  rw [c524288_val, c2m19_val, Ideal.div_coe (by norm_num)]

/-- A quotient by 16 is the product with 1/16, at the infinities too. -/
theorem div_c16 (v : EReal) : Ideal.div v c16 = v * c1_16 := by
  rw [c16_val, c1_16_val, Ideal.div_coe (by norm_num)]

theorem muR_eq_muK (S : EReal) : muR S = muK S := by
  rw [muR, muK, c0_add, div_c524288, div_c16, clipR_eq_clipK]

/-- An extended real times itself is never negative: a real squared, or an infinity times itself, which is ⊤. -/
private theorem mul_self_nonneg' (d : EReal) : 0 ≤ d * d := by
  induction d using EReal.rec with
  | bot => simp
  | coe r =>
      rw [← EReal.coe_mul]
      exact_mod_cast mul_self_nonneg r
  | top => simp

theorem sqd_nonneg (x μ : EReal) : 0 ≤ sqd x μ := mul_self_nonneg' (x - μ)

/-- 2⁻¹⁹ is positive. -/
private theorem c2m19_nonneg : 0 ≤ c2m19 := by
  rw [c2m19_val]
  exact_mod_cast (by norm_num : (0 : ℝ) ≤ 1 / 524288)

/-- On a nonnegative sum of squares the clamp at 0 from below is idle, and the quotient is the product. -/
theorem sigmaR_eq_sigmaK (isq : BitVec 32 → BitVec 32) (V : EReal) (hV : 0 ≤ V) : sigmaR isq V = sigmaK isq V := by
  have h0 : 0 ≤ V * c2m19 := mul_nonneg hV c2m19_nonneg
  rw [sigmaR, sigmaK, c0_add, div_c524288, c0_eq, max_eq_left h0]

theorem outFR_eq_outFK (x μ σ : EReal) : outFR x μ σ = outFK x μ σ := by
  rw [outFR, outFK, div_c16, clipR_eq_clipK]

theorem outUR_eq_outUK (rem : BitVec 32 → BitVec 32) (hrem : ∀ w, rem w = w &&& 255#32) (x μ σ : EReal) :
    outUR rem x μ σ = outUK x μ σ := by
  rw [outUR, outUK, hrem, clipR_eq_clipK]

end Cert.GN

end
-- ==== Proof.BridgeSum.lean ====
/-
  The reference's whole-array spelling of the fixed-point GroupNorm is the kernel's.

  The kernel's side flattens each batch row of x : [64, 128, 64, 64] to a row of 524288 entries (the same elements in
  row-major order), takes its sums over the flat column index, and restores the shape; the reference's side takes its
  sums over the four-dimensional indices whose batch coordinate is b. Row-major order matches the flat index (b, j)
  with the four-dimensional index whose batch coordinate is b and whose other three coordinates are the digits of j in
  the mixed radix [128, 64, 64]: position b·524288 + j = ((b·128 + c)·64 + h)·64 + w with c < 128, h, w < 64 forces the
  leading coordinates to agree. So the matching of the two index sets restricts, for each b, to a bijection between
  {i | i 0 = b} and the flat columns, a finite sum over the one is the sum over the other, and with the scalar
  identities (quotient by 524288 = product with 2⁻¹⁹, the clip bounds, the clamp at 0 of a sum of squares, the low
  byte) the two spellings agree element by element.
-/
import proofs.«400612_j57930518889080_3_alg».proof.Proof.Spec
import proofs.«400612_j57930518889080_3_alg».proof.Proof.BridgeScalar
import Mathlib.Algebra.BigOperators.Group.Finset.Basic
import Mathlib.Algebra.Order.BigOperators.Group.Finset

noncomputable section

open scoped BigOperators

namespace Cert.GN

open Idealize.ShloMosaic Idealize.ShloMosaic.ValueIdx

/-! ## The matching of flat and four-dimensional indices -/

/-- Flat index to four-dimensional index, by row-major position. -/
abbrev unflat : S2.Idx ≃ SX.Idx := Shape.reshapeEquiv (s := SX) (s' := S2) casts_SX_S2

/-- The matching keeps the batch coordinate: b·524288 + j = ((b'·128 + c)·64 + h)·64 + w with j < 524288, c < 128,
    h < 64, w < 64 gives b' = b. -/
theorem unflat_batch (k : S2.Idx) : ((unflat k) 0).val = (k 0).val := by
  have h := Shape.rowMajor_reshapeEquiv (s := SX) (s' := S2) casts_SX_S2 k
  rw [Shape.rowMajor_val_four, Shape.rowMajor_val_two] at h
  have h' : ((((unflat k) 0).val * 128 + ((unflat k) 1).val) * 64 + ((unflat k) 2).val) * 64 + ((unflat k) 3).val
      = (k 0).val * 524288 + (k 1).val := h
  have h1 : ((unflat k) 1).val < 128 := ((unflat k) 1).isLt
  have h2 : ((unflat k) 2).val < 64 := ((unflat k) 2).isLt
  have h3 : ((unflat k) 3).val < 64 := ((unflat k) 3).isLt
  have k1 : (k 1).val < 524288 := (k 1).isLt
  omega

/-- The flattened array at a flat index is the array at the matched index. -/
theorem flat_apply {α : Type} (x : SX.Idx → α) (k : S2.Idx) : shapeCast S2 x casts_SX_S2 k = x (unflat k) := rfl

/-- Restoring the shape reads the flat array back at the matched flat index. -/
theorem unflat_apply {α : Type} (v : S2.Idx → α) (k : S2.Idx) : shapeCast SX v casts_S2_SX (unflat k) = v k :=
  shapeCast_apply v casts_S2_SX (unflat k) k (Shape.rowMajor_reshapeEquiv (s := SX) (s' := S2) casts_SX_S2 k).symm

/-! ## A sum over one batch row, re-indexed by the flat column -/

/-- For every summand: the sum over the four-dimensional indices of batch row b is the sum over the flat columns. -/
theorem sum_filter_row {M : Type} [AddCommMonoid M] (F : SX.Idx → M) (b : Fin 64) :
    ∑ i ∈ Finset.univ.filter (fun i : SX.Idx => (i 0).val = b.val), F i
      = ∑ j : Fin 524288, F (unflat (ix2 b j)) := by
  calc ∑ i ∈ Finset.univ.filter (fun i : SX.Idx => (i 0).val = b.val), F i
      = ∑ i : SX.Idx, if (i 0).val = b.val then F i else 0 := Finset.sum_filter _ _
    _ = ∑ k : S2.Idx, if ((unflat k) 0).val = b.val then F (unflat k) else 0 :=
        (Equiv.sum_comp unflat (fun i : SX.Idx => if (i 0).val = b.val then F i else 0)).symm
    _ = ∑ k : S2.Idx, if (k 0).val = b.val then F (unflat k) else 0 := by
        refine Finset.sum_congr rfl fun k _ => ?_
        rw [unflat_batch]
    _ = ∑ a : Fin 64, ∑ j : Fin 524288, if a.val = b.val then F (unflat (ix2 a j)) else 0 :=
        sum_idx2 (fun k : S2.Idx => if (k 0).val = b.val then F (unflat k) else 0)
    _ = ∑ j : Fin 524288, F (unflat (ix2 b j)) := by
        rw [Finset.sum_eq_single b]
        · exact Finset.sum_congr rfl fun j _ => if_pos rfl
        · intro a _ hab
          have hne : ¬ a.val = b.val := fun h => hab (Fin.ext h)
          exact Finset.sum_eq_zero fun j _ => if_neg hne
        · intro hb
          exact absurd (Finset.mem_univ b) hb

/-! ## The row statistics agree -/

theorem rowSum4_eq (x : FVec Ideal SX .f32) (b : Fin 64) :
    rowSum4 x b = rowSum2 (shapeCast S2 x casts_SX_S2) b :=
  sum_filter_row (fun i => x i) b

theorem mu4_eq (x : FVec Ideal SX .f32) (b : Fin 64) : mu4 x b = mu2 (shapeCast S2 x casts_SX_S2) b := by
  unfold mu4 mu2
  rw [rowSum4_eq, muR_eq_muK]

theorem vs4_eq (x : FVec Ideal SX .f32) (b : Fin 64) : vs4 x b = vs2 (shapeCast S2 x casts_SX_S2) b := by
  unfold vs4 vs2
  rw [mu4_eq]
  exact sum_filter_row (fun i => sqd (x i) (mu2 (shapeCast S2 x casts_SX_S2) b)) b

/-- A sum of squares is not negative. -/
theorem vs4_nonneg (x : FVec Ideal SX .f32) (b : Fin 64) : 0 ≤ vs4 x b :=
  Finset.sum_nonneg fun _ _ => sqd_nonneg _ _

theorem sg4_eq (isq : IVec SL 32 → BitVec 32 → BitVec 32) (x : FVec Ideal SX .f32) (lut : IVec SL 32) (b : Fin 64) :
    sg4 isq x lut b = sg2 isq (shapeCast S2 x casts_SX_S2) lut b := by
  unfold sg4 sg2
  rw [sigmaR_eq_sigmaK _ _ (vs4_nonneg x b), vs4_eq]

/-! ## The two results -/

theorem refF_eq_specF (isq : IVec SL 32 → BitVec 32 → BitVec 32) (x : FVec Ideal SX .f32) (lut : IVec SL 32) :
    refF isq x lut = specF isq x lut := by
  funext i
  obtain ⟨k, rfl⟩ : ∃ k : S2.Idx, i = unflat k := ⟨unflat.symm i, (Equiv.apply_symm_apply _ _).symm⟩
  have key : ∀ b b' : Fin 64, b = b' →
      outFR (x (unflat k)) (mu4 x b) (sg4 isq x lut b)
        = outFK (shapeCast S2 x casts_SX_S2 k) (mu2 (shapeCast S2 x casts_SX_S2) b')
            (sg2 isq (shapeCast S2 x casts_SX_S2) lut b') := by
    rintro b _ rfl
    rw [mu4_eq, sg4_eq, outFR_eq_outFK, flat_apply]
  unfold specF
  rw [unflat_apply]
  exact key _ _ (Fin.ext (unflat_batch k))

theorem refU_eq_specU (isq : IVec SL 32 → BitVec 32 → BitVec 32) (rem : BitVec 32 → BitVec 32)
    (hrem : ∀ w, rem w = w &&& 255#32) (x : FVec Ideal SX .f32) (lut : IVec SL 32) :
    refU isq rem x lut = specU isq x lut := by
  funext i
  obtain ⟨k, rfl⟩ : ∃ k : S2.Idx, i = unflat k := ⟨unflat.symm i, (Equiv.apply_symm_apply _ _).symm⟩
  have key : ∀ b b' : Fin 64, b = b' →
      outUR rem (x (unflat k)) (mu4 x b) (sg4 isq x lut b)
        = outUK (shapeCast S2 x casts_SX_S2 k) (mu2 (shapeCast S2 x casts_SX_S2) b')
            (sg2 isq (shapeCast S2 x casts_SX_S2) lut b') := by
    rintro b _ rfl
    rw [mu4_eq, sg4_eq, outUR_eq_outUK rem hrem, flat_apply]
  unfold specU
  rw [unflat_apply]
  exact key _ _ (Fin.ext (unflat_batch k))

end Cert.GN

end
-- ==== Proof.RTop.lean ====
/-
  The reference program's two results are the specification's two arrays.

  The reference's run leaves every buffer at the fold of its host operations over the launch contents; read at the two
  result buffers that fold is the reference's spelling of the fixed-point GroupNorm (row sums over the
  four-dimensional index, quotients by 524288 and 16, the low byte by a floored remainder), which is the kernel's
  spelling (flat rows, products with 2⁻¹⁹ and 1/16, the low byte by a bitwise and) array for array.
-/
import proofs.«400612_j57930518889080_3_alg».proof.Proof.RRun
import proofs.«400612_j57930518889080_3_alg».proof.Proof.RVal
import proofs.«400612_j57930518889080_3_alg».proof.Proof.BridgeSum
import proofs.«400612_j57930518889080_3_alg».proof.Proof.IntSpec

noncomputable section

namespace Cert.ReferenceIdeal.RT

open Idealize.ShloMosaic Idealize.ShloMosaic.TcCoe Idealize.SL.Sem Idealize.ShloMosaic.StableHlo Cert.ReferenceIdeal Cert.GN

/-- Every weakly fair execution of the reference terminates with its float result at specF, its integer result at specU
    (of the launch contents of its two arguments), and the arguments as launched. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v101) = specF isqrtI (m ((c.tc : Thread nD τ).loc main_arg0)) (m ((c.tc : Thread nD τ).loc main_arg1))
      ∧ r.2.mem ((c.tc : Thread nD τ).loc main_v103) = specU isqrtI (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_v101).trans ((RV.out_F (launchContents m c)).trans (refF_eq_specF isqrtI _ _)),
     (h c main_v103).trans ((RV.out_U (launchContents m c)).trans (refU_eq_specU isqrtI remI remI_eq_and _ _)),
     (h c main_arg0).trans (RV.arg0_eq (launchContents m c)),
     (h c main_arg1).trans (RV.arg1_eq (launchContents m c))⟩) (RR.run_main m ρ)

end Cert.ReferenceIdeal.RT

end
-- ==== Proof.lean ====
/-
  An integer (fixed-point) GroupNorm over x : f32[64, 128, 64, 64] with a 32-entry inverse-square-root table, one group
  per batch row: the Pallas program (a statistics kernel over flat rows, host arithmetic on the per-row scalars, a
  normalising kernel) against its plain jnp reference, equal over the extended reals.

  Both programs compute, per batch row of N = 524288 elements, the row sum S, the mean floor-quantised to 4 fractional
  bits and clipped (μ), the sum V of squared deviations from μ, the inverse standard deviation σ from V / N through a
  floor-quantiser, a fixed-point inverse square root with a table lookup, and a second quantiser, and then for every
  element the quantised (x - μ)·σ, returned as a float and as its two's-complement low byte.

  They differ in spelling only, and every difference is an identity on the extended reals or on 32-bit words:
    * the kernel multiplies by the f32 constants 2⁻¹⁹ and 1/16, the reference divides by 524288 and 16: the constants are
      exact dyadics, and a quotient by a nonzero real is the product with its reciprocal at every extended real;
    * the kernel sums a row chunk by chunk over the flattened array, the reference over three axes of the
      four-dimensional array: a finite sum of extended reals does not depend on order or grouping;
    * the kernel clamps the scaled sum of squares at 0 from below: a sum of squares is never negative;
    * the kernel's clip bounds are float literals, the reference's are integers converted to floats: the same numbers;
    * the kernel takes the low byte by a bitwise and with 255, the reference by a floored remainder by 256: the same
      word in two's complement;
    * the per-row integer routine is the same operations in both, over arrays of different ranks.
  No step needs the inputs finite, so the precondition is never opened.

  The kernel program's run ends with its two result buffers at the specification's arrays specF and specU of the two
  arguments (KTop: the generated frame's launch read at the result buffers, the two regions' blocks assembled into
  arrays, the host operations between them read at a row); the reference's run ends at the same two arrays (RTop: its
  run as a fold of its host operations, read at an index, and the identities above). The three frames are the two
  generated ones and the reference's run with its results dropped; the kernel's idealisation rewrote nothing.
-/
import proofs.«400612_j57930518889080_3_alg».proof.Defs
import proofs.«400612_j57930518889080_3_alg».proof.Proof.Gen.Kernel
import proofs.«400612_j57930518889080_3_alg».proof.Proof.Gen.Kernel.Skeleton
import proofs.«400612_j57930518889080_3_alg».proof.Proof.Gen.Kernel.Loops
import proofs.«400612_j57930518889080_3_alg».proof.Proof.Gen.Kernel.Launch
import proofs.«400612_j57930518889080_3_alg».proof.Proof.Gen.Kernel.Points
import proofs.«400612_j57930518889080_3_alg».proof.Proof.Gen.Kernel.Frame
import proofs.«400612_j57930518889080_3_alg».proof.Proof.Gen.KernelIdeal
import proofs.«400612_j57930518889080_3_alg».proof.Proof.Gen.KernelIdeal.Skeleton
import proofs.«400612_j57930518889080_3_alg».proof.Proof.Gen.KernelIdeal.Loops
import proofs.«400612_j57930518889080_3_alg».proof.Proof.Gen.KernelIdeal.Launch
import proofs.«400612_j57930518889080_3_alg».proof.Proof.Gen.KernelIdeal.Points
import proofs.«400612_j57930518889080_3_alg».proof.Proof.Gen.KernelIdeal.Frame
import proofs.«400612_j57930518889080_3_alg».proof.Proof.Gen.ReferenceIdeal
import proofs.«400612_j57930518889080_3_alg».proof.Proof.Gen.Pre_finite_inputs
import proofs.«400612_j57930518889080_3_alg».proof.Proof.KTop
import proofs.«400612_j57930518889080_3_alg».proof.Proof.RTop
import Idealize.ShloMosaic.Adequacy
import Idealize.ShloMosaic.Init

noncomputable section

namespace Cert.Proof

open Idealize.ShloMosaic Idealize.SL.Sem Cert.GN

/-- The word-level kernel program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealised kernel program runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its value run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.RT.reference_run m ρ)

/-- From memories agreeing on the two arguments both idealised programs end with the float result at specF and the
    integer result at specU of the kernel's arguments: each program's value run, the reference's arguments rewritten
    to the kernel's by the agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => specF isqrtI (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
     fun c => specU isqrtI (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
     Cert.KernelIdeal.KT.kernel_run m ρ,
     (θ_run Cert.ReferenceIdeal.defs _ _).mono (fun _ h c => by
        refine ⟨?_, ?_, (h c).2.2.1, (h c).2.2.2⟩
        · rw [(h c).1, (hagree c).1, (hagree c).2]
        · rw [(h c).2.1, (hagree c).1, (hagree c).2]) (Cert.ReferenceIdeal.RT.reference_run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
